-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S64x1024 .f32 .bf16
  ∧ IdealRules.truncf_extf.Statement Cert.KernelIdeal.S64x4096 .f32 .bf16
  ∧ IdealRules.truncf_extf.Statement Cert.KernelIdeal.S64x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_v221) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S5x1024x1024 : Shape := ⟨3, ![5, 1024, 1024]⟩
abbrev S5x1024 : Shape := ⟨2, ![5, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S5x1024x1024 : S_.BroadcastsInDim S5x1024x1024 (![] : Fin 0 → Fin S5x1024x1024.rank)
  reducesTo_S5x1024x1024_S_d0_1_2 : S5x1024x1024.ReducesTo [0, 1, 2] S_
  bcast_S_S5x1024 : S_.BroadcastsInDim S5x1024 (![] : Fin 0 → Fin S5x1024.rank)
  reducesTo_S5x1024_S_d0_1 : S5x1024.ReducesTo [0, 1] S_

variable [Facts]

def fn_part1 {F : FTy → Type} [FloatOps F] (main_arg4 : FVec F S1024 .f32) (main_arg5 : FVec F S5x1024x1024 .f32) (main_arg6 : FVec F S5x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S5x1024x1024 .f32 := Host.absf main_arg5
  let main_cst_8 : FVec F S_ .f32 := constant S_ .f32 0x7F800000#32
  let main_v25 : FVec F S5x1024x1024 .f32 := broadcastInDim S5x1024x1024 ![] bcast_S_S5x1024x1024 main_cst_8
  let main_v26 : IVec S5x1024x1024 1 := cmpf .olt main_v24 main_v25
  let main_c_9 : IVec S_ 1 := constantI S_ 1 1#1
  let main_v27 : IVec S_ 1 := (fun x v => Host.reduce IntOp.andi x v reducesTo_S5x1024x1024_S_d0_1_2 h_S_) main_v26 main_c_9
  let main_v28 : IVec S_ 1 := andi main_v23 main_v27
  let main_v29 : FVec F S5x1024 .f32 := Host.absf main_arg6
  let main_cst_10 : FVec F S_ .f32 := constant S_ .f32 0x7F800000#32
  let main_v30 : FVec F S5x1024 .f32 := broadcastInDim S5x1024 ![] bcast_S_S5x1024 main_cst_10
  let main_v31 : IVec S5x1024 1 := cmpf .olt main_v29 main_v30
  let main_c_11 : IVec S_ 1 := constantI S_ 1 1#1
  let main_v32 : IVec S_ 1 := (fun x v => Host.reduce IntOp.andi x v reducesTo_S5x1024_S_d0_1 h_S_) main_v31 main_c_11
  let main_v33 : IVec S_ 1 := andi main_v28 main_v32
  main_v33

def fn {F : FTy → Type} [FloatOps F] (main_arg0 : FVec F S8192x1024 .f32) (main_arg1 : FVec F S4096x1024 .f32) (main_arg2 : FVec F S4096 .f32) (main_arg3 : FVec F S1024x4096 .f32) (main_arg4 : FVec F S1024 .f32) (main_arg5 : FVec F S5x1024x1024 .f32) (main_arg6 : FVec F S5x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S5x1024x1024 : Shape := ⟨3, ![5, 1024, 1024]⟩
abbrev S5x1024 : Shape := ⟨2, ![5, 1024]⟩
abbrev S1x4096 : Shape := ⟨2, ![1, 4096]⟩
abbrev S1x1024 : Shape := ⟨2, ![1, 1024]⟩
abbrev S5x1x1024 : Shape := ⟨3, ![5, 1, 1024]⟩
abbrev S128x5x1024 : Shape := ⟨3, ![128, 5, 1024]⟩
abbrev S64x1024 : Shape := ⟨2, ![64, 1024]⟩
abbrev S1x5x1024 : Shape := ⟨3, ![1, 5, 1024]⟩
abbrev S64x4096 : Shape := ⟨2, ![64, 4096]⟩
abbrev S1x1024x1024 : Shape := ⟨3, ![1, 1024, 1024]⟩
abbrev S1024x1024 : Shape := ⟨2, ![1024, 1024]⟩
abbrev S1x1x1024 : Shape := ⟨3, ![1, 1, 1024]⟩
abbrev S64 : Shape := ⟨1, ![64]⟩
abbrev S64x1 : Shape := ⟨2, ![64, 1]⟩
abbrev S63x1024 : Shape := ⟨2, ![63, 1024]⟩
abbrev S_ : Shape := ⟨0, ![]⟩
abbrev S127x5x1024 : Shape := ⟨3, ![127, 5, 1024]⟩

abbrev nBuf : Space → Nat
  | .hbm => 33
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S5x1024x1024, .f32⟩
  | .hbm, ⟨6, _⟩ => ⟨S5x1024, .f32⟩
  | .hbm, ⟨7, _⟩ => ⟨S4096x1024, .bf16⟩
  | .hbm, ⟨8, _⟩ => ⟨S1024x4096, .bf16⟩
  | .hbm, ⟨9, _⟩ => ⟨S5x1024x1024, .bf16⟩
  | .hbm, ⟨10, _⟩ => ⟨S5x1024x1024, .f32⟩
  | .hbm, ⟨11, _⟩ => ⟨S5x1024x1024, .f32⟩
  | .hbm, ⟨12, _⟩ => ⟨S5x1024x1024, .bf16⟩
  | .hbm, ⟨13, _⟩ => ⟨S1x4096, .f32⟩
  | .hbm, ⟨14, _⟩ => ⟨S1x1024, .f32⟩
  | .hbm, ⟨15, _⟩ => ⟨S5x1x1024, .f32⟩
  | .hbm, ⟨16, _⟩ => ⟨S8192x1024, .f32⟩
  | .hbm, ⟨17, _⟩ => ⟨S8192x1024, .f32⟩
  | .hbm, ⟨18, _⟩ => ⟨S128x5x1024, .f32⟩
  | .hbm, ⟨19, _⟩ => ⟨S128x5x1024, .f32⟩
  | .hbm, ⟨20, _⟩ => ⟨S128x5x1024, .f32⟩
  | .hbm, ⟨21, _⟩ => ⟨S_, .f32⟩
  | .hbm, ⟨22, _⟩ => ⟨S5x1024, .f32⟩
  | .hbm, ⟨23, _⟩ => ⟨S127x5x1024, .f32⟩
  | .hbm, ⟨24, _⟩ => ⟨S127x5x1024, .f32⟩
  | .hbm, ⟨25, _⟩ => ⟨S127x5x1024, .f32⟩
  | .hbm, ⟨26, _⟩ => ⟨S127x5x1024, .f32⟩
  | .hbm, ⟨27, _⟩ => ⟨S_, .f32⟩
  | .hbm, ⟨28, _⟩ => ⟨S5x1024, .f32⟩
  | .hbm, ⟨29, _⟩ => ⟨S5x1024, .f32⟩
  | .hbm, ⟨30, _⟩ => ⟨S_, .f32⟩
  | .hbm, ⟨31, _⟩ => ⟨S1024, .f32⟩
  | .hbm, ⟨32, _⟩ => ⟨S1024x1024, .f32⟩
  | .local _ .vmem, ⟨0, _⟩ => ⟨S64x1024, .f32⟩
  | .local _ .vmem, ⟨1, _⟩ => ⟨S64x1024, .f32⟩
  | .local _ .vmem, ⟨2, _⟩ => ⟨S4096x1024, .bf16⟩
  | .local _ .vmem, ⟨3, _⟩ => ⟨S1x4096, .f32⟩
  | .local _ .vmem, ⟨4, _⟩ => ⟨S1024x4096, .bf16⟩
  | .local _ .vmem, ⟨5, _⟩ => ⟨S1x1024, .f32⟩
  | .local _ .vmem, ⟨6, _⟩ => ⟨S5x1024x1024, .bf16⟩
  | .local _ .vmem, ⟨7, _⟩ => ⟨S5x1024x1024, .bf16⟩
  | .local _ .vmem, ⟨8, _⟩ => ⟨S5x1x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S1x5x1024, .f32⟩
  | .local _ .vmem, ⟨14, _⟩ => ⟨S1x5x1024, .f32⟩
  | .local _ .vmem, ⟨15, _⟩ => ⟨S1x5x1024, .f32⟩
  | .local _ .vmem, ⟨16, _⟩ => ⟨S1x5x1024, .f32⟩
  | .local _ .vmem, ⟨17, _⟩ => ⟨S1x5x1024, .f32⟩
  | .local _ .vmem, ⟨18, _⟩ => ⟨S1x5x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c5_i32 : BitVec 32 := 5#32
  let v10 : BitVec 32 := Scalar.addi c0_i32 c5_i32
  let c1_i32 : BitVec 32 := 1#32
  ⟨c0_i32, v10, c1_i32⟩
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v34 : Index := Scalar.indexCast arg14
  let c0_18 : Index := 0#32
  let c0_19 : Index := 0#32
  ![v34.toNat, 0, 0]
def k0_off2 (k0_t1 : Fin k0_t1_loop.trips) : Fin 3 → Nat :=
  let c0_i32 : BitVec 32 := 0#32
  let c1_i32 : BitVec 32 := 1#32
  let arg14 : BitVec 32 := Scf.iv c0_i32 c1_i32 k0_t1
  let v40 : Index := Scalar.indexCast arg14
  let c0_22 : Index := 0#32
  let c0_23 : Index := 0#32
  ![v40.toNat, 0, 0]
def k0_off3 (k0_t1 : Fin k0_t1_loop.trips) : Fin 3 → Nat :=
  let c0_32 : Index := 0#32
  let c0_i32 : BitVec 32 := 0#32
  let c1_i32 : BitVec 32 := 1#32
  let arg14 : BitVec 32 := Scf.iv c0_i32 c1_i32 k0_t1
  let v77 : Index := Scalar.indexCast arg14
  let c0_33 : Index := 0#32
  ![0, v77.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x5x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x5x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x5x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  shapeCasts_S5x1024_S5x1x1024 : S5x1024.ShapeCasts S5x1x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S64x1024_S64x1024_0_0 : ∀ a, (![0, 0] : Fin 2 → Nat) a + S64x1024.size a ≤ S64x1024.size a
  h_S64x1024 : 0 < S64x1024.numel
  broadcasts_S1x4096_S64x4096 : S1x4096.Broadcasts S64x4096
  broadcasts_S1x1024_S64x1024 : S1x1024.Broadcasts S64x1024
  h_S1x1024x1024 : 0 < S1x1024x1024.numel
  shapeCasts_S1x1024x1024_S1024x1024 : S1x1024x1024.ShapeCasts S1024x1024
  h_S1x1x1024 : 0 < S1x1x1024.numel
  shapeCasts_S1x1x1024_S1x1024 : S1x1x1024.ShapeCasts S1x1024
  reduces_S64x1024_S64 : S64x1024.Reduces [1] S64
  shapeCasts_S64_S64x1 : S64.ShapeCasts S64x1
  broadcasts_S64x1_S64x1024 : S64x1.Broadcasts S64x1024
  slices_S64x1024_o1_0_S63x1024 : S64x1024.Slices ![1, 0] S63x1024
  slices_S64x1024_o0_0_S63x1024 : S64x1024.Slices ![0, 0] S63x1024
  reduces_S63x1024_S1024 : S63x1024.Reduces [0] S1024
  shapeCasts_S1x1024_S1x1x1024 : S1x1024.ShapeCasts S1x1x1024
  slices_S64x1024_o0_0_S1x1024 : S64x1024.Slices ![0, 0] S1x1024
  slices_S64x1024_o63_0_S1x1024 : S64x1024.Slices ![63, 0] S1x1024
  reducesTo_S128x5x1024_S5x1024_d0 : S128x5x1024.ReducesTo [0] S5x1024
  h_S_ : 0 < S_.numel
  slices_S128x5x1024_S127x5x1024_1_0_0 : S128x5x1024.Slices ![1, 0, 0] S127x5x1024
  slices_S128x5x1024_S127x5x1024_0_0_0 : S128x5x1024.Slices ![0, 0, 0] S127x5x1024
  reducesTo_S127x5x1024_S5x1024_d0 : S127x5x1024.ReducesTo [0] S5x1024
  reducesTo_S5x1024_S1024_d0 : S5x1024.ReducesTo [0] S1024
  bcast_S1024_S1024x1024_1 : S1024.BroadcastsInDim S1024x1024 (![1] : Fin 1 → Fin S1024x1024.rank)
  dot_S64x1024_S4096x1024_S64x4096_1_1_0_0_n_n_wf : DotDims.WF S64x1024 S4096x1024 S64x4096 [1] [1] [0] [0] [] []
  dot_S64x4096_S1024x4096_S64x1024_1_1_0_0_n_n_wf : DotDims.WF S64x4096 S1024x4096 S64x1024 [1] [1] [0] [0] [] []
  dot_S64x1024_S1024x1024_S64x1024_1_1_0_0_n_n_wf : DotDims.WF S64x1024 S1024x1024 S64x1024 [1] [1] [0] [0] [] []
  hrank0 : 0 < grid0.rank
  k0_t1_ok : k0_t1_loop.OK
  k0_off1_inb : ∀ k0_t1 : Fin k0_t1_loop.trips, ∀ a, (k0_off1 k0_t1) a + S1x1024x1024.size a ≤ S5x1024x1024.size a
  k0_off2_inb : ∀ k0_t1 : Fin k0_t1_loop.trips, ∀ a, (k0_off2 k0_t1) a + S1x1x1024.size a ≤ S5x1x1024.size a
  k0_off3_inb : ∀ k0_t1 : Fin k0_t1_loop.trips, ∀ a, (k0_off3 k0_t1) a + S1x1x1024.size a ≤ S1x5x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S8192x1024.size a
  hwx0_0 : ∀ i : grid0.Coords, EltTy.bits .f32 = 32 ∨ (Rect.block (s := S8192x1024) S64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1024x1024.size a ≤ S5x1024x1024.size a
  hwx0_5 : ∀ i : grid0.Coords, EltTy.bits .bf16 = 32 ∨ (Rect.block (s := S5x1024x1024) S5x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x1024x1024.size a ≤ S5x1024x1024.size a
  hwx0_6 : ∀ i : grid0.Coords, EltTy.bits .bf16 = 32 ∨ (Rect.block (s := S5x1024x1024) S5x1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x1x1024.size a ≤ S5x1x1024.size a
  hwx0_7 : ∀ i : grid0.Coords, EltTy.bits .f32 = 32 ∨ (Rect.block (s := S5x1x1024) S5x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S8192x1024.size a
  hwx0_8 : ∀ i : grid0.Coords, EltTy.bits .f32 = 32 ∨ (Rect.block (s := S8192x1024) S64x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x1024.size a ≤ S8192x1024.size a
  hwx0_9 : ∀ i : grid0.Coords, EltTy.bits .f32 = 32 ∨ (Rect.block (s := S8192x1024) S64x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x5x1024.size a ≤ S128x5x1024.size a
  hwx0_10 : ∀ i : grid0.Coords, EltTy.bits .f32 = 32 ∨ (Rect.block (s := S128x5x1024) S1x5x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x5x1024.size a ≤ S128x5x1024.size a
  hwx0_11 : ∀ i : grid0.Coords, EltTy.bits .f32 = 32 ∨ (Rect.block (s := S128x5x1024) S1x5x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x5x1024.size a ≤ S128x5x1024.size a
  hwx0_12 : ∀ i : grid0.Coords, EltTy.bits .f32 = 32 ∨ (Rect.block (s := S128x5x1024) S1x5x1024.size (cc0_transform_12 i) (hinb0_12 i)).WholeWords (EltTy.packing .f32)

variable [Facts₀]

def dot_S64x1024_S4096x1024_S64x4096_1_1_0_0_n_n : DotDims S64x1024 S4096x1024 S64x4096 where
  lhsContracting := [1]
  rhsContracting := [1]
  lhsNonContracting := [0]
  rhsNonContracting := [0]
  lhsBatch := []
  rhsBatch := []
  wf := dot_S64x1024_S4096x1024_S64x4096_1_1_0_0_n_n_wf
def dot_S64x4096_S1024x4096_S64x1024_1_1_0_0_n_n : DotDims S64x4096 S1024x4096 S64x1024 where
  lhsContracting := [1]
  rhsContracting := [1]
  lhsNonContracting := [0]
  rhsNonContracting := [0]
  lhsBatch := []
  rhsBatch := []
  wf := dot_S64x4096_S1024x4096_S64x1024_1_1_0_0_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S5x1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S5x1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S64x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S64x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_2) S1x5x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_3) S1x5x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_4) S1x5x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S5x1024x1024 : Shape := ⟨3, ![5, 1024, 1024]⟩
abbrev S5x1024 : Shape := ⟨2, ![5, 1024]⟩
abbrev S8192x4096 : Shape := ⟨2, ![8192, 4096]⟩
abbrev S1x4096 : Shape := ⟨2, ![1, 4096]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8191x1024 : Shape := ⟨2, ![8191, 1024]⟩

abbrev nBuf : Space → Nat
  | .hbm => 255
  | .vmem => 0
  | .smem => 0
  | _ => 0

abbrev hbmTy0_0 (i : Nat) : BufTy := match i % 128 with
  | 0 => ⟨S8192x1024, .f32⟩
  | 1 => ⟨S4096x1024, .f32⟩
  | 2 => ⟨S4096, .f32⟩
  | 3 => ⟨S1024x4096, .f32⟩
  | 4 => ⟨S1024, .f32⟩
  | 5 => ⟨S5x1024x1024, .f32⟩
  | 6 => ⟨S5x1024, .f32⟩
  | 7 => ⟨S1024x4096, .f32⟩
  | 8 => ⟨S8192x4096, .f32⟩
  | 9 => ⟨S1x4096, .f32⟩
  | 10 => ⟨S8192x4096, .f32⟩
  | 11 => ⟨S8192x4096, .f32⟩
  | 12 => ⟨S4096x1024, .f32⟩
  | 13 => ⟨S8192x1024, .f32⟩
  | 14 => ⟨S1x1024, .f32⟩
  | 15 => ⟨S8192x1024, .f32⟩
  | 16 => ⟨S8192x1024, .f32⟩
  | 17 => ⟨S1x1024x1024, .f32⟩
  | 18 => ⟨S1024x1024, .f32⟩
  | 19 => ⟨S1x1024, .f32⟩
  | 20 => ⟨S1024, .f32⟩
  | 21 => ⟨S1024x1024, .f32⟩
  | 22 => ⟨S8192x1024, .f32⟩
  | 23 => ⟨S1x1024, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S8192x1024, .f32⟩
  | 30 => ⟨S_, .f32⟩
  | 31 => ⟨S8192, .f32⟩
  | 32 => ⟨S8192x1, .f32⟩
  | 33 => ⟨S8192x1, .f32⟩
  | 34 => ⟨S8192x1024, .f32⟩
  | 35 => ⟨S_, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8191x1024, .f32⟩
  | 48 => ⟨S8191x1024, .f32⟩
  | 49 => ⟨S8191x1024, .f32⟩
  | 50 => ⟨S8191x1024, .f32⟩
  | 51 => ⟨S_, .f32⟩
  | 52 => ⟨S1024, .f32⟩
  | 53 => ⟨S1024x1024, .f32⟩
  | 54 => ⟨S8192x1024, .f32⟩
  | 55 => ⟨S1024x4096, .f32⟩
  | 56 => ⟨S8192x4096, .f32⟩
  | 57 => ⟨S1x4096, .f32⟩
  | 58 => ⟨S8192x4096, .f32⟩
  | 59 => ⟨S8192x4096, .f32⟩
  | 60 => ⟨S4096x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S1x1024x1024, .f32⟩
  | 67 => ⟨S1024x1024, .f32⟩
  | 68 => ⟨S1x1024, .f32⟩
  | 69 => ⟨S1024, .f32⟩
  | 70 => ⟨S1024x1024, .f32⟩
  | 71 => ⟨S8192x1024, .f32⟩
  | 72 => ⟨S1x1024, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S8192x1024, .f32⟩
  | 79 => ⟨S_, .f32⟩
  | 80 => ⟨S8192, .f32⟩
  | 81 => ⟨S8192x1, .f32⟩
  | 82 => ⟨S8192x1, .f32⟩
  | 83 => ⟨S8192x1024, .f32⟩
  | 84 => ⟨S_, .f32⟩
  | 85 => ⟨S_, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S8191x1024, .f32⟩
  | 97 => ⟨S8191x1024, .f32⟩
  | 98 => ⟨S8191x1024, .f32⟩
  | 99 => ⟨S8191x1024, .f32⟩
  | 100 => ⟨S_, .f32⟩
  | 101 => ⟨S1024, .f32⟩
  | 102 => ⟨S1024x1024, .f32⟩
  | 103 => ⟨S1024x1024, .f32⟩
  | 104 => ⟨S8192x1024, .f32⟩
  | 105 => ⟨S1024x4096, .f32⟩
  | 106 => ⟨S8192x4096, .f32⟩
  | 107 => ⟨S1x4096, .f32⟩
  | 108 => ⟨S8192x4096, .f32⟩
  | 109 => ⟨S8192x4096, .f32⟩
  | 110 => ⟨S4096x1024, .f32⟩
  | 111 => ⟨S8192x1024, .f32⟩
  | 112 => ⟨S1x1024, .f32⟩
  | 113 => ⟨S8192x1024, .f32⟩
  | 114 => ⟨S8192x1024, .f32⟩
  | 115 => ⟨S8192x1024, .f32⟩
  | 116 => ⟨S1x1024x1024, .f32⟩
  | 117 => ⟨S1024x1024, .f32⟩
  | 118 => ⟨S1x1024, .f32⟩
  | 119 => ⟨S1024, .f32⟩
  | 120 => ⟨S1024x1024, .f32⟩
  | 121 => ⟨S8192x1024, .f32⟩
  | 122 => ⟨S1x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1, .f32⟩
  | 5 => ⟨S8192x1024, .f32⟩
  | 6 => ⟨S_, .f32⟩
  | 7 => ⟨S_, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8191x1024, .f32⟩
  | 19 => ⟨S8191x1024, .f32⟩
  | 20 => ⟨S8191x1024, .f32⟩
  | 21 => ⟨S8191x1024, .f32⟩
  | 22 => ⟨S_, .f32⟩
  | 23 => ⟨S1024, .f32⟩
  | 24 => ⟨S1024x1024, .f32⟩
  | 25 => ⟨S1024x1024, .f32⟩
  | 26 => ⟨S8192x1024, .f32⟩
  | 27 => ⟨S1024x4096, .f32⟩
  | 28 => ⟨S8192x4096, .f32⟩
  | 29 => ⟨S1x4096, .f32⟩
  | 30 => ⟨S8192x4096, .f32⟩
  | 31 => ⟨S8192x4096, .f32⟩
  | 32 => ⟨S4096x1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S1x1024x1024, .f32⟩
  | 39 => ⟨S1024x1024, .f32⟩
  | 40 => ⟨S1x1024, .f32⟩
  | 41 => ⟨S1024, .f32⟩
  | 42 => ⟨S1024x1024, .f32⟩
  | 43 => ⟨S8192x1024, .f32⟩
  | 44 => ⟨S1x1024, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S8192x1024, .f32⟩
  | 51 => ⟨S_, .f32⟩
  | 52 => ⟨S8192, .f32⟩
  | 53 => ⟨S8192x1, .f32⟩
  | 54 => ⟨S8192x1, .f32⟩
  | 55 => ⟨S8192x1024, .f32⟩
  | 56 => ⟨S_, .f32⟩
  | 57 => ⟨S_, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8191x1024, .f32⟩
  | 69 => ⟨S8191x1024, .f32⟩
  | 70 => ⟨S8191x1024, .f32⟩
  | 71 => ⟨S8191x1024, .f32⟩
  | 72 => ⟨S_, .f32⟩
  | 73 => ⟨S1024, .f32⟩
  | 74 => ⟨S1024x1024, .f32⟩
  | 75 => ⟨S1024x1024, .f32⟩
  | 76 => ⟨S8192x1024, .f32⟩
  | 77 => ⟨S1024x4096, .f32⟩
  | 78 => ⟨S8192x4096, .f32⟩
  | 79 => ⟨S1x4096, .f32⟩
  | 80 => ⟨S8192x4096, .f32⟩
  | 81 => ⟨S8192x4096, .f32⟩
  | 82 => ⟨S4096x1024, .f32⟩
  | 83 => ⟨S8192x1024, .f32⟩
  | 84 => ⟨S1x1024, .f32⟩
  | 85 => ⟨S8192x1024, .f32⟩
  | 86 => ⟨S8192x1024, .f32⟩
  | 87 => ⟨S8192x1024, .f32⟩
  | 88 => ⟨S1x1024x1024, .f32⟩
  | 89 => ⟨S1024x1024, .f32⟩
  | 90 => ⟨S1x1024, .f32⟩
  | 91 => ⟨S1024, .f32⟩
  | 92 => ⟨S1024x1024, .f32⟩
  | 93 => ⟨S8192x1024, .f32⟩
  | 94 => ⟨S1x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S_, .f32⟩
  | 102 => ⟨S8192, .f32⟩
  | 103 => ⟨S8192x1, .f32⟩
  | 104 => ⟨S8192x1, .f32⟩
  | 105 => ⟨S8192x1024, .f32⟩
  | 106 => ⟨S_, .f32⟩
  | 107 => ⟨S_, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S8192x1024, .f32⟩
  | 118 => ⟨S8191x1024, .f32⟩
  | 119 => ⟨S8191x1024, .f32⟩
  | 120 => ⟨S8191x1024, .f32⟩
  | 121 => ⟨S8191x1024, .f32⟩
  | 122 => ⟨S_, .f32⟩
  | 123 => ⟨S1024, .f32⟩
  | 124 => ⟨S1024x1024, .f32⟩
  | 125 => ⟨S1024x1024, .f32⟩
  | 126 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_4 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_6 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_8 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_9 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_10 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_cst_11 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_12 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_13 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_cst_14 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_cst_15 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_cst_16 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_cst_17 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_cst_18 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_cst_19 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_cst_20 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_cst_21 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_cst_22 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_cst_23 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S5x1024x1024_S1x1024x1024_0_0_0 : S5x1024x1024.Slices ![0, 0, 0] S1x1024x1024
  shapeCasts_S1x1024x1024_S1024x1024 : S1x1024x1024.ShapeCasts S1024x1024
  slices_S5x1024_S1x1024_0_0 : S5x1024.Slices ![0, 0] S1x1024
  shapeCasts_S1x1024_S1024 : S1x1024.ShapeCasts S1024
  transposes_S1024x1024_S1024x1024_1_0 : S1024x1024.Transposes [1, 0] S1024x1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  slices_S8192x1024_S8191x1024_1_0 : S8192x1024.Slices ![1, 0] S8191x1024
  slices_S8192x1024_S8191x1024_0_0 : S8192x1024.Slices ![0, 0] S8191x1024
  reducesTo_S8191x1024_S1024_d0 : S8191x1024.ReducesTo [0] S1024
  bcast_S1024_S1024x1024_1 : S1024.BroadcastsInDim S1024x1024 (![1] : Fin 1 → Fin S1024x1024.rank)
  slices_S5x1024x1024_S1x1024x1024_1_0_0 : S5x1024x1024.Slices ![1, 0, 0] S1x1024x1024
  slices_S5x1024_S1x1024_1_0 : S5x1024.Slices ![1, 0] S1x1024
  slices_S5x1024x1024_S1x1024x1024_2_0_0 : S5x1024x1024.Slices ![2, 0, 0] S1x1024x1024
  slices_S5x1024_S1x1024_2_0 : S5x1024.Slices ![2, 0] S1x1024
  slices_S5x1024x1024_S1x1024x1024_3_0_0 : S5x1024x1024.Slices ![3, 0, 0] S1x1024x1024
  slices_S5x1024_S1x1024_3_0 : S5x1024.Slices ![3, 0] S1x1024
  slices_S5x1024x1024_S1x1024x1024_4_0_0 : S5x1024x1024.Slices ![4, 0, 0] S1x1024x1024
  slices_S5x1024_S1x1024_4_0 : S5x1024.Slices ![4, 0] S1x1024
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The mathematics of the residual chain on ONE ROW, over the extended reals.

  A row `z` of the activations passes five times through the same block
  `z ↦ (z W1ᵀ + b1) W2ᵀ + b2`; the block's output `o` is subtracted from the row and
  added to a running total, and a linear read-out `u = o Wcᵀ + bc` of it is turned into
  the vector `c j = u j · (∑ u) / max (|u j| · 32 · √(∑ u²)) ε`.
  One program forms every product `a · w` as `a · w + (a - a) · w` (and, for the read-out,
  also adds `a · (w - w)`): on real numbers the added terms vanish. The loss adds
  `|c (r+1) - c r|` over consecutive rows; a sum over 8191 consecutive rows splits into
  128 tiles of 63 inner differences and the 127 differences across tile borders.
-/
import Idealize.ShloMosaic.PureOps.Ideal
import Idealize.ShloMosaic.PureOps.Ideal.Laws

noncomputable section

open scoped BigOperators

namespace Cert.Spec

open Idealize.ShloMosaic

/-- An extended real that is a real number. -/
def IsReal (a : EReal) : Prop := ∃ r : ℝ, a = (r : EReal)

/-! ## One dense layer on a row, in its three spellings -/

/-- `(z Wᵀ + b) j = ∑ t, z t · W j t + b j`. -/
def dense {n k : ℕ} (W : Fin n → Fin k → EReal) (b : Fin n → EReal) (z : Fin k → EReal) : Fin n → EReal :=
  fun j => (∑ t : Fin k, z t * W j t) + b j

/-- The same layer with the row written as itself plus its remainder `z - z`. -/
def denseSplit {n k : ℕ} (W : Fin n → Fin k → EReal) (b : Fin n → EReal) (z : Fin k → EReal) : Fin n → EReal :=
  fun j => ((∑ t : Fin k, z t * W j t) + ∑ t : Fin k, (z t - z t) * W j t) + b j

/-- The same layer with both factors split and the product of the two remainders left out. -/
def denseSplit3 {n k : ℕ} (W : Fin n → Fin k → EReal) (b : Fin n → EReal) (z : Fin k → EReal) : Fin n → EReal :=
  fun j => (((∑ t : Fin k, z t * W j t) + ∑ t : Fin k, z t * (W j t - W j t))
    + ∑ t : Fin k, (z t - z t) * W j t) + b j

/-- The read-out as it is computed: high and low parts of the weights given separately, the row split, the
    product of the two remainders left out. -/
def dense3 {n k : ℕ} (Wh Wl : Fin n → Fin k → EReal) (b : Fin n → EReal) (z : Fin k → EReal) : Fin n → EReal :=
  fun j => (((∑ t : Fin k, z t * Wh j t) + ∑ t : Fin k, z t * Wl j t)
    + ∑ t : Fin k, (z t - z t) * Wh j t) + b j

/-- With the low part the weights' own remainder this is the doubly split layer. -/
theorem dense3_self {n k : ℕ} (W : Fin n → Fin k → EReal) (b : Fin n → EReal) (z : Fin k → EReal) :
    dense3 W (fun j t => W j t - W j t) b z = denseSplit3 W b z := rfl

/-! ## The cosine-like vector of a read-out row -/

/-- The lower bound of the denominator: the float `1e-8`. -/
def eps : EReal := Ideal.ofBits .f32 0x322BCC77#32

/-- The float `32.0`, the square root of the row length. -/
def s32 : EReal := Ideal.ofBits .f32 0x42000000#32

/-- `c j = u j · (∑ u) / max ((|u j| · s) · √(∑ u²)) ε`, with `|a| = max a (-a)`. -/
def cosRow {n : ℕ} (s : EReal) (u : Fin n → EReal) : Fin n → EReal := fun j =>
  Ideal.div (u j * ∑ t : Fin n, u t)
    (max ((max (u j) (-(u j)) * s) * Ideal.sqrt (∑ t : Fin n, u t * u t)) eps)

/-! ## The weights, the block, and the chain of five layers on a row -/

/-- The weights, by coordinates. -/
structure Params where
  W1 : Fin 4096 → Fin 1024 → EReal
  b1 : Fin 4096 → EReal
  W2 : Fin 1024 → Fin 4096 → EReal
  b2 : Fin 1024 → EReal
  Wc : Fin 5 → Fin 1024 → Fin 1024 → EReal
  bc : Fin 5 → Fin 1024 → EReal

/-- Every weight the products' remainders touch is a real number (`bc` is only ever added). -/
structure Params.Real (p : Params) : Prop where
  W1 : ∀ j t, IsReal (p.W1 j t)
  b1 : ∀ j, IsReal (p.b1 j)
  W2 : ∀ j t, IsReal (p.W2 j t)
  b2 : ∀ j, IsReal (p.b2 j)
  Wc : ∀ l j t, IsReal (p.Wc l j t)

/-- The block `z ↦ (z W1ᵀ + b1) W2ᵀ + b2`. -/
def block (p : Params) (z : Fin 1024 → EReal) : Fin 1024 → EReal := dense p.W2 p.b2 (dense p.W1 p.b1 z)

/-- The block with every product's left factor split. -/
def blockK (p : Params) (z : Fin 1024 → EReal) : Fin 1024 → EReal :=
  denseSplit p.W2 p.b2 (denseSplit p.W1 p.b1 z)

/-- The row before layer `l`: each layer subtracts its block's output. -/
def zAt (p : Params) (x : Fin 1024 → EReal) : ℕ → Fin 1024 → EReal
  | 0 => x
  | l + 1 => fun j => zAt p x l j - block p (zAt p x l) j

/-- Layer `l`'s block output. -/
def boAt (p : Params) (x : Fin 1024 → EReal) (l : ℕ) : Fin 1024 → EReal := block p (zAt p x l)

/-- The total of the block outputs of the layers before `l`, from zero. -/
def invAt (p : Params) (x : Fin 1024 → EReal) : ℕ → Fin 1024 → EReal
  | 0 => fun _ => 0
  | l + 1 => fun j => invAt p x l j + boAt p x l j

/-- Layer `l`'s read-out row. -/
def loutAt (p : Params) (x : Fin 1024 → EReal) (l : Fin 5) : Fin 1024 → EReal :=
  dense (p.Wc l) (p.bc l) (boAt p x l.val)

/-- Layer `l`'s cosine-like vector. -/
def cAt (p : Params) (x : Fin 1024 → EReal) (l : Fin 5) : Fin 1024 → EReal := cosRow s32 (loutAt p x l)

/-- One layer on the carried pair (row, total), every product's left factor split. -/
def stepK (p : Params) (s : (Fin 1024 → EReal) × (Fin 1024 → EReal)) : (Fin 1024 → EReal) × (Fin 1024 → EReal) :=
  (fun j => s.1 j - blockK p s.1 j, fun j => s.2 j + blockK p s.1 j)

/-- The read-out of a carried row, every product split. -/
def loutK (p : Params) (l : Fin 5) (z : Fin 1024 → EReal) : Fin 1024 → EReal :=
  denseSplit3 (p.Wc l) (p.bc l) (blockK p z)

/-! ## The loss of one column -/

/-- `|f (r+1) - f r|`. -/
def adiff (f : ℕ → EReal) (r : ℕ) : EReal := max (f (r + 1) - f r) (-(f (r + 1) - f r))

/-- One layer's column loss: the differences of all 8191 consecutive rows, added to zero. -/
def colLoss (f : ℕ → EReal) : EReal := 0 + ∑ r : Fin 8191, adiff f r

/-- The five layers' column losses, added left to right. -/
def lossRef (g : Fin 5 → ℕ → EReal) : EReal :=
  (((colLoss (g 0) + colLoss (g 1)) + colLoss (g 2)) + colLoss (g 3)) + colLoss (g 4)

/-- The same loss by tiles of 64 rows: per layer the 128 tiles' 63 inner differences and the 127
    differences across tile borders, the layers added to zero. -/
def lossK (g : Fin 5 → ℕ → EReal) : EReal :=
  0 + ∑ l : Fin 5, ((0 + ∑ t : Fin 128, ∑ r : Fin 63, adiff (g l) (64 * t.val + r.val))
    + (0 + ∑ t : Fin 127, adiff (g l) (64 * t.val + 63)))

/-! ## The laws -/

theorem isReal_coe (r : ℝ) : IsReal (r : EReal) := ⟨r, rfl⟩

/-- A real number minus itself is zero (an infinity minus itself is not). -/
theorem sub_self_of_isReal {a : EReal} (h : IsReal a) : a - a = 0 := by
  obtain ⟨r, rfl⟩ := h
  rw [← EReal.coe_sub, sub_self, EReal.coe_zero]

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_sub {a b : EReal} (ha : IsReal a) (hb : IsReal b) : IsReal (a - b) := by
  obtain ⟨r, rfl⟩ := ha
  obtain ⟨s, rfl⟩ := hb
  exact ⟨r - s, (EReal.coe_sub r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_sum {ι : Type*} (s : Finset ι) (f : ι → EReal) (h : ∀ i ∈ s, IsReal (f i)) : IsReal (∑ i ∈ s, f i) := by
  classical
  induction s using Finset.induction_on with
  | empty => exact ⟨0, by rw [Finset.sum_empty, EReal.coe_zero]⟩
  | insert a s ha ih =>
    rw [Finset.sum_insert ha]
    exact isReal_add (h a (Finset.mem_insert_self a s))
      (ih fun i hi => h i (Finset.mem_insert_of_mem hi))

theorem isReal_dense {n k : ℕ} (W : Fin n → Fin k → EReal) (b : Fin n → EReal) (z : Fin k → EReal)
    (hW : ∀ j t, IsReal (W j t)) (hb : ∀ j, IsReal (b j)) (hz : ∀ t, IsReal (z t)) (j : Fin n) :
    IsReal (dense W b z j) := by
  unfold dense
  exact isReal_add (isReal_sum _ _ fun t _ => isReal_mul (hz t) (hW j t)) (hb j)

/-- Splitting a real row changes nothing. -/
theorem denseSplit_eq {n k : ℕ} (W : Fin n → Fin k → EReal) (b : Fin n → EReal) (z : Fin k → EReal)
    (hz : ∀ t, IsReal (z t)) : denseSplit W b z = dense W b z := by
  funext j
  unfold denseSplit dense
  -- every remainder `z t - z t` of a real entry is zero, so the added sum is a sum of zeros
  have h0 : ∑ t : Fin k, (z t - z t) * W j t = 0 :=
    Finset.sum_eq_zero fun t _ => by rw [sub_self_of_isReal (hz t), zero_mul]
  rw [h0, add_zero]

/-- Splitting a real row and real weights changes nothing. -/
theorem denseSplit3_eq {n k : ℕ} (W : Fin n → Fin k → EReal) (b : Fin n → EReal) (z : Fin k → EReal)
    (hz : ∀ t, IsReal (z t)) (hW : ∀ j t, IsReal (W j t)) : denseSplit3 W b z = dense W b z := by
  funext j
  unfold denseSplit3 dense
  -- both added sums are sums of zeros: a real weight's remainder and a real entry's remainder vanish
  have hw0 : ∑ t : Fin k, z t * (W j t - W j t) = 0 :=
    Finset.sum_eq_zero fun t _ => by rw [sub_self_of_isReal (hW j t), mul_zero]
  have hz0 : ∑ t : Fin k, (z t - z t) * W j t = 0 :=
    Finset.sum_eq_zero fun t _ => by rw [sub_self_of_isReal (hz t), zero_mul]
  rw [hw0, hz0, add_zero, add_zero]

theorem isReal_block (p : Params) (hp : p.Real) (z : Fin 1024 → EReal) (hz : ∀ t, IsReal (z t)) (j : Fin 1024) :
    IsReal (block p z j) := by
  unfold block
  exact isReal_dense _ _ _ hp.W2 hp.b2 (fun t => isReal_dense _ _ _ hp.W1 hp.b1 hz t) j

theorem blockK_eq (p : Params) (hp : p.Real) (z : Fin 1024 → EReal) (hz : ∀ t, IsReal (z t)) :
    blockK p z = block p z := by
  unfold blockK block
  rw [denseSplit_eq _ _ _ hz,
    denseSplit_eq _ _ _ (fun t => isReal_dense _ _ _ hp.W1 hp.b1 hz t)]

theorem isReal_zAt (p : Params) (hp : p.Real) (x : Fin 1024 → EReal) (hx : ∀ t, IsReal (x t)) (l : ℕ) (j : Fin 1024) :
    IsReal (zAt p x l j) := by
  induction l generalizing j with
  | zero => exact hx j
  | succ l ih =>
    show IsReal (zAt p x l j - block p (zAt p x l) j)
    exact isReal_sub (ih j) (isReal_block p hp _ ih j)

/-- The carried pair after `l` split layers is the chain's row and total. -/
theorem stepK_iterate (p : Params) (hp : p.Real) (x : Fin 1024 → EReal) (hx : ∀ t, IsReal (x t)) (l : ℕ) :
    (stepK p)^[l] (x, fun _ => 0) = (zAt p x l, invAt p x l) := by
  induction l with
  | zero => rfl
  | succ l ih =>
    rw [Function.iterate_succ_apply', ih]
    -- one split layer on the chain's real row is one plain layer
    show (fun j => zAt p x l j - blockK p (zAt p x l) j,
        fun j => invAt p x l j + blockK p (zAt p x l) j) = _
    rw [blockK_eq p hp _ (isReal_zAt p hp x hx l)]
    rfl

/-- The split read-out of the chain's row is the plain one. -/
theorem loutK_eq (p : Params) (hp : p.Real) (x : Fin 1024 → EReal) (hx : ∀ t, IsReal (x t)) (l : Fin 5) :
    loutK p l (zAt p x l.val) = loutAt p x l := by
  unfold loutK loutAt boAt
  rw [blockK_eq p hp _ (isReal_zAt p hp x hx l.val)]
  exact denseSplit3_eq _ _ _ (isReal_block p hp _ (isReal_zAt p hp x hx l.val)) (hp.Wc l)

/-- `√1024 = 32`, as floats read exactly. -/
theorem sqrt_1024 : Ideal.sqrt (Ideal.ofBits .f32 0x44800000#32) = s32 := by
  -- the word 0x44800000 denotes 2^10 = 1024 and the word 0x42000000 denotes 2^5 = 32
  have h1024 : Ideal.ofBits .f32 0x44800000#32 = ((1024 : ℝ) : EReal) := by
    simp [Ideal.ofBits, Ideal.ieee, -EReal.coe_mul]; norm_num
  have h32 : s32 = ((32 : ℝ) : EReal) := by
    unfold s32
    simp [Ideal.ofBits, Ideal.ieee, -EReal.coe_mul]; norm_num
  have hs : Real.sqrt 1024 = 32 := by
    rw [show (1024 : ℝ) = 32 ^ 2 by norm_num]
    exact Real.sqrt_sq (by norm_num)
  rw [h1024, h32, Ideal.sqrt_coe, if_neg (by norm_num), hs]

/-- The first `64 n + 63` terms of a sequence, by tiles of 64: the `n + 1` tiles' first 63 terms and
    the `n` terms that close a tile. Only commutativity and associativity of the sum are used. -/
private theorem range_tile (f : ℕ → EReal) (n : ℕ) :
    ∑ r ∈ Finset.range (64 * n + 63), f r
      = (∑ t ∈ Finset.range (n + 1), ∑ r ∈ Finset.range 63, f (64 * t + r))
        + ∑ t ∈ Finset.range n, f (64 * t + 63) := by
  induction n with
  | zero => simp
  | succ n ih =>
    have hlen : 64 * (n + 1) + 63 = (64 * n + 63) + 1 + 63 := by ring
    have hidx : ∀ x, 64 * n + 63 + 1 + x = 64 * (n + 1) + x := fun x => by ring
    rw [hlen, Finset.sum_range_add, Finset.sum_range_succ, ih,
      Finset.sum_range_succ (fun t => ∑ r ∈ Finset.range 63, f (64 * t + r)) (n + 1),
      Finset.sum_range_succ (fun t => f (64 * t + 63)) n]
    simp only [hidx]
    abel

/-- 8191 consecutive differences are the 128 tiles' inner ones and the 127 across the borders. -/
theorem tile_sum (f : ℕ → EReal) :
    (∑ t : Fin 128, ∑ r : Fin 63, adiff f (64 * t.val + r.val)) + ∑ t : Fin 127, adiff f (64 * t.val + 63)
      = ∑ r : Fin 8191, adiff f r := by
  have h1 : (∑ t : Fin 128, ∑ r : Fin 63, adiff f (64 * t.val + r.val))
      = ∑ t ∈ Finset.range 128, ∑ r ∈ Finset.range 63, adiff f (64 * t + r) := by
    rw [← Fin.sum_univ_eq_sum_range (fun t => ∑ r ∈ Finset.range 63, adiff f (64 * t + r)) 128]
    exact Finset.sum_congr rfl fun t _ =>
      Fin.sum_univ_eq_sum_range (fun r => adiff f (64 * t.val + r)) 63
  have h2 : (∑ t : Fin 127, adiff f (64 * t.val + 63))
      = ∑ t ∈ Finset.range 127, adiff f (64 * t + 63) :=
    Fin.sum_univ_eq_sum_range (fun t => adiff f (64 * t + 63)) 127
  have h3 : (∑ r : Fin 8191, adiff f r) = ∑ r ∈ Finset.range 8191, adiff f r :=
    Fin.sum_univ_eq_sum_range (fun r => adiff f r) 8191
  rw [h1, h2, h3]
  -- 8191 = 64 · 127 + 63
  exact (range_tile (adiff f) 127).symm

theorem lossK_eq (g : Fin 5 → ℕ → EReal) : lossK g = lossRef g := by
  unfold lossK lossRef colLoss
  rw [Fin.sum_univ_five]
  simp only [zero_add, tile_sum]

end Cert.Spec

end
-- ==== Proof.FinPre.lean ====
/-
  The precondition read back: where `|a| < +∞` holds of every entry of every argument, every entry is a real number.
-/
import proofs.«405528_j52175262712147_4_alg».proof.Pre_finite_inputs
import proofs.«405528_j52175262712147_4_alg».proof.Proof.Gen.Pre_finite_inputs
import proofs.«405528_j52175262712147_4_alg».proof.Proof.Spec
import Idealize.ShloMosaic.Lib.ValueIdx
import Idealize.ShloMosaic.Lib.ReduceAll

noncomputable section

namespace Cert.FinPre

open Idealize.ShloMosaic Idealize.ShloMosaic.ValueIdx Cert.Pre_finite_inputs

/-- An extended real whose absolute value is below `+∞` is a real number. -/
theorem isReal_of_abs_lt_top (a : EReal) (h : max a (-a) < ⊤) : Spec.IsReal a := by
  induction a using EReal.rec with
  | bot => exact absurd h (by simp)
  | coe r => exact ⟨r, rfl⟩
  | top => exact absurd h (by simp)

/-- The shape of a scalar has exactly one index. -/
private instance subsingleton_scalar_idx : Subsingleton S_.Idx := ⟨fun _ _ => funext fun d => d.elim0⟩

/-- The word `0x7F800000` denotes `+∞`. -/
private theorem ofBits_inf : Ideal.ofBits .f32 0x7F800000#32 = (⊤ : EReal) := by
  simp [Ideal.ofBits, Ideal.ieee]

/-- One entry of the comparison `|a| < +∞`, read back: where its bit is set the entry of `a` is a real number. -/
private theorem isReal_of_bit {s : Shape} (a : FVec Ideal s .f32) (hb : S_.BroadcastsInDim s (![] : Fin 0 → Fin s.rank))
    (i : s.Idx)
    (e : cmpf .olt (Host.absf a) (broadcastInDim s ![] hb (constant S_ .f32 0x7F800000#32)) i = 1#1) :
    Spec.IsReal (a i) := by
  apply isReal_of_abs_lt_top
  have e' : BitVec.ofBool (decide (max (a i) (-(a i)) < Ideal.ofBits .f32 0x7F800000#32)) = 1#1 := e
  rw [ofBits_inf] at e'
  cases hd : decide (max (a i) (-(a i)) < (⊤ : EReal)) with
  | true => exact of_decide_eq_true hd
  | false => rw [hd] at e'; exact absurd e' (by decide)

/-- The precondition at its seven arguments: every entry of each is a real number. -/
theorem real_of_pre [hP : Cert.Pre_finite_inputs.Facts]
    (a0 : FVec Ideal S8192x1024 .f32) (a1 : FVec Ideal S4096x1024 .f32) (a2 : FVec Ideal S4096 .f32)
    (a3 : FVec Ideal S1024x4096 .f32) (a4 : FVec Ideal S1024 .f32) (a5 : FVec Ideal S5x1024x1024 .f32)
    (a6 : FVec Ideal S5x1024 .f32)
    (h : Cert.Pre_finite_inputs.fn (F := Ideal) a0 a1 a2 a3 a4 a5 a6 = fun _ => 1#1) :
    (∀ i, Spec.IsReal (a0 i)) ∧ (∀ i, Spec.IsReal (a1 i)) ∧ (∀ i, Spec.IsReal (a2 i)) ∧ (∀ i, Spec.IsReal (a3 i))
      ∧ (∀ i, Spec.IsReal (a4 i)) ∧ (∀ i, Spec.IsReal (a5 i)) ∧ (∀ i, Spec.IsReal (a6 i)) := by
  have h0 := congrFun h ValueIdx.ix0
  dsimp only [fn, fn_part1] at h0
  -- the result is the conjunction of seven bits, nested to the left
  simp only [andi, IntOp.andi_eq_one] at h0
  obtain ⟨⟨⟨⟨⟨⟨e0, e1⟩, e2⟩, e3⟩, e4⟩, e5⟩, e6⟩ := h0
  exact ⟨fun i => isReal_of_bit a0 _ i (Host.reduce_andi_all _ _ _ _ _ e0 i),
    fun i => isReal_of_bit a1 _ i (Host.reduce_andi_all _ _ _ _ _ e1 i),
    fun i => isReal_of_bit a2 _ i (Host.reduce_andi_all _ _ _ _ _ e2 i),
    fun i => isReal_of_bit a3 _ i (Host.reduce_andi_all _ _ _ _ _ e3 i),
    fun i => isReal_of_bit a4 _ i (Host.reduce_andi_all _ _ _ _ _ e4 i),
    fun i => isReal_of_bit a5 _ i (Host.reduce_andi_all _ _ _ _ _ e5 i),
    fun i => isReal_of_bit a6 _ i (Host.reduce_andi_all _ _ _ _ _ e6 i)⟩

end Cert.FinPre

end
-- ==== Proof.KTrip.lean ====
/-
  The body's counted loop read as a fold. One trip takes the carried pair (row tile, running total) to
  (tile - block output, total + block output) and writes, at row `k` of each of the three small outputs, one
  row computed from the read-out of the block output with layer `k`'s weights. After the five trips the two
  big outputs hold the carried pair and row `l` of each small output holds trip `l`'s row.
-/
import proofs.«405528_j52175262712147_4_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.KTrip

open Idealize.ShloMosaic Idealize.ShloMosaic.TcCoe Idealize.ShloMosaic.Tactic Idealize.SL.Sem
open Idealize.ShloMosaic.ValueIdx
open Cert.KernelIdeal Cert.KernelIdeal.Gen

variable {F : FTy → Type} [FloatOps F]

/-- The loop runs five trips. -/
theorem trips_eq : k0_t1_loop.trips = 5 := by decide +kernel

/-- One trip on the carried pair. -/
def loopStep (v0 : Vec F S4096x1024 .bf16) (v2 : Vec F S1x4096 .f32) (v4 : Vec F S1024x4096 .bf16) (v6 : Vec F S1x1024 .f32)
    (acc : Vec F S64x1024 .f32 × FVec F S64x1024 .f32) : Vec F S64x1024 .f32 × FVec F S64x1024 .f32 :=
  (k0_pay12 (k0_pay1 v0) (k0_pay2 v2) (k0_pay3 v4) (k0_pay4 v6) acc.1, k0_pay11 (k0_pay1 v0) (k0_pay2 v2) (k0_pay3 v4) (k0_pay4 v6) acc.1 acc.2)

/-- Layer `k`'s slice of a stacked array of weights, as the trip loads it. -/
def ldW (a : Memref sig .tc .vmem S5x1024x1024 .bf16) (X : BufTy.Contents (Elt F) a.view.ty) (k : Fin k0_t1_loop.trips) :
    Vec F S1x1024x1024 .bf16 :=
  View.readAt (Elt F) a.view (Rect.unit (s := S5x1024x1024) (k0_off1 k) S1x1024x1024.size (k0_off1_inb k)).toLoadRect X

/-- Layer `k`'s slice of the stacked biases, as the trip loads it. -/
def ldB (a : Memref sig .tc .vmem S5x1x1024 .f32) (X : BufTy.Contents (Elt F) a.view.ty) (k : Fin k0_t1_loop.trips) :
    Vec F S1x1x1024 .f32 :=
  View.readAt (Elt F) a.view (Rect.unit (s := S5x1x1024) (k0_off2 k) S1x1x1024.size (k0_off2_inb k)).toLoadRect X

/-- The trip's result is one step of the fold (the trip's definition opened here, once). -/
theorem tripR_eq (𝒱 : Variants) (c : Dev nD) (bd : Option 𝒱.V) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole) (v0 : Vec F S4096x1024 .bf16) (v2 : Vec F S1x4096 .f32) (v4 : Vec F S1024x4096 .bf16) (v6 : Vec F S1x1024 .f32) (X_arg6 : BufTy.Contents (Elt F) arg6.view.ty) (X_arg7 : BufTy.Contents (Elt F) arg7.view.ty) (X_arg8 : BufTy.Contents (Elt F) arg8.view.ty)
    (k : Fin k0_t1_loop.trips) (acc : Vec F S64x1024 .f32 × FVec F S64x1024 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 k acc = loopStep v0 v2 v4 v6 acc := by
  unfold tripR_k0_t1
  unfold trip_k0_t1
  dsimp only
  sl_unfold_words
  rfl

/-- The trip's three one-piece lists: row `k` of each small output, holding the three rows of the cosine-like tile
    of the read-out of the carried tile (the trip's definition opened here, once). -/
theorem tripL_eq (𝒱 : Variants) (c : Dev nD) (bd : Option 𝒱.V) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole) (v0 : Vec F S4096x1024 .bf16) (v2 : Vec F S1x4096 .f32) (v4 : Vec F S1024x4096 .bf16) (v6 : Vec F S1x1024 .f32) (X_arg6 : BufTy.Contents (Elt F) arg6.view.ty) (X_arg7 : BufTy.Contents (Elt F) arg7.view.ty) (X_arg8 : BufTy.Contents (Elt F) arg8.view.ty)
    (k : Fin k0_t1_loop.trips) (acc : Vec F S64x1024 .f32 × FVec F S64x1024 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 k acc
      = ([⟨Rect.unit (s := S1x5x1024) (k0_off3 k) S1x1x1024.size (k0_off3_inb k),
            k0_pay7 (k0_pay13 (k0_pay1 v0) (k0_pay2 v2) (k0_pay3 v4) (k0_pay4 v6) acc.1 (ldW arg6 X_arg6 k) (ldW arg7 X_arg7 k) (ldB arg8 X_arg8 k))
              (k0_pay14 (k0_pay1 v0) (k0_pay2 v2) (k0_pay3 v4) (k0_pay4 v6) acc.1 (ldW arg6 X_arg6 k) (ldW arg7 X_arg7 k) (ldB arg8 X_arg8 k))
              (k0_pay15 (k0_pay1 v0) (k0_pay2 v2) (k0_pay3 v4) (k0_pay4 v6) acc.1 (ldW arg6 X_arg6 k) (ldW arg7 X_arg7 k) (ldB arg8 X_arg8 k))⟩],
         [⟨Rect.unit (s := S1x5x1024) (k0_off3 k) S1x1x1024.size (k0_off3_inb k),
            k0_pay8 (k0_pay13 (k0_pay1 v0) (k0_pay2 v2) (k0_pay3 v4) (k0_pay4 v6) acc.1 (ldW arg6 X_arg6 k) (ldW arg7 X_arg7 k) (ldB arg8 X_arg8 k))
              (k0_pay14 (k0_pay1 v0) (k0_pay2 v2) (k0_pay3 v4) (k0_pay4 v6) acc.1 (ldW arg6 X_arg6 k) (ldW arg7 X_arg7 k) (ldB arg8 X_arg8 k))
              (k0_pay15 (k0_pay1 v0) (k0_pay2 v2) (k0_pay3 v4) (k0_pay4 v6) acc.1 (ldW arg6 X_arg6 k) (ldW arg7 X_arg7 k) (ldB arg8 X_arg8 k))⟩],
         [⟨Rect.unit (s := S1x5x1024) (k0_off3 k) S1x1x1024.size (k0_off3_inb k),
            k0_pay9 (k0_pay13 (k0_pay1 v0) (k0_pay2 v2) (k0_pay3 v4) (k0_pay4 v6) acc.1 (ldW arg6 X_arg6 k) (ldW arg7 X_arg7 k) (ldB arg8 X_arg8 k))
              (k0_pay14 (k0_pay1 v0) (k0_pay2 v2) (k0_pay3 v4) (k0_pay4 v6) acc.1 (ldW arg6 X_arg6 k) (ldW arg7 X_arg7 k) (ldB arg8 X_arg8 k))
              (k0_pay15 (k0_pay1 v0) (k0_pay2 v2) (k0_pay3 v4) (k0_pay4 v6) acc.1 (ldW arg6 X_arg6 k) (ldW arg7 X_arg7 k) (ldB arg8 X_arg8 k))⟩]) := by
  unfold tripL_k0_t1
  unfold trip_k0_t1
  dsimp only
  sl_unfold_words
  rfl

/-- The carried pair before trip `n` is `n` steps of the fold. -/
theorem st_val (𝒱 : Variants) (c : Dev nD) (bd : Option 𝒱.V) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole) (v0 : Vec F S4096x1024 .bf16) (v2 : Vec F S1x4096 .f32) (v4 : Vec F S1024x4096 .bf16) (v6 : Vec F S1x1024 .f32) (X_arg6 : BufTy.Contents (Elt F) arg6.view.ty) (X_arg7 : BufTy.Contents (Elt F) arg7.view.ty) (X_arg8 : BufTy.Contents (Elt F) arg8.view.ty)
    (init : Vec F S64x1024 .f32 × FVec F S64x1024 .f32) :
    ∀ (n : ℕ), n ≤ k0_t1_loop.trips →
      (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n).1 = (loopStep v0 v2 v4 v6)^[n] init
  | 0, _ => rfl
  | n + 1, hn => by
    have h := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init ⟨n, hn⟩
    rw [show n + 1 = (⟨n, hn⟩ : Fin k0_t1_loop.trips).val + 1 from rfl, h]
    dsimp only
    rw [tripR_eq, st_val 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n (Nat.le_of_succ_le hn), Function.iterate_succ_apply']

/-! ## The pieces of the small outputs -/

/-- A stored row as a function of the trip's loads and the carried tile. -/
def rowOf (pay : FVec F S64x1024 .f32 → FVec F S64x1 .f32 → FVec F S64 .f32 → FVec F S1x1x1024 .f32)
    (v0 : Vec F S4096x1024 .bf16) (v2 : Vec F S1x4096 .f32) (v4 : Vec F S1024x4096 .bf16) (v6 : Vec F S1x1024 .f32)
    (wh wl : Vec F S1x1024x1024 .bf16) (bl : Vec F S1x1x1024 .f32) (z : Vec F S64x1024 .f32) : FVec F S1x1x1024 .f32 :=
  pay (k0_pay13 (k0_pay1 v0) (k0_pay2 v2) (k0_pay3 v4) (k0_pay4 v6) z wh wl bl) (k0_pay14 (k0_pay1 v0) (k0_pay2 v2) (k0_pay3 v4) (k0_pay4 v6) z wh wl bl) (k0_pay15 (k0_pay1 v0) (k0_pay2 v2) (k0_pay3 v4) (k0_pay4 v6) z wh wl bl)

/-- The pieces of the trips below `n`, the latest first: trip `k` writes row `k`. -/
def pcs (row : Fin k0_t1_loop.trips → FVec F S1x1x1024 .f32) :
    (n : ℕ) → n ≤ k0_t1_loop.trips → List (View.Piece (Elt F) S1x5x1024 .f32)
  | 0, _ => []
  | n + 1, h => ⟨Rect.unit (s := S1x5x1024) (k0_off3 ⟨n, h⟩) S1x1x1024.size (k0_off3_inb ⟨n, h⟩), row ⟨n, h⟩⟩
      :: pcs row n (Nat.le_of_succ_le h)

/-- Read back, row `l` of the pieces of the trips below `n` is trip `l`'s row. -/
theorem canon_pcs (row : Fin k0_t1_loop.trips → FVec F S1x1x1024 .f32) :
    ∀ (n : ℕ) (hn : n ≤ k0_t1_loop.trips) (l : ℕ) (hl : l < n) (j : Fin 1024),
      View.canon (pcs row n hn) (ix3 (0 : Fin 1) (⟨l, by have := trips_eq; omega⟩ : Fin 5) j)
        = row ⟨l, by omega⟩ (ix3 (0 : Fin 1) (0 : Fin 1) j)
  | 0, _, l, hl, _ => absurd hl (Nat.not_lt_zero l)
  | n + 1, hn, l, hl, j => by
    have h5 := trips_eq
    by_cases h : l = n
    · subst h
      have e : (ix3 (0 : Fin 1) (⟨l, by omega⟩ : Fin 5) j : S1x5x1024.Idx)
          = (Rect.unit (s := S1x5x1024) (k0_off3 ⟨l, hn⟩) S1x1x1024.size (k0_off3_inb ⟨l, hn⟩)).emb
              (ix3 (0 : Fin 1) (0 : Fin 1) j) := by
        have o0 : k0_off3 ⟨l, hn⟩ 0 = 0 := by rw [k0_off3_eq]; rfl
        have o1 : k0_off3 ⟨l, hn⟩ 1 = l := by rw [k0_off3_eq]; rfl
        have o2 : k0_off3 ⟨l, hn⟩ 2 = 0 := by rw [k0_off3_eq]; rfl
        funext a
        apply Fin.ext
        rw [Rect.emb_apply, Rect.off_unit, Rect.stride_unit]
        match a with
        | ⟨0, _⟩ => show (0 : ℕ) = k0_off3 ⟨l, hn⟩ 0 + 1 * 0; omega
        | ⟨1, _⟩ => show l = k0_off3 ⟨l, hn⟩ 1 + 1 * 0; omega
        | ⟨2, _⟩ => show j.val = k0_off3 ⟨l, hn⟩ 2 + 1 * j.val; omega
      rw [pcs, e, View.canon_cons_emb]
    · have hl' : l < n := by omega
      rw [pcs, View.canon_cons_of_not_mem]
      · exact canon_pcs row n (Nat.le_of_succ_le hn) l hl' j
      · rw [Rect.mem_set_unit]
        intro hm
        have o1 : k0_off3 ⟨n, hn⟩ 1 = n := by rw [k0_off3_eq]; rfl
        have h1 : k0_off3 ⟨n, hn⟩ 1 ≤ l := (hm (1 : Fin 3)).1
        omega

/-- The state's three piece lists before trip `n`. -/
theorem st_pieces (𝒱 : Variants) (c : Dev nD) (bd : Option 𝒱.V) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole) (v0 : Vec F S4096x1024 .bf16) (v2 : Vec F S1x4096 .f32) (v4 : Vec F S1024x4096 .bf16) (v6 : Vec F S1x1024 .f32) (X_arg6 : BufTy.Contents (Elt F) arg6.view.ty) (X_arg7 : BufTy.Contents (Elt F) arg7.view.ty) (X_arg8 : BufTy.Contents (Elt F) arg8.view.ty)
    (init : Vec F S64x1024 .f32 × FVec F S64x1024 .f32) :
    ∀ (n : ℕ) (hn : n ≤ k0_t1_loop.trips),
      (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n).2
        = (pcs (fun k => rowOf k0_pay7 v0 v2 v4 v6 (ldW arg6 X_arg6 k) (ldW arg7 X_arg7 k) (ldB arg8 X_arg8 k)
              ((loopStep v0 v2 v4 v6)^[k.val] init).1) n hn,
           pcs (fun k => rowOf k0_pay8 v0 v2 v4 v6 (ldW arg6 X_arg6 k) (ldW arg7 X_arg7 k) (ldB arg8 X_arg8 k)
              ((loopStep v0 v2 v4 v6)^[k.val] init).1) n hn,
           pcs (fun k => rowOf k0_pay9 v0 v2 v4 v6 (ldW arg6 X_arg6 k) (ldW arg7 X_arg7 k) (ldB arg8 X_arg8 k)
              ((loopStep v0 v2 v4 v6)^[k.val] init).1) n hn)
  | 0, _ => rfl
  | n + 1, hn => by
    have h := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init ⟨n, hn⟩
    have hv := st_val (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n (Nat.le_of_succ_le hn)
    have hp := st_pieces 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n (Nat.le_of_succ_le hn)
    have h2 : (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init (n + 1)).2
        = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 ⟨n, hn⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n).1).1 ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n).2.1,
           (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 ⟨n, hn⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n).1).2.1 ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n).2.2.1,
           (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 ⟨n, hn⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n).1).2.2 ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 X_arg6 X_arg7 X_arg8 init n).2.2.2) := congrArg Prod.snd h
    rw [h2, tripL_eq, hv, hp]
    rfl

/-! ## The five outputs' tiles after the body -/

theorem hz2 : (![0, 0] : Fin 2 → Nat) = fun _ => 0 := funext fun a => by fin_cases a <;> rfl

/-- The carried pair after `n` trips, from the input tile and the zero total. -/
def carried (x0 : Vec F S64x1024 .f32) (x1 : Vec F S4096x1024 .bf16) (x2 : Vec F S1x4096 .f32) (x3 : Vec F S1024x4096 .bf16)
    (x4 : Vec F S1x1024 .f32) (n : ℕ) : Vec F S64x1024 .f32 × FVec F S64x1024 .f32 :=
  (loopStep x1 x2 x3 x4)^[n] (x0, k0_pay5)

/-- Layer `k`'s slice of a stacked array of weights. -/
def slW (x : Vec F S5x1024x1024 .bf16) (k : Fin k0_t1_loop.trips) : Vec F S1x1024x1024 .bf16 :=
  View.ld x (Rect.unit (s := S5x1024x1024) (k0_off1 k) S1x1024x1024.size (k0_off1_inb k))

/-- Layer `k`'s slice of the stacked biases. -/
def slB (x : Vec F S5x1x1024 .f32) (k : Fin k0_t1_loop.trips) : Vec F S1x1x1024 .f32 :=
  View.ld x (Rect.unit (s := S5x1x1024) (k0_off2 k) S1x1x1024.size (k0_off2_inb k))

/-- The second big output's tile is the carried row tile after the five trips. -/
theorem out9_eq (c : Dev nD) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole)
    (x0 : Vec F S64x1024 .f32) (x1 : Vec F S4096x1024 .bf16) (x2 : Vec F S1x4096 .f32) (x3 : Vec F S1024x4096 .bf16) (x4 : Vec F S1x1024 .f32) (x5 : Vec F S5x1024x1024 .bf16) (x6 : Vec F S5x1024x1024 .bf16) (x7 : Vec F S5x1x1024 .f32) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = (carried x0 x1 x2 x3 x4 5).1 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  rw [View.canon_unit_zero hz2]
  simp only [View.readAt_eq_ld, harg1.read_unread, harg2.read_unread, harg3.read_unread, harg4.read_unread, harg5.read_unread,
    View.ld_unit_zero (S := S64x1024) hz2, View.ld_unit_zero (S := S4096x1024) hz2, View.ld_unit_zero (S := S1x4096) hz2,
    View.ld_unit_zero (S := S1024x4096) hz2, View.ld_unit_zero (S := S1x1024) hz2]
  have h := st_val (F := F) Variants.none c none i arg1 harg1 arg2 harg2 arg3 harg3 arg4 harg4 arg5 harg5 arg6 harg6 arg7 harg7 arg8 harg8 arg9 harg9 arg10 harg10 arg11 harg11 arg12 harg12 arg13 harg13 x1 x2 x3 x4 (harg6.unread x5) (harg7.unread x6) (harg8.unread x7) (x0, k0_pay5) k0_t1_loop.trips le_rfl
  exact congrArg Prod.fst (h.trans (by rw [trips_eq]; rfl))

/-- The first big output's tile is the carried total after the five trips. -/
theorem out8_eq (c : Dev nD) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole)
    (x0 : Vec F S64x1024 .f32) (x1 : Vec F S4096x1024 .bf16) (x2 : Vec F S1x4096 .f32) (x3 : Vec F S1024x4096 .bf16) (x4 : Vec F S1x1024 .f32) (x5 : Vec F S5x1024x1024 .bf16) (x6 : Vec F S5x1024x1024 .bf16) (x7 : Vec F S5x1x1024 .f32) :
    out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = (carried x0 x1 x2 x3 x4 5).2 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  rw [View.canon_unit_zero hz2]
  simp only [View.readAt_eq_ld, harg1.read_unread, harg2.read_unread, harg3.read_unread, harg4.read_unread, harg5.read_unread,
    View.ld_unit_zero (S := S64x1024) hz2, View.ld_unit_zero (S := S4096x1024) hz2, View.ld_unit_zero (S := S1x4096) hz2,
    View.ld_unit_zero (S := S1024x4096) hz2, View.ld_unit_zero (S := S1x1024) hz2]
  have h := st_val (F := F) Variants.none c none i arg1 harg1 arg2 harg2 arg3 harg3 arg4 harg4 arg5 harg5 arg6 harg6 arg7 harg7 arg8 harg8 arg9 harg9 arg10 harg10 arg11 harg11 arg12 harg12 arg13 harg13 x1 x2 x3 x4 (harg6.unread x5) (harg7.unread x6) (harg8.unread x7) (x0, k0_pay5) k0_t1_loop.trips le_rfl
  exact congrArg Prod.snd (h.trans (by rw [trips_eq]; rfl))

/-- A load of layer `k`'s slice through a whole staging buffer reads the slice of its contents. -/
theorem ldW_unread (a : Memref sig .tc .vmem S5x1024x1024 .bf16) (h : a.IsWhole) (x : Vec F S5x1024x1024 .bf16)
    (k : Fin k0_t1_loop.trips) : ldW a (h.unread x) k = slW x k := by
  unfold ldW slW; rw [View.readAt_eq_ld, h.read_unread]

theorem ldB_unread (a : Memref sig .tc .vmem S5x1x1024 .f32) (h : a.IsWhole) (x : Vec F S5x1x1024 .f32)
    (k : Fin k0_t1_loop.trips) : ldB a (h.unread x) k = slB x k := by
  unfold ldB slB; rw [View.readAt_eq_ld, h.read_unread]

/-- Row `l` of output 10's tile is trip `l`'s stored row. -/
theorem out10_apply (c : Dev nD) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole)
    (x0 : Vec F S64x1024 .f32) (x1 : Vec F S4096x1024 .bf16) (x2 : Vec F S1x4096 .f32) (x3 : Vec F S1024x4096 .bf16) (x4 : Vec F S1x1024 .f32) (x5 : Vec F S5x1024x1024 .bf16) (x6 : Vec F S5x1024x1024 .bf16) (x7 : Vec F S5x1x1024 .f32) (l : Fin 5) (j : Fin 1024) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix3 (0 : Fin 1) l j)
      = rowOf k0_pay7 x1 x2 x3 x4 (slW x5 (⟨l.val, by rw [trips_eq]; exact l.isLt⟩ : Fin k0_t1_loop.trips)) (slW x6 (⟨l.val, by rw [trips_eq]; exact l.isLt⟩ : Fin k0_t1_loop.trips)) (slB x7 (⟨l.val, by rw [trips_eq]; exact l.isLt⟩ : Fin k0_t1_loop.trips))
          (carried x0 x1 x2 x3 x4 l.val).1 (ix3 (0 : Fin 1) (0 : Fin 1) j) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  simp only [View.readAt_eq_ld, harg1.read_unread, harg2.read_unread, harg3.read_unread, harg4.read_unread, harg5.read_unread,
    View.ld_unit_zero (S := S64x1024) hz2, View.ld_unit_zero (S := S4096x1024) hz2, View.ld_unit_zero (S := S1x4096) hz2,
    View.ld_unit_zero (S := S1024x4096) hz2, View.ld_unit_zero (S := S1x1024) hz2]
  have hp := st_pieces (F := F) Variants.none c none i arg1 harg1 arg2 harg2 arg3 harg3 arg4 harg4 arg5 harg5 arg6 harg6 arg7 harg7 arg8 harg8 arg9 harg9 arg10 harg10 arg11 harg11 arg12 harg12 arg13 harg13 x1 x2 x3 x4 (harg6.unread x5) (harg7.unread x6) (harg8.unread x7) (x0, k0_pay5) k0_t1_loop.trips le_rfl
  have hc := canon_pcs (F := F) (fun k => rowOf k0_pay7 x1 x2 x3 x4 (ldW arg6 (harg6.unread x5) k) (ldW arg7 (harg7.unread x6) k) (ldB arg8 (harg8.unread x7) k) ((loopStep x1 x2 x3 x4)^[k.val] (x0, k0_pay5)).1) k0_t1_loop.trips le_rfl l.val (by rw [trips_eq]; exact l.isLt) j
  refine (congrArg (fun L => View.canon L (ix3 (0 : Fin 1) l j)) (congrArg (fun s => s.1) hp)).trans ?_
  refine hc.trans ?_
  simp only [ldW_unread, ldB_unread]
  rfl

/-- Row `l` of output 11's tile is trip `l`'s stored row. -/
theorem out11_apply (c : Dev nD) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole)
    (x0 : Vec F S64x1024 .f32) (x1 : Vec F S4096x1024 .bf16) (x2 : Vec F S1x4096 .f32) (x3 : Vec F S1024x4096 .bf16) (x4 : Vec F S1x1024 .f32) (x5 : Vec F S5x1024x1024 .bf16) (x6 : Vec F S5x1024x1024 .bf16) (x7 : Vec F S5x1x1024 .f32) (l : Fin 5) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix3 (0 : Fin 1) l j)
      = rowOf k0_pay8 x1 x2 x3 x4 (slW x5 (⟨l.val, by rw [trips_eq]; exact l.isLt⟩ : Fin k0_t1_loop.trips)) (slW x6 (⟨l.val, by rw [trips_eq]; exact l.isLt⟩ : Fin k0_t1_loop.trips)) (slB x7 (⟨l.val, by rw [trips_eq]; exact l.isLt⟩ : Fin k0_t1_loop.trips))
          (carried x0 x1 x2 x3 x4 l.val).1 (ix3 (0 : Fin 1) (0 : Fin 1) j) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  simp only [View.readAt_eq_ld, harg1.read_unread, harg2.read_unread, harg3.read_unread, harg4.read_unread, harg5.read_unread,
    View.ld_unit_zero (S := S64x1024) hz2, View.ld_unit_zero (S := S4096x1024) hz2, View.ld_unit_zero (S := S1x4096) hz2,
    View.ld_unit_zero (S := S1024x4096) hz2, View.ld_unit_zero (S := S1x1024) hz2]
  have hp := st_pieces (F := F) Variants.none c none i arg1 harg1 arg2 harg2 arg3 harg3 arg4 harg4 arg5 harg5 arg6 harg6 arg7 harg7 arg8 harg8 arg9 harg9 arg10 harg10 arg11 harg11 arg12 harg12 arg13 harg13 x1 x2 x3 x4 (harg6.unread x5) (harg7.unread x6) (harg8.unread x7) (x0, k0_pay5) k0_t1_loop.trips le_rfl
  have hc := canon_pcs (F := F) (fun k => rowOf k0_pay8 x1 x2 x3 x4 (ldW arg6 (harg6.unread x5) k) (ldW arg7 (harg7.unread x6) k) (ldB arg8 (harg8.unread x7) k) ((loopStep x1 x2 x3 x4)^[k.val] (x0, k0_pay5)).1) k0_t1_loop.trips le_rfl l.val (by rw [trips_eq]; exact l.isLt) j
  refine (congrArg (fun L => View.canon L (ix3 (0 : Fin 1) l j)) (congrArg (fun s => s.2.1) hp)).trans ?_
  refine hc.trans ?_
  simp only [ldW_unread, ldB_unread]
  rfl

/-- Row `l` of output 12's tile is trip `l`'s stored row. -/
theorem out12_apply (c : Dev nD) (i : grid0.Coords) (arg1 : Memref sig .tc .vmem S64x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S5x1024x1024 .bf16) (harg6 : arg6.IsWhole) (arg7 : Memref sig .tc .vmem S5x1024x1024 .bf16) (harg7 : arg7.IsWhole) (arg8 : Memref sig .tc .vmem S5x1x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S1x5x1024 .f32) (harg11 : arg11.IsWhole) (arg12 : Memref sig .tc .vmem S1x5x1024 .f32) (harg12 : arg12.IsWhole) (arg13 : Memref sig .tc .vmem S1x5x1024 .f32) (harg13 : arg13.IsWhole)
    (x0 : Vec F S64x1024 .f32) (x1 : Vec F S4096x1024 .bf16) (x2 : Vec F S1x4096 .f32) (x3 : Vec F S1024x4096 .bf16) (x4 : Vec F S1x1024 .f32) (x5 : Vec F S5x1024x1024 .bf16) (x6 : Vec F S5x1024x1024 .bf16) (x7 : Vec F S5x1x1024 .f32) (l : Fin 5) (j : Fin 1024) :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix3 (0 : Fin 1) l j)
      = rowOf k0_pay9 x1 x2 x3 x4 (slW x5 (⟨l.val, by rw [trips_eq]; exact l.isLt⟩ : Fin k0_t1_loop.trips)) (slW x6 (⟨l.val, by rw [trips_eq]; exact l.isLt⟩ : Fin k0_t1_loop.trips)) (slB x7 (⟨l.val, by rw [trips_eq]; exact l.isLt⟩ : Fin k0_t1_loop.trips))
          (carried x0 x1 x2 x3 x4 l.val).1 (ix3 (0 : Fin 1) (0 : Fin 1) j) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  simp only [View.readAt_eq_ld, harg1.read_unread, harg2.read_unread, harg3.read_unread, harg4.read_unread, harg5.read_unread,
    View.ld_unit_zero (S := S64x1024) hz2, View.ld_unit_zero (S := S4096x1024) hz2, View.ld_unit_zero (S := S1x4096) hz2,
    View.ld_unit_zero (S := S1024x4096) hz2, View.ld_unit_zero (S := S1x1024) hz2]
  have hp := st_pieces (F := F) Variants.none c none i arg1 harg1 arg2 harg2 arg3 harg3 arg4 harg4 arg5 harg5 arg6 harg6 arg7 harg7 arg8 harg8 arg9 harg9 arg10 harg10 arg11 harg11 arg12 harg12 arg13 harg13 x1 x2 x3 x4 (harg6.unread x5) (harg7.unread x6) (harg8.unread x7) (x0, k0_pay5) k0_t1_loop.trips le_rfl
  have hc := canon_pcs (F := F) (fun k => rowOf k0_pay9 x1 x2 x3 x4 (ldW arg6 (harg6.unread x5) k) (ldW arg7 (harg7.unread x6) k) (ldB arg8 (harg8.unread x7) k) ((loopStep x1 x2 x3 x4)^[k.val] (x0, k0_pay5)).1) k0_t1_loop.trips le_rfl l.val (by rw [trips_eq]; exact l.isLt) j
  refine (congrArg (fun L => View.canon L (ix3 (0 : Fin 1) l j)) (congrArg (fun s => s.2.2) hp)).trans ?_
  refine hc.trans ?_
  simp only [ldW_unread, ldB_unread]
  rfl

end Cert.KernelIdeal.KTrip

end
-- ==== Proof.KPay.lean ====
/-
  The kernel body's arithmetic, read at one entry of a 64-row tile.
  Row `r` of the block output is the split block of row `r` of the carried activations; the read-out row is the
  doubly split dense layer of it; the cosine-like tile, its 63 inner row differences summed, and its first and
  last rows are what the three small stores hold.
-/
import proofs.«405528_j52175262712147_4_alg».proof.Proof.Gen.KernelIdeal.Skeleton
import proofs.«405528_j52175262712147_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen

/-! ## The three products' operand indices

Each of the body's three dot records contracts axis 1 of both operands: at output index `(r, j)` and
contraction position `t` the left operand is read at `(r, t)` and the right one at `(j, t)`. -/

theorem lhs_d1_0 (i : S64x4096.Idx) (k : dot_S64x1024_S4096x1024_S64x4096_1_1_0_0_n_n.contr.Idx) :
    (dot_S64x1024_S4096x1024_S64x4096_1_1_0_0_n_n.lhsIdx i k 0).val = (i 0).val := by
  unfold DotDims.lhsIdx
  rw [dif_neg (show ¬(0 : Fin S64x1024.rank) ∈ dot_S64x1024_S4096x1024_S64x4096_1_1_0_0_n_n.lhsBatch by decide),
    dif_pos (show (0 : Fin S64x1024.rank) ∈ dot_S64x1024_S4096x1024_S64x4096_1_1_0_0_n_n.lhsNonContracting by decide)]
  rfl

theorem lhs_d1_1 (i : S64x4096.Idx) (k : dot_S64x1024_S4096x1024_S64x4096_1_1_0_0_n_n.contr.Idx) :
    (dot_S64x1024_S4096x1024_S64x4096_1_1_0_0_n_n.lhsIdx i k 1).val = (k ⟨0, by decide⟩).val :=
  dot_S64x1024_S4096x1024_S64x4096_1_1_0_0_n_n.lhsIdx_val_of_single rfl i k

theorem rhs_d1_0 (i : S64x4096.Idx) (k : dot_S64x1024_S4096x1024_S64x4096_1_1_0_0_n_n.contr.Idx) :
    (dot_S64x1024_S4096x1024_S64x4096_1_1_0_0_n_n.rhsIdx i k 0).val = (i 1).val := by
  unfold DotDims.rhsIdx
  rw [dif_neg (show ¬(0 : Fin S4096x1024.rank) ∈ dot_S64x1024_S4096x1024_S64x4096_1_1_0_0_n_n.rhsBatch by decide),
    dif_pos (show (0 : Fin S4096x1024.rank) ∈ dot_S64x1024_S4096x1024_S64x4096_1_1_0_0_n_n.rhsNonContracting by decide)]
  rfl

theorem rhs_d1_1 (i : S64x4096.Idx) (k : dot_S64x1024_S4096x1024_S64x4096_1_1_0_0_n_n.contr.Idx) :
    (dot_S64x1024_S4096x1024_S64x4096_1_1_0_0_n_n.rhsIdx i k 1).val = (k ⟨0, by decide⟩).val :=
  dot_S64x1024_S4096x1024_S64x4096_1_1_0_0_n_n.rhsIdx_val_of_single rfl i k

/-- The first layer's product at `(r, j)`: the sum over the 1024 inputs. -/
theorem mm1_apply (A : FVec Ideal S64x1024 .bf16) (B : FVec Ideal S4096x1024 .bf16) (r : Fin 64) (j : Fin 4096) :
    matmul dot_S64x1024_S4096x1024_S64x4096_1_1_0_0_n_n none A B (constant (F := Ideal) S64x4096 .f32 0x00000000#32) (ix2 r j)
      = ∑ t : Fin 1024, A (ix2 r t) * B (ix2 j t) := by
  refine (Ideal.matmul_constant_zero_apply dot_S64x1024_S4096x1024_S64x4096_1_1_0_0_n_n none A B (ix2 r j)).trans ?_
  rw [← Equiv.sum_comp (contrEquiv1 dot_S64x1024_S4096x1024_S64x4096_1_1_0_0_n_n 1024 rfl rfl).symm]
  refine Finset.sum_congr rfl fun t _ => ?_
  have hk := contrEquiv1_symm_val dot_S64x1024_S4096x1024_S64x4096_1_1_0_0_n_n 1024 rfl rfl t
  have hl : dot_S64x1024_S4096x1024_S64x4096_1_1_0_0_n_n.lhsIdx (ix2 r j)
      ((contrEquiv1 dot_S64x1024_S4096x1024_S64x4096_1_1_0_0_n_n 1024 rfl rfl).symm t) = ix2 r t := by
    funext ax; apply Fin.ext
    match ax with
    | ⟨0, _⟩ => exact lhs_d1_0 _ _
    | ⟨1, _⟩ => exact (lhs_d1_1 _ _).trans hk
  have hr : dot_S64x1024_S4096x1024_S64x4096_1_1_0_0_n_n.rhsIdx (ix2 r j)
      ((contrEquiv1 dot_S64x1024_S4096x1024_S64x4096_1_1_0_0_n_n 1024 rfl rfl).symm t) = ix2 j t := by
    funext ax; apply Fin.ext
    match ax with
    | ⟨0, _⟩ => exact rhs_d1_0 _ _
    | ⟨1, _⟩ => exact (rhs_d1_1 _ _).trans hk
  rw [hl, hr]

theorem lhs_d2_0 (i : S64x1024.Idx) (k : dot_S64x4096_S1024x4096_S64x1024_1_1_0_0_n_n.contr.Idx) :
    (dot_S64x4096_S1024x4096_S64x1024_1_1_0_0_n_n.lhsIdx i k 0).val = (i 0).val := by
  unfold DotDims.lhsIdx
  rw [dif_neg (show ¬(0 : Fin S64x4096.rank) ∈ dot_S64x4096_S1024x4096_S64x1024_1_1_0_0_n_n.lhsBatch by decide),
    dif_pos (show (0 : Fin S64x4096.rank) ∈ dot_S64x4096_S1024x4096_S64x1024_1_1_0_0_n_n.lhsNonContracting by decide)]
  rfl

theorem lhs_d2_1 (i : S64x1024.Idx) (k : dot_S64x4096_S1024x4096_S64x1024_1_1_0_0_n_n.contr.Idx) :
    (dot_S64x4096_S1024x4096_S64x1024_1_1_0_0_n_n.lhsIdx i k 1).val = (k ⟨0, by decide⟩).val :=
  dot_S64x4096_S1024x4096_S64x1024_1_1_0_0_n_n.lhsIdx_val_of_single rfl i k

theorem rhs_d2_0 (i : S64x1024.Idx) (k : dot_S64x4096_S1024x4096_S64x1024_1_1_0_0_n_n.contr.Idx) :
    (dot_S64x4096_S1024x4096_S64x1024_1_1_0_0_n_n.rhsIdx i k 0).val = (i 1).val := by
  unfold DotDims.rhsIdx
  rw [dif_neg (show ¬(0 : Fin S1024x4096.rank) ∈ dot_S64x4096_S1024x4096_S64x1024_1_1_0_0_n_n.rhsBatch by decide),
    dif_pos (show (0 : Fin S1024x4096.rank) ∈ dot_S64x4096_S1024x4096_S64x1024_1_1_0_0_n_n.rhsNonContracting by decide)]
  rfl

theorem rhs_d2_1 (i : S64x1024.Idx) (k : dot_S64x4096_S1024x4096_S64x1024_1_1_0_0_n_n.contr.Idx) :
    (dot_S64x4096_S1024x4096_S64x1024_1_1_0_0_n_n.rhsIdx i k 1).val = (k ⟨0, by decide⟩).val :=
  dot_S64x4096_S1024x4096_S64x1024_1_1_0_0_n_n.rhsIdx_val_of_single rfl i k

/-- The second layer's product at `(r, j)`: the sum over the 4096 hidden units. -/
theorem mm2_apply (A : FVec Ideal S64x4096 .bf16) (B : FVec Ideal S1024x4096 .bf16) (r : Fin 64) (j : Fin 1024) :
    matmul dot_S64x4096_S1024x4096_S64x1024_1_1_0_0_n_n none A B (constant (F := Ideal) S64x1024 .f32 0x00000000#32) (ix2 r j)
      = ∑ t : Fin 4096, A (ix2 r t) * B (ix2 j t) := by
  refine (Ideal.matmul_constant_zero_apply dot_S64x4096_S1024x4096_S64x1024_1_1_0_0_n_n none A B (ix2 r j)).trans ?_
  rw [← Equiv.sum_comp (contrEquiv1 dot_S64x4096_S1024x4096_S64x1024_1_1_0_0_n_n 4096 rfl rfl).symm]
  refine Finset.sum_congr rfl fun t _ => ?_
  have hk := contrEquiv1_symm_val dot_S64x4096_S1024x4096_S64x1024_1_1_0_0_n_n 4096 rfl rfl t
  have hl : dot_S64x4096_S1024x4096_S64x1024_1_1_0_0_n_n.lhsIdx (ix2 r j)
      ((contrEquiv1 dot_S64x4096_S1024x4096_S64x1024_1_1_0_0_n_n 4096 rfl rfl).symm t) = ix2 r t := by
    funext ax; apply Fin.ext
    match ax with
    | ⟨0, _⟩ => exact lhs_d2_0 _ _
    | ⟨1, _⟩ => exact (lhs_d2_1 _ _).trans hk
  have hr : dot_S64x4096_S1024x4096_S64x1024_1_1_0_0_n_n.rhsIdx (ix2 r j)
      ((contrEquiv1 dot_S64x4096_S1024x4096_S64x1024_1_1_0_0_n_n 4096 rfl rfl).symm t) = ix2 j t := by
    funext ax; apply Fin.ext
    match ax with
    | ⟨0, _⟩ => exact rhs_d2_0 _ _
    | ⟨1, _⟩ => exact (rhs_d2_1 _ _).trans hk
  rw [hl, hr]

theorem lhs_d3_0 (i : S64x1024.Idx) (k : dot_S64x1024_S1024x1024_S64x1024_1_1_0_0_n_n.contr.Idx) :
    (dot_S64x1024_S1024x1024_S64x1024_1_1_0_0_n_n.lhsIdx i k 0).val = (i 0).val := by
  unfold DotDims.lhsIdx
  rw [dif_neg (show ¬(0 : Fin S64x1024.rank) ∈ dot_S64x1024_S1024x1024_S64x1024_1_1_0_0_n_n.lhsBatch by decide),
    dif_pos (show (0 : Fin S64x1024.rank) ∈ dot_S64x1024_S1024x1024_S64x1024_1_1_0_0_n_n.lhsNonContracting by decide)]
  rfl

theorem lhs_d3_1 (i : S64x1024.Idx) (k : dot_S64x1024_S1024x1024_S64x1024_1_1_0_0_n_n.contr.Idx) :
    (dot_S64x1024_S1024x1024_S64x1024_1_1_0_0_n_n.lhsIdx i k 1).val = (k ⟨0, by decide⟩).val :=
  dot_S64x1024_S1024x1024_S64x1024_1_1_0_0_n_n.lhsIdx_val_of_single rfl i k

theorem rhs_d3_0 (i : S64x1024.Idx) (k : dot_S64x1024_S1024x1024_S64x1024_1_1_0_0_n_n.contr.Idx) :
    (dot_S64x1024_S1024x1024_S64x1024_1_1_0_0_n_n.rhsIdx i k 0).val = (i 1).val := by
  unfold DotDims.rhsIdx
  rw [dif_neg (show ¬(0 : Fin S1024x1024.rank) ∈ dot_S64x1024_S1024x1024_S64x1024_1_1_0_0_n_n.rhsBatch by decide),
    dif_pos (show (0 : Fin S1024x1024.rank) ∈ dot_S64x1024_S1024x1024_S64x1024_1_1_0_0_n_n.rhsNonContracting by decide)]
  rfl

theorem rhs_d3_1 (i : S64x1024.Idx) (k : dot_S64x1024_S1024x1024_S64x1024_1_1_0_0_n_n.contr.Idx) :
    (dot_S64x1024_S1024x1024_S64x1024_1_1_0_0_n_n.rhsIdx i k 1).val = (k ⟨0, by decide⟩).val :=
  dot_S64x1024_S1024x1024_S64x1024_1_1_0_0_n_n.rhsIdx_val_of_single rfl i k

/-- The read-out's product at `(r, j)`: the sum over the 1024 block outputs. -/
theorem mm3_apply (A : FVec Ideal S64x1024 .bf16) (B : FVec Ideal S1024x1024 .bf16) (r : Fin 64) (j : Fin 1024) :
    matmul dot_S64x1024_S1024x1024_S64x1024_1_1_0_0_n_n none A B (constant (F := Ideal) S64x1024 .f32 0x00000000#32) (ix2 r j)
      = ∑ t : Fin 1024, A (ix2 r t) * B (ix2 j t) := by
  refine (Ideal.matmul_constant_zero_apply dot_S64x1024_S1024x1024_S64x1024_1_1_0_0_n_n none A B (ix2 r j)).trans ?_
  rw [← Equiv.sum_comp (contrEquiv1 dot_S64x1024_S1024x1024_S64x1024_1_1_0_0_n_n 1024 rfl rfl).symm]
  refine Finset.sum_congr rfl fun t _ => ?_
  have hk := contrEquiv1_symm_val dot_S64x1024_S1024x1024_S64x1024_1_1_0_0_n_n 1024 rfl rfl t
  have hl : dot_S64x1024_S1024x1024_S64x1024_1_1_0_0_n_n.lhsIdx (ix2 r j)
      ((contrEquiv1 dot_S64x1024_S1024x1024_S64x1024_1_1_0_0_n_n 1024 rfl rfl).symm t) = ix2 r t := by
    funext ax; apply Fin.ext
    match ax with
    | ⟨0, _⟩ => exact lhs_d3_0 _ _
    | ⟨1, _⟩ => exact (lhs_d3_1 _ _).trans hk
  have hr : dot_S64x1024_S1024x1024_S64x1024_1_1_0_0_n_n.rhsIdx (ix2 r j)
      ((contrEquiv1 dot_S64x1024_S1024x1024_S64x1024_1_1_0_0_n_n 1024 rfl rfl).symm t) = ix2 j t := by
    funext ax; apply Fin.ext
    match ax with
    | ⟨0, _⟩ => exact rhs_d3_0 _ _
    | ⟨1, _⟩ => exact (rhs_d3_1 _ _).trans hk
  rw [hl, hr]

/-! ## Row sums, column sums, and the column forms of a cast and a broadcast -/

/-- The sum over axis 1 of a 64 × 1024 tile, at row `r`, is the sum over the row's 1024 entries. -/
theorem rowSum_apply (src : FVec Ideal S64x1024 .f32) (hφ : FKind.Formats .f32)
    (hacc : (0x00000000#32 : BitVec 32) = FKind.add.neutral .f32 hφ) (r : Fin 64) :
    multiReduction (F := Ideal) .add [1] S64 src 0x00000000#32 reduces_S64x1024_S64 hφ hacc (ix1 r)
      = ∑ t : Fin 1024, src (ix2 r t) := by
  refine (Ideal.multiReduction_add_single src 0x00000000#32 reduces_S64x1024_S64 hφ hacc (ix1 r)).trans ?_
  refine Finset.sum_congr rfl fun t _ => congrArg src ?_
  funext ax; apply Fin.ext
  match ax with
  | ⟨0, _⟩ => rfl
  | ⟨1, _⟩ => rfl

/-- The sum over axis 0 of a 63 × 1024 array, at column `j`, is the sum over the column's 63 entries. -/
theorem colSum_apply (src : FVec Ideal S63x1024 .f32) (hφ : FKind.Formats .f32)
    (hacc : (0x00000000#32 : BitVec 32) = FKind.add.neutral .f32 hφ) (j : Fin 1024) :
    multiReduction (F := Ideal) .add [0] S1024 src 0x00000000#32 reduces_S63x1024_S1024 hφ hacc (ix1 j)
      = ∑ r : Fin 63, src (ix2 r j) := by
  refine (Ideal.multiReduction_add_single src 0x00000000#32 reduces_S63x1024_S1024 hφ hacc (ix1 j)).trans ?_
  refine Finset.sum_congr rfl fun r _ => congrArg src ?_
  funext ax; apply Fin.ext
  match ax with
  | ⟨0, _⟩ => rfl
  | ⟨1, _⟩ => rfl

/-- A 64-vector cast to a 64 × 1 column reads, at `(r, u)`, the vector at `r`. -/
theorem castCol_apply {α : Type} (x : S64.Idx → α) (r : Fin 64) (u : Fin 1) :
    shapeCast S64x1 x shapeCasts_S64_S64x1 (ix2 r u) = x (ix1 r) :=
  shapeCast_apply x shapeCasts_S64_S64x1 (ix2 r u) (ix1 r) (by
    have hu : u.val = 0 := by omega
    rw [Shape.rowMajor_val_two, Shape.rowMajor_val_one]
    show r.val = r.val * 1 + u.val
    rw [hu, Nat.mul_one, Nat.add_zero])

/-- A 64 × 1 column broadcast over 1024 columns reads, at `(r, j)`, the column at row `r`. -/
theorem bcastCol_apply {α : Type} (x : S64x1.Idx → α) (r : Fin 64) (j : Fin 1024) :
    broadcastTo S64x1024 x broadcasts_S64x1_S64x1024 (ix2 r j) = x (ix2 r (0 : Fin 1)) := by
  refine broadcastTo_apply x broadcasts_S64x1_S64x1024 (ix2 r j) (ix2 r (0 : Fin 1)) fun ax => ?_
  match ax with
  | ⟨0, _⟩ => rfl
  | ⟨1, _⟩ => rfl

variable (v1 : FVec Ideal S4096x1024 .bf16) (v3 : FVec Ideal S1x4096 .f32) (v5 : FVec Ideal S1024x4096 .bf16)
  (v7 : FVec Ideal S1x1024 .f32)

/-- Row `r` of a 64-row tile. -/
def trow (z : Vec Ideal S64x1024 .f32) (r : Fin 64) : Fin 1024 → EReal := fun t => z (ix2 r t)

/-- The block output of row `r`: the split block of that row, over the weights as the body holds them. -/
def kblock (z : Fin 1024 → EReal) : Fin 1024 → EReal :=
  Spec.denseSplit (fun a b => v5 (ix2 a b)) (fun a => v7 (ix2 0 a))
    (Spec.denseSplit (fun a b => v1 (ix2 a b)) (fun a => v3 (ix2 0 a)) z)

/-- The hidden tile as the body forms it: the two products of the split rows with the first weights, and the
    first bias row under every row. -/
def khid (z : FVec Ideal S64x1024 .f32) : FVec Ideal S64x4096 .f32 :=
  addf
    (addf
      (matmul dot_S64x1024_S4096x1024_S64x4096_1_1_0_0_n_n none (truncf .bf16 z bitsLt_bf16_f32) v1
        (constant (F := Ideal) S64x4096 .f32 0x00000000#32))
      (matmul dot_S64x1024_S4096x1024_S64x4096_1_1_0_0_n_n none (truncf .bf16 (subf z z) bitsLt_bf16_f32) v1
        (constant (F := Ideal) S64x4096 .f32 0x00000000#32)))
    (broadcastTo S64x4096 v3 broadcasts_S1x4096_S64x4096)

/-- The hidden tile at `(r, t)` is the split first layer of row `r`, at unit `t`. -/
theorem khid_apply (z : Vec Ideal S64x1024 .f32) (r : Fin 64) (t : Fin 4096) :
    khid v1 v3 z (ix2 r t)
      = Spec.denseSplit (fun a b => v1 (ix2 a b)) (fun a => v3 (ix2 0 a)) (trow z r) t := by
  show (matmul dot_S64x1024_S4096x1024_S64x4096_1_1_0_0_n_n none (truncf .bf16 z bitsLt_bf16_f32) v1
        (constant (F := Ideal) S64x4096 .f32 0x00000000#32) (ix2 r t)
      + matmul dot_S64x1024_S4096x1024_S64x4096_1_1_0_0_n_n none (truncf .bf16 (subf z z) bitsLt_bf16_f32) v1
        (constant (F := Ideal) S64x4096 .f32 0x00000000#32) (ix2 r t))
      + broadcastTo S64x4096 v3 broadcasts_S1x4096_S64x4096 (ix2 r t) = _
  rw [mm1_apply, mm1_apply, broadcastTo_1b_ab_apply]
  rfl

/-- The block output tile is the second layer's two products of the split hidden tile, and the second bias row. -/
theorem pay10_eq (z : Vec Ideal S64x1024 .f32) :
    k0_pay10 v1 v3 v5 v7 z
      = addf
          (addf
            (matmul dot_S64x4096_S1024x4096_S64x1024_1_1_0_0_n_n none (truncf .bf16 (khid v1 v3 z) bitsLt_bf16_f32) v5
              (constant (F := Ideal) S64x1024 .f32 0x00000000#32))
            (matmul dot_S64x4096_S1024x4096_S64x1024_1_1_0_0_n_n none
              (truncf .bf16 (subf (khid v1 v3 z) (khid v1 v3 z)) bitsLt_bf16_f32) v5
              (constant (F := Ideal) S64x1024 .f32 0x00000000#32)))
          (broadcastTo S64x1024 v7 broadcasts_S1x1024_S64x1024) := rfl

theorem pay10_apply (z : Vec Ideal S64x1024 .f32) (r : Fin 64) (j : Fin 1024) :
    k0_pay10 v1 v3 v5 v7 z (ix2 r j) = kblock v1 v3 v5 v7 (trow z r) j := by
  rw [pay10_eq]
  show (matmul dot_S64x4096_S1024x4096_S64x1024_1_1_0_0_n_n none (truncf .bf16 (khid v1 v3 z) bitsLt_bf16_f32) v5
        (constant (F := Ideal) S64x1024 .f32 0x00000000#32) (ix2 r j)
      + matmul dot_S64x4096_S1024x4096_S64x1024_1_1_0_0_n_n none
        (truncf .bf16 (subf (khid v1 v3 z) (khid v1 v3 z)) bitsLt_bf16_f32) v5
        (constant (F := Ideal) S64x1024 .f32 0x00000000#32) (ix2 r j))
      + broadcastTo S64x1024 v7 broadcasts_S1x1024_S64x1024 (ix2 r j) = _
  rw [mm2_apply, mm2_apply, broadcastTo_1b_ab_apply]
  -- both sums run over row `r` of the hidden tile, which is the split first layer of the row
  show ((∑ t : Fin 4096, khid v1 v3 z (ix2 r t) * v5 (ix2 j t))
      + ∑ t : Fin 4096, (khid v1 v3 z (ix2 r t) - khid v1 v3 z (ix2 r t)) * v5 (ix2 j t))
      + v7 (ix2 0 j) = _
  simp only [khid_apply]
  rfl

theorem pay11_apply (z : Vec Ideal S64x1024 .f32) (acc : FVec Ideal S64x1024 .f32) (r : Fin 64) (j : Fin 1024) :
    k0_pay11 v1 v3 v5 v7 z acc (ix2 r j) = acc (ix2 r j) + kblock v1 v3 v5 v7 (trow z r) j := by
  show acc (ix2 r j) + k0_pay10 v1 v3 v5 v7 z (ix2 r j) = _
  rw [pay10_apply]

theorem pay12_apply (z : Vec Ideal S64x1024 .f32) (r : Fin 64) (j : Fin 1024) :
    k0_pay12 v1 v3 v5 v7 z (ix2 r j) = z (ix2 r j) - kblock v1 v3 v5 v7 (trow z r) j := by
  show z (ix2 r j) - k0_pay10 v1 v3 v5 v7 z (ix2 r j) = _
  rw [pay10_apply]

/-- The read-out row: the doubly split layer of the block output, over the one layer's slices as loaded. -/
def klout (wh wl : Vec Ideal S1x1024x1024 .bf16) (bl : Vec Ideal S1x1x1024 .f32) (z : Fin 1024 → EReal) : Fin 1024 → EReal :=
  Spec.dense3 (fun a b => wh (ix3 0 a b)) (fun a b => wl (ix3 0 a b)) (fun a => bl (ix3 0 0 a)) (kblock v1 v3 v5 v7 z)

/-- The read-out tile is the three products of the split block output with the layer's two weight slices, and the
    layer's bias row. -/
theorem pay13_eq (z : Vec Ideal S64x1024 .f32) (wh wl : Vec Ideal S1x1024x1024 .bf16) (bl : Vec Ideal S1x1x1024 .f32) :
    k0_pay13 v1 v3 v5 v7 z wh wl bl
      = addf
          (addf
            (addf
              (matmul dot_S64x1024_S1024x1024_S64x1024_1_1_0_0_n_n none
                (truncf .bf16 (k0_pay10 v1 v3 v5 v7 z) bitsLt_bf16_f32)
                (shapeCast S1024x1024 wh shapeCasts_S1x1024x1024_S1024x1024 : FVec Ideal S1024x1024 .bf16)
                (constant (F := Ideal) S64x1024 .f32 0x00000000#32))
              (matmul dot_S64x1024_S1024x1024_S64x1024_1_1_0_0_n_n none
                (truncf .bf16 (k0_pay10 v1 v3 v5 v7 z) bitsLt_bf16_f32)
                (shapeCast S1024x1024 wl shapeCasts_S1x1024x1024_S1024x1024 : FVec Ideal S1024x1024 .bf16)
                (constant (F := Ideal) S64x1024 .f32 0x00000000#32)))
            (matmul dot_S64x1024_S1024x1024_S64x1024_1_1_0_0_n_n none
              (truncf .bf16 (subf (k0_pay10 v1 v3 v5 v7 z) (k0_pay10 v1 v3 v5 v7 z)) bitsLt_bf16_f32)
              (shapeCast S1024x1024 wh shapeCasts_S1x1024x1024_S1024x1024 : FVec Ideal S1024x1024 .bf16)
              (constant (F := Ideal) S64x1024 .f32 0x00000000#32)))
          (broadcastTo S64x1024 (shapeCast S1x1024 bl shapeCasts_S1x1x1024_S1x1024 : FVec Ideal S1x1024 .f32)
            broadcasts_S1x1024_S64x1024) := rfl

theorem pay13_apply (z : Vec Ideal S64x1024 .f32) (wh wl : Vec Ideal S1x1024x1024 .bf16) (bl : Vec Ideal S1x1x1024 .f32)
    (r : Fin 64) (j : Fin 1024) :
    k0_pay13 v1 v3 v5 v7 z wh wl bl (ix2 r j) = klout v1 v3 v5 v7 wh wl bl (trow z r) j := by
  rw [pay13_eq]
  show ((matmul dot_S64x1024_S1024x1024_S64x1024_1_1_0_0_n_n none
          (truncf .bf16 (k0_pay10 v1 v3 v5 v7 z) bitsLt_bf16_f32)
          (shapeCast S1024x1024 wh shapeCasts_S1x1024x1024_S1024x1024 : FVec Ideal S1024x1024 .bf16)
          (constant (F := Ideal) S64x1024 .f32 0x00000000#32) (ix2 r j)
        + matmul dot_S64x1024_S1024x1024_S64x1024_1_1_0_0_n_n none
          (truncf .bf16 (k0_pay10 v1 v3 v5 v7 z) bitsLt_bf16_f32)
          (shapeCast S1024x1024 wl shapeCasts_S1x1024x1024_S1024x1024 : FVec Ideal S1024x1024 .bf16)
          (constant (F := Ideal) S64x1024 .f32 0x00000000#32) (ix2 r j))
      + matmul dot_S64x1024_S1024x1024_S64x1024_1_1_0_0_n_n none
          (truncf .bf16 (subf (k0_pay10 v1 v3 v5 v7 z) (k0_pay10 v1 v3 v5 v7 z)) bitsLt_bf16_f32)
          (shapeCast S1024x1024 wh shapeCasts_S1x1024x1024_S1024x1024 : FVec Ideal S1024x1024 .bf16)
          (constant (F := Ideal) S64x1024 .f32 0x00000000#32) (ix2 r j))
      + broadcastTo S64x1024 (shapeCast S1x1024 bl shapeCasts_S1x1x1024_S1x1024 : FVec Ideal S1x1024 .f32)
          broadcasts_S1x1024_S64x1024 (ix2 r j) = _
  rw [mm3_apply, mm3_apply, mm3_apply, broadcastTo_1b_ab_apply, shapeCast_1ab_ab_apply]
  -- every sum runs over row `r` of the block output tile; a weight slice at `(j, t)` is the loaded slice at `(0, j, t)`
  show (((∑ t : Fin 1024, k0_pay10 v1 v3 v5 v7 z (ix2 r t)
            * shapeCast S1024x1024 wh shapeCasts_S1x1024x1024_S1024x1024 (ix2 j t))
        + ∑ t : Fin 1024, k0_pay10 v1 v3 v5 v7 z (ix2 r t)
            * shapeCast S1024x1024 wl shapeCasts_S1x1024x1024_S1024x1024 (ix2 j t))
      + ∑ t : Fin 1024, (k0_pay10 v1 v3 v5 v7 z (ix2 r t) - k0_pay10 v1 v3 v5 v7 z (ix2 r t))
            * shapeCast S1024x1024 wh shapeCasts_S1x1024x1024_S1024x1024 (ix2 j t))
      + bl (ix3 0 0 j) = _
  simp only [pay10_apply, shapeCast_1ab_ab_apply]
  rfl

/-- The cosine-like tile of ANY tile `u` with a column `s` and a vector `q`: at `(r, j)` the entry times the column's
    row `r`, over the larger of the lower bound and the entry's absolute value times 32 times the root of `q r`. -/
theorem pay6_at (u : FVec Ideal S64x1024 .f32) (s : FVec Ideal S64x1 .f32) (q : FVec Ideal S64 .f32) (r : Fin 64) (j : Fin 1024) :
    k0_pay6 u s q (ix2 r j)
      = Ideal.div (u (ix2 r j) * s (ix2 r (0 : Fin 1)))
          (max ((max (u (ix2 r j)) (-(u (ix2 r j))) * Spec.s32) * Ideal.sqrt (q (ix1 r))) Spec.eps) := by
  show Ideal.div (u (ix2 r j) * broadcastTo S64x1024 s broadcasts_S64x1_S64x1024 (ix2 r j))
      (max ((max (u (ix2 r j)) (-(u (ix2 r j))) * Ideal.ofBits .f32 0x42000000#32)
          * broadcastTo S64x1024 (sqrt (shapeCast S64x1 q shapeCasts_S64_S64x1 : FVec Ideal S64x1 .f32))
              broadcasts_S64x1_S64x1024 (ix2 r j))
        (Ideal.ofBits .f32 0x322BCC77#32)) = _
  rw [bcastCol_apply, bcastCol_apply]
  show Ideal.div (u (ix2 r j) * s (ix2 r (0 : Fin 1)))
      (max ((max (u (ix2 r j)) (-(u (ix2 r j))) * Ideal.ofBits .f32 0x42000000#32)
          * Ideal.sqrt (shapeCast S64x1 q shapeCasts_S64_S64x1 (ix2 r (0 : Fin 1))))
        (Ideal.ofBits .f32 0x322BCC77#32)) = _
  rw [castCol_apply]
  rfl

/-- The cosine-like tile from the read-out tile, its row sums and its rows' sums of squares. -/
theorem pay6_apply (z : Vec Ideal S64x1024 .f32) (wh wl : Vec Ideal S1x1024x1024 .bf16) (bl : Vec Ideal S1x1x1024 .f32)
    (r : Fin 64) (j : Fin 1024) :
    k0_pay6 (k0_pay13 v1 v3 v5 v7 z wh wl bl) (k0_pay14 v1 v3 v5 v7 z wh wl bl) (k0_pay15 v1 v3 v5 v7 z wh wl bl) (ix2 r j)
      = Spec.cosRow Spec.s32 (klout v1 v3 v5 v7 wh wl bl (trow z r)) j := by
  -- the column is the read-out tile's row sums
  have hs : k0_pay14 v1 v3 v5 v7 z wh wl bl (ix2 r (0 : Fin 1))
      = ∑ t : Fin 1024, klout v1 v3 v5 v7 wh wl bl (trow z r) t := by
    show shapeCast S64x1
        (multiReduction (F := Ideal) .add [1] S64 (k0_pay13 v1 v3 v5 v7 z wh wl bl) 0x00000000#32 reduces_S64x1024_S64
          (.inl rfl) rfl)
        shapeCasts_S64_S64x1 (ix2 r (0 : Fin 1)) = _
    refine (castCol_apply _ r (0 : Fin 1)).trans ?_
    refine (rowSum_apply _ (.inl rfl) rfl r).trans ?_
    exact Finset.sum_congr rfl fun t _ => pay13_apply v1 v3 v5 v7 z wh wl bl r t
  -- the vector is its rows' sums of squares
  have hq : k0_pay15 v1 v3 v5 v7 z wh wl bl (ix1 r)
      = ∑ t : Fin 1024, klout v1 v3 v5 v7 wh wl bl (trow z r) t * klout v1 v3 v5 v7 wh wl bl (trow z r) t := by
    show multiReduction (F := Ideal) .add [1] S64
        (mulf (k0_pay13 v1 v3 v5 v7 z wh wl bl) (k0_pay13 v1 v3 v5 v7 z wh wl bl)) 0x00000000#32 reduces_S64x1024_S64
        (.inl rfl) rfl (ix1 r) = _
    refine (rowSum_apply _ (.inl rfl) rfl r).trans ?_
    refine Finset.sum_congr rfl fun t _ => ?_
    show k0_pay13 v1 v3 v5 v7 z wh wl bl (ix2 r t) * k0_pay13 v1 v3 v5 v7 z wh wl bl (ix2 r t) = _
    rw [pay13_apply]
  rw [pay6_at, hs, hq, pay13_apply]
  rfl

/-- The three stored rows, over ANY cosine-like tile `c = k0_pay6 u s q`. -/
theorem pay7_apply (u : FVec Ideal S64x1024 .f32) (s : FVec Ideal S64x1 .f32) (q : FVec Ideal S64 .f32) (j : Fin 1024) :
    k0_pay7 u s q (ix3 0 0 j)
      = ∑ r : Fin 63, max (k0_pay6 u s q (ix2 ⟨r.val + 1, by omega⟩ j) - k0_pay6 u s q (ix2 ⟨r.val, by omega⟩ j))
          (-(k0_pay6 u s q (ix2 ⟨r.val + 1, by omega⟩ j) - k0_pay6 u s q (ix2 ⟨r.val, by omega⟩ j))) := by
  unfold k0_pay7
  refine (shapeCast_ab_1ab_apply _ shapeCasts_S1x1024_S1x1x1024 (0 : Fin 1) (0 : Fin 1) j).trans ?_
  refine (shapeCast_a_1a_apply _ shapeCasts_S1024_S1x1024 (0 : Fin 1) j).trans ?_
  refine (colSum_apply _ (.inl rfl) rfl j).trans ?_
  refine Finset.sum_congr rfl fun r _ => ?_
  show max (extractStridedSlice S63x1024 ![1, 0] (k0_pay6 u s q) slices_S64x1024_o1_0_S63x1024 (ix2 r j)
        - extractStridedSlice S63x1024 ![0, 0] (k0_pay6 u s q) slices_S64x1024_o0_0_S63x1024 (ix2 r j))
      (-(extractStridedSlice S63x1024 ![1, 0] (k0_pay6 u s q) slices_S64x1024_o1_0_S63x1024 (ix2 r j)
        - extractStridedSlice S63x1024 ![0, 0] (k0_pay6 u s q) slices_S64x1024_o0_0_S63x1024 (ix2 r j))) = _
  rw [slice2_axis0_apply 1 (k0_pay6 u s q) slices_S64x1024_o1_0_S63x1024 r j ⟨r.val + 1, by omega⟩ (Nat.add_comm _ _),
    slice2_axis0_apply 0 (k0_pay6 u s q) slices_S64x1024_o0_0_S63x1024 r j ⟨r.val, by omega⟩ (Nat.zero_add _).symm]

theorem pay8_apply (u : FVec Ideal S64x1024 .f32) (s : FVec Ideal S64x1 .f32) (q : FVec Ideal S64 .f32) (j : Fin 1024) :
    k0_pay8 u s q (ix3 0 0 j) = k0_pay6 u s q (ix2 0 j) := by
  unfold k0_pay8
  refine (shapeCast_ab_1ab_apply _ shapeCasts_S1x1024_S1x1x1024 (0 : Fin 1) (0 : Fin 1) j).trans ?_
  exact slice2_axis0_apply 0 (k0_pay6 u s q) slices_S64x1024_o0_0_S1x1024 (0 : Fin 1) j (0 : Fin 64) rfl

theorem pay9_apply (u : FVec Ideal S64x1024 .f32) (s : FVec Ideal S64x1 .f32) (q : FVec Ideal S64 .f32) (j : Fin 1024) :
    k0_pay9 u s q (ix3 0 0 j) = k0_pay6 u s q (ix2 63 j) := by
  unfold k0_pay9
  refine (shapeCast_ab_1ab_apply _ shapeCasts_S1x1024_S1x1x1024 (0 : Fin 1) (0 : Fin 1) j).trans ?_
  exact slice2_axis0_apply 63 (k0_pay6 u s q) slices_S64x1024_o63_0_S1x1024 (0 : Fin 1) j (63 : Fin 64) rfl

end Cert.KernelIdeal.KPay

end
-- ==== Proof.KRow.lean ====
/-
  One grid point's tile, row by row, at the extended reals: the carried pair after `n` trips is, on row `r`, the
  row chain of that row after `n` layers (every product's remainder vanishing on real numbers), and the three
  stored rows of trip `l` are the 63 inner differences of layer `l`'s cosine-like vectors of consecutive rows,
  and the vectors of the tile's first and last rows.
-/
import proofs.«405528_j52175262712147_4_alg».proof.Proof.KTrip
import proofs.«405528_j52175262712147_4_alg».proof.Proof.KPay
import proofs.«405528_j52175262712147_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KRow

open Idealize.ShloMosaic Idealize.ShloMosaic.ValueIdx Cert.KernelIdeal Cert.KernelIdeal.Gen

/-- The weights as one grid point's body holds them, by coordinates. -/
def pk (x1 : Vec Ideal S4096x1024 .bf16) (x2 : Vec Ideal S1x4096 .f32) (x3 : Vec Ideal S1024x4096 .bf16)
    (x4 : Vec Ideal S1x1024 .f32) (x5 : Vec Ideal S5x1024x1024 .bf16) (x7 : Vec Ideal S5x1x1024 .f32) : Spec.Params where
  W1 a b := x1 (ix2 a b)
  b1 a := x2 (ix2 (0 : Fin 1) a)
  W2 a b := x3 (ix2 a b)
  b2 a := x4 (ix2 (0 : Fin 1) a)
  Wc l a b := x5 (ix3 l a b)
  bc l a := x7 (ix3 l (0 : Fin 1) a)

variable (x0 : Vec Ideal S64x1024 .f32) (x1 : Vec Ideal S4096x1024 .bf16) (x2 : Vec Ideal S1x4096 .f32)
    (x3 : Vec Ideal S1024x4096 .bf16) (x4 : Vec Ideal S1x1024 .f32) (x5 x6 : Vec Ideal S5x1024x1024 .bf16)
    (x7 : Vec Ideal S5x1x1024 .f32)

theorem pk_real (h0 : ∀ i, Spec.IsReal (x0 i)) (h1 : ∀ i, Spec.IsReal (x1 i)) (h2 : ∀ i, Spec.IsReal (x2 i))
    (h3 : ∀ i, Spec.IsReal (x3 i)) (h4 : ∀ i, Spec.IsReal (x4 i)) (h5 : ∀ i, Spec.IsReal (x5 i)) : (pk x1 x2 x3 x4 x5 x7).Real := by
  exact ⟨fun j t => h1 (ix2 j t), fun j => h2 (ix2 (0 : Fin 1) j), fun j t => h3 (ix2 j t),
    fun j => h4 (ix2 (0 : Fin 1) j), fun l j t => h5 (ix3 l j t)⟩

/-! ## Slices of the stacked weights, and the body's block and read-out as the row-level ones -/

/-- Layer `l`'s slice of a stacked array of weights, at `(0, a, b)`, is the stacked array at `(l, a, b)`. -/
private theorem slW_apply (x : Vec Ideal S5x1024x1024 .bf16) (k : Fin k0_t1_loop.trips) (l : Fin 5) (hk : k.val = l.val)
    (a b : Fin 1024) : KTrip.slW x k (ix3 (0 : Fin 1) a b) = x (ix3 l a b) := by
  have o0 : k0_off1 k 0 = k.val := by rw [k0_off1_eq]; rfl
  have o1 : k0_off1 k 1 = 0 := by rw [k0_off1_eq]; rfl
  have o2 : k0_off1 k 2 = 0 := by rw [k0_off1_eq]; rfl
  show x ((Rect.unit (s := S5x1024x1024) (k0_off1 k) S1x1024x1024.size (k0_off1_inb k)).idx (ix3 (0 : Fin 1) a b))
    = x (ix3 l a b)
  refine congrArg x ?_
  funext ax
  apply Fin.ext
  rw [LoadRect.idx_apply, Rect.off_unit, Rect.stride_unit]
  match ax with
  | ⟨0, _⟩ => show k0_off1 k 0 + 1 * 0 = l.val; omega
  | ⟨1, _⟩ => show k0_off1 k 1 + 1 * a.val = a.val; omega
  | ⟨2, _⟩ => show k0_off1 k 2 + 1 * b.val = b.val; omega

/-- Layer `l`'s slice of the stacked biases, at `(0, 0, a)`, is the stacked array at `(l, 0, a)`. -/
private theorem slB_apply (x : Vec Ideal S5x1x1024 .f32) (k : Fin k0_t1_loop.trips) (l : Fin 5) (hk : k.val = l.val)
    (a : Fin 1024) : KTrip.slB x k (ix3 (0 : Fin 1) (0 : Fin 1) a) = x (ix3 l (0 : Fin 1) a) := by
  have o0 : k0_off2 k 0 = k.val := by rw [k0_off2_eq]; rfl
  have o1 : k0_off2 k 1 = 0 := by rw [k0_off2_eq]; rfl
  have o2 : k0_off2 k 2 = 0 := by rw [k0_off2_eq]; rfl
  show x ((Rect.unit (s := S5x1x1024) (k0_off2 k) S1x1x1024.size (k0_off2_inb k)).idx (ix3 (0 : Fin 1) (0 : Fin 1) a))
    = x (ix3 l (0 : Fin 1) a)
  refine congrArg x ?_
  funext ax
  apply Fin.ext
  rw [LoadRect.idx_apply, Rect.off_unit, Rect.stride_unit]
  match ax with
  | ⟨0, _⟩ => show k0_off2 k 0 + 1 * 0 = l.val; omega
  | ⟨1, _⟩ => show k0_off2 k 1 + 1 * 0 = 0; omega
  | ⟨2, _⟩ => show k0_off2 k 2 + 1 * a.val = a.val; omega

/-- The body's block of a row is the split block over the weights by coordinates: the four casts of a shape to
    itself are the identity. -/
private theorem kblock_eq (z : Fin 1024 → EReal) :
    KPay.kblock (k0_pay1 x1) (k0_pay2 x2) (k0_pay3 x3) (k0_pay4 x4) z = Spec.blockK (pk x1 x2 x3 x4 x5 x7) z := by
  have e1 : k0_pay1 x1 = x1 := shapeCast_self x1 shapeCasts_S4096x1024_S4096x1024
  have e2 : k0_pay2 x2 = x2 := shapeCast_self x2 shapeCasts_S1x4096_S1x4096
  have e3 : k0_pay3 x3 = x3 := shapeCast_self x3 shapeCasts_S1024x4096_S1024x4096
  have e4 : k0_pay4 x4 = x4 := shapeCast_self x4 shapeCasts_S1x1024_S1x1024
  rw [e1, e2, e3, e4]
  rfl

/-- The body's read-out of a row, over layer `l`'s slices, is the doubly split read-out of layer `l`: the low
    slice is the high one's own remainder. -/
private theorem klout_eq
    (h6 : ∀ (l : Fin 5) (a b : Fin 1024), x6 (ix3 l a b) = x5 (ix3 l a b) - x5 (ix3 l a b))
    (k : Fin k0_t1_loop.trips) (l : Fin 5) (hk : k.val = l.val) (z : Fin 1024 → EReal) :
    KPay.klout (k0_pay1 x1) (k0_pay2 x2) (k0_pay3 x3) (k0_pay4 x4) (KTrip.slW x5 k) (KTrip.slW x6 k) (KTrip.slB x7 k) z
      = Spec.loutK (pk x1 x2 x3 x4 x5 x7) l z := by
  have hW : (fun a b => KTrip.slW x5 k (ix3 (0 : Fin 1) a b)) = (pk x1 x2 x3 x4 x5 x7).Wc l :=
    funext fun a => funext fun b => slW_apply x5 k l hk a b
  have hWl : (fun a b => KTrip.slW x6 k (ix3 (0 : Fin 1) a b))
      = fun a b => (pk x1 x2 x3 x4 x5 x7).Wc l a b - (pk x1 x2 x3 x4 x5 x7).Wc l a b :=
    funext fun a => funext fun b => (slW_apply x6 k l hk a b).trans (h6 l a b)
  have hB : (fun a => KTrip.slB x7 k (ix3 (0 : Fin 1) (0 : Fin 1) a)) = (pk x1 x2 x3 x4 x5 x7).bc l :=
    funext fun a => slB_apply x7 k l hk a
  show Spec.dense3 (fun a b => KTrip.slW x5 k (ix3 (0 : Fin 1) a b)) (fun a b => KTrip.slW x6 k (ix3 (0 : Fin 1) a b))
      (fun a => KTrip.slB x7 k (ix3 (0 : Fin 1) (0 : Fin 1) a))
      (KPay.kblock (k0_pay1 x1) (k0_pay2 x2) (k0_pay3 x3) (k0_pay4 x4) z) = _
  rw [hW, hWl, hB, kblock_eq x1 x2 x3 x4 x5 x7, Spec.dense3_self]
  rfl

/-- The carried pair after `n` trips, on every row at once (the induction needs the whole row of the step before). -/
private theorem carried_all (n : ℕ) : ∀ (r : Fin 64) (j : Fin 1024),
    (KTrip.carried x0 x1 x2 x3 x4 n).1 (ix2 r j)
        = ((Spec.stepK (pk x1 x2 x3 x4 x5 x7))^[n] (KPay.trow x0 r, fun _ => 0)).1 j
      ∧ (KTrip.carried x0 x1 x2 x3 x4 n).2 (ix2 r j)
        = ((Spec.stepK (pk x1 x2 x3 x4 x5 x7))^[n] (KPay.trow x0 r, fun _ => 0)).2 j := by
  induction n with
  | zero =>
    intro r j
    -- the row tile starts as the input tile and the total as the broadcast of the zero word
    exact ⟨rfl, Ideal.ofBits_zero_f32⟩
  | succ n ih =>
    intro r j
    have hrow : KPay.trow (KTrip.carried x0 x1 x2 x3 x4 n).1 r
        = ((Spec.stepK (pk x1 x2 x3 x4 x5 x7))^[n] (KPay.trow x0 r, fun _ => 0)).1 :=
      funext fun t => (ih r t).1
    have hc : KTrip.carried x0 x1 x2 x3 x4 (n + 1)
        = KTrip.loopStep x1 x2 x3 x4 (KTrip.carried x0 x1 x2 x3 x4 n) := by
      unfold KTrip.carried
      exact Function.iterate_succ_apply' _ _ _
    rw [hc, Function.iterate_succ_apply']
    constructor
    · show k0_pay12 (k0_pay1 x1) (k0_pay2 x2) (k0_pay3 x3) (k0_pay4 x4) (KTrip.carried x0 x1 x2 x3 x4 n).1 (ix2 r j) = _
      rw [KPay.pay12_apply, kblock_eq x1 x2 x3 x4 x5 x7, hrow, (ih r j).1]
      rfl
    · show k0_pay11 (k0_pay1 x1) (k0_pay2 x2) (k0_pay3 x3) (k0_pay4 x4) (KTrip.carried x0 x1 x2 x3 x4 n).1
          (KTrip.carried x0 x1 x2 x3 x4 n).2 (ix2 r j) = _
      rw [KPay.pay11_apply, kblock_eq x1 x2 x3 x4 x5 x7, hrow, (ih r j).2]
      rfl

/-- The carried pair after `n` trips, on row `r`: `n` split layers of that row from the zero total. -/
theorem carried_apply (n : ℕ) (r : Fin 64) (j : Fin 1024) :
    (KTrip.carried x0 x1 x2 x3 x4 n).1 (ix2 r j)
        = ((Spec.stepK (pk x1 x2 x3 x4 x5 x7))^[n] (KPay.trow x0 r, fun _ => 0)).1 j
      ∧ (KTrip.carried x0 x1 x2 x3 x4 n).2 (ix2 r j)
        = ((Spec.stepK (pk x1 x2 x3 x4 x5 x7))^[n] (KPay.trow x0 r, fun _ => 0)).2 j := by
  exact carried_all x0 x1 x2 x3 x4 x5 x7 n r j

/-- On real inputs that is the row chain. -/
theorem carried_real (h0 : ∀ i, Spec.IsReal (x0 i)) (h1 : ∀ i, Spec.IsReal (x1 i)) (h2 : ∀ i, Spec.IsReal (x2 i))
    (h3 : ∀ i, Spec.IsReal (x3 i)) (h4 : ∀ i, Spec.IsReal (x4 i)) (h5 : ∀ i, Spec.IsReal (x5 i))
    (n : ℕ) (r : Fin 64) (j : Fin 1024) :
    (KTrip.carried x0 x1 x2 x3 x4 n).1 (ix2 r j) = Spec.zAt (pk x1 x2 x3 x4 x5 x7) (KPay.trow x0 r) n j
      ∧ (KTrip.carried x0 x1 x2 x3 x4 n).2 (ix2 r j) = Spec.invAt (pk x1 x2 x3 x4 x5 x7) (KPay.trow x0 r) n j := by
  have hp := pk_real x0 x1 x2 x3 x4 x5 x7 h0 h1 h2 h3 h4 h5
  have hx : ∀ t, Spec.IsReal (KPay.trow x0 r t) := fun t => h0 (ix2 r t)
  have hs := Spec.stepK_iterate (pk x1 x2 x3 x4 x5 x7) hp (KPay.trow x0 r) hx n
  have hc := carried_apply x0 x1 x2 x3 x4 x5 x7 n r j
  rw [hs] at hc
  exact hc

/-- Trip `l`'s cosine-like tile, on row `r`: layer `l`'s vector of that row's chain. -/
theorem ctile_apply (h0 : ∀ i, Spec.IsReal (x0 i)) (h1 : ∀ i, Spec.IsReal (x1 i)) (h2 : ∀ i, Spec.IsReal (x2 i))
    (h3 : ∀ i, Spec.IsReal (x3 i)) (h4 : ∀ i, Spec.IsReal (x4 i)) (h5 : ∀ i, Spec.IsReal (x5 i))
    (h6 : ∀ (l : Fin 5) (a b : Fin 1024), x6 (ix3 l a b) = x5 (ix3 l a b) - x5 (ix3 l a b)) (l : Fin 5) (r : Fin 64) (j : Fin 1024) :
    k0_pay6
        (k0_pay13 (k0_pay1 x1) (k0_pay2 x2) (k0_pay3 x3) (k0_pay4 x4) (KTrip.carried x0 x1 x2 x3 x4 l.val).1
          (KTrip.slW x5 ⟨l.val, by rw [KTrip.trips_eq]; exact l.isLt⟩) (KTrip.slW x6 ⟨l.val, by rw [KTrip.trips_eq]; exact l.isLt⟩) (KTrip.slB x7 ⟨l.val, by rw [KTrip.trips_eq]; exact l.isLt⟩))
        (k0_pay14 (k0_pay1 x1) (k0_pay2 x2) (k0_pay3 x3) (k0_pay4 x4) (KTrip.carried x0 x1 x2 x3 x4 l.val).1
          (KTrip.slW x5 ⟨l.val, by rw [KTrip.trips_eq]; exact l.isLt⟩) (KTrip.slW x6 ⟨l.val, by rw [KTrip.trips_eq]; exact l.isLt⟩) (KTrip.slB x7 ⟨l.val, by rw [KTrip.trips_eq]; exact l.isLt⟩))
        (k0_pay15 (k0_pay1 x1) (k0_pay2 x2) (k0_pay3 x3) (k0_pay4 x4) (KTrip.carried x0 x1 x2 x3 x4 l.val).1
          (KTrip.slW x5 ⟨l.val, by rw [KTrip.trips_eq]; exact l.isLt⟩) (KTrip.slW x6 ⟨l.val, by rw [KTrip.trips_eq]; exact l.isLt⟩) (KTrip.slB x7 ⟨l.val, by rw [KTrip.trips_eq]; exact l.isLt⟩))
        (ix2 r j)
      = Spec.cAt (pk x1 x2 x3 x4 x5 x7) (KPay.trow x0 r) l j := by
  have hp := pk_real x0 x1 x2 x3 x4 x5 x7 h0 h1 h2 h3 h4 h5
  have hx : ∀ t, Spec.IsReal (KPay.trow x0 r t) := fun t => h0 (ix2 r t)
  -- row `r` of the carried tile before trip `l` is the row chain before layer `l`
  have hz : KPay.trow (KTrip.carried x0 x1 x2 x3 x4 l.val).1 r
      = Spec.zAt (pk x1 x2 x3 x4 x5 x7) (KPay.trow x0 r) l.val :=
    funext fun t => (carried_real x0 x1 x2 x3 x4 x5 x7 h0 h1 h2 h3 h4 h5 l.val r t).1
  refine (KPay.pay6_apply (k0_pay1 x1) (k0_pay2 x2) (k0_pay3 x3) (k0_pay4 x4) (KTrip.carried x0 x1 x2 x3 x4 l.val).1
    (KTrip.slW x5 (⟨l.val, by rw [KTrip.trips_eq]; exact l.isLt⟩ : Fin k0_t1_loop.trips)) (KTrip.slW x6 (⟨l.val, by rw [KTrip.trips_eq]; exact l.isLt⟩ : Fin k0_t1_loop.trips)) (KTrip.slB x7 (⟨l.val, by rw [KTrip.trips_eq]; exact l.isLt⟩ : Fin k0_t1_loop.trips)) r j).trans ?_
  rw [klout_eq x1 x2 x3 x4 x5 x6 x7 h6 (⟨l.val, by rw [KTrip.trips_eq]; exact l.isLt⟩ : Fin k0_t1_loop.trips) l rfl, hz,
    Spec.loutK_eq (pk x1 x2 x3 x4 x5 x7) hp (KPay.trow x0 r) hx l]
  rfl

/-- The first stored row of trip `l`: the 63 differences of consecutive rows' vectors. -/
theorem row7_apply (h0 : ∀ i, Spec.IsReal (x0 i)) (h1 : ∀ i, Spec.IsReal (x1 i)) (h2 : ∀ i, Spec.IsReal (x2 i))
    (h3 : ∀ i, Spec.IsReal (x3 i)) (h4 : ∀ i, Spec.IsReal (x4 i)) (h5 : ∀ i, Spec.IsReal (x5 i))
    (h6 : ∀ (l : Fin 5) (a b : Fin 1024), x6 (ix3 l a b) = x5 (ix3 l a b) - x5 (ix3 l a b)) (l : Fin 5) (j : Fin 1024) :
    KTrip.rowOf k0_pay7 x1 x2 x3 x4 (KTrip.slW x5 ⟨l.val, by rw [KTrip.trips_eq]; exact l.isLt⟩) (KTrip.slW x6 ⟨l.val, by rw [KTrip.trips_eq]; exact l.isLt⟩) (KTrip.slB x7 ⟨l.val, by rw [KTrip.trips_eq]; exact l.isLt⟩)
        (KTrip.carried x0 x1 x2 x3 x4 l.val).1 (ix3 (0 : Fin 1) (0 : Fin 1) j)
      = ∑ r : Fin 63,
          max (Spec.cAt (pk x1 x2 x3 x4 x5 x7) (KPay.trow x0 ⟨r.val + 1, by omega⟩) l j
                - Spec.cAt (pk x1 x2 x3 x4 x5 x7) (KPay.trow x0 ⟨r.val, by omega⟩) l j)
              (-(Spec.cAt (pk x1 x2 x3 x4 x5 x7) (KPay.trow x0 ⟨r.val + 1, by omega⟩) l j
                - Spec.cAt (pk x1 x2 x3 x4 x5 x7) (KPay.trow x0 ⟨r.val, by omega⟩) l j)) := by
  have hc := fun (r' : Fin 64) => ctile_apply x0 x1 x2 x3 x4 x5 x6 x7 h0 h1 h2 h3 h4 h5 h6 l r' j
  unfold KTrip.rowOf
  refine (KPay.pay7_apply _ _ _ j).trans ?_
  refine Finset.sum_congr rfl fun r _ => ?_
  rw [hc ⟨r.val + 1, by omega⟩, hc ⟨r.val, by omega⟩]

/-- The second: the tile's first row's vector. -/
theorem row8_apply (h0 : ∀ i, Spec.IsReal (x0 i)) (h1 : ∀ i, Spec.IsReal (x1 i)) (h2 : ∀ i, Spec.IsReal (x2 i))
    (h3 : ∀ i, Spec.IsReal (x3 i)) (h4 : ∀ i, Spec.IsReal (x4 i)) (h5 : ∀ i, Spec.IsReal (x5 i))
    (h6 : ∀ (l : Fin 5) (a b : Fin 1024), x6 (ix3 l a b) = x5 (ix3 l a b) - x5 (ix3 l a b)) (l : Fin 5) (j : Fin 1024) :
    KTrip.rowOf k0_pay8 x1 x2 x3 x4 (KTrip.slW x5 ⟨l.val, by rw [KTrip.trips_eq]; exact l.isLt⟩) (KTrip.slW x6 ⟨l.val, by rw [KTrip.trips_eq]; exact l.isLt⟩) (KTrip.slB x7 ⟨l.val, by rw [KTrip.trips_eq]; exact l.isLt⟩)
        (KTrip.carried x0 x1 x2 x3 x4 l.val).1 (ix3 (0 : Fin 1) (0 : Fin 1) j)
      = Spec.cAt (pk x1 x2 x3 x4 x5 x7) (KPay.trow x0 0) l j := by
  unfold KTrip.rowOf
  refine (KPay.pay8_apply _ _ _ j).trans ?_
  exact ctile_apply x0 x1 x2 x3 x4 x5 x6 x7 h0 h1 h2 h3 h4 h5 h6 l 0 j

/-- The third: the tile's last row's vector. -/
theorem row9_apply (h0 : ∀ i, Spec.IsReal (x0 i)) (h1 : ∀ i, Spec.IsReal (x1 i)) (h2 : ∀ i, Spec.IsReal (x2 i))
    (h3 : ∀ i, Spec.IsReal (x3 i)) (h4 : ∀ i, Spec.IsReal (x4 i)) (h5 : ∀ i, Spec.IsReal (x5 i))
    (h6 : ∀ (l : Fin 5) (a b : Fin 1024), x6 (ix3 l a b) = x5 (ix3 l a b) - x5 (ix3 l a b)) (l : Fin 5) (j : Fin 1024) :
    KTrip.rowOf k0_pay9 x1 x2 x3 x4 (KTrip.slW x5 ⟨l.val, by rw [KTrip.trips_eq]; exact l.isLt⟩) (KTrip.slW x6 ⟨l.val, by rw [KTrip.trips_eq]; exact l.isLt⟩) (KTrip.slB x7 ⟨l.val, by rw [KTrip.trips_eq]; exact l.isLt⟩)
        (KTrip.carried x0 x1 x2 x3 x4 l.val).1 (ix3 (0 : Fin 1) (0 : Fin 1) j)
      = Spec.cAt (pk x1 x2 x3 x4 x5 x7) (KPay.trow x0 63) l j := by
  unfold KTrip.rowOf
  refine (KPay.pay9_apply _ _ _ j).trans ?_
  exact ctile_apply x0 x1 x2 x3 x4 x5 x6 x7 h0 h1 h2 h3 h4 h5 h6 l 63 j

end Cert.KernelIdeal.KRow

end
-- ==== Proof.KHost.lean ====
/-
  What the kernel's windows find: the host lines before the launch change formats (the identity on extended reals),
  subtract the weights' rounding from the weights, and reshape the three bias arrays by adding a unit axis.
-/
import proofs.«405528_j52175262712147_4_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

noncomputable section

namespace Cert.KernelIdeal.KHost

open Idealize.ShloMosaic Idealize.ShloMosaic.TcCoe Idealize.ShloMosaic.Tactic Idealize.SL.Sem
open Idealize.ShloMosaic.ValueIdx
open Cert.KernelIdeal Cert.KernelIdeal.Gen

section AnyF

variable {F : FTy → Type} [FloatOps F]
variable (m : (ℓ : Loc nD τ sig) → Buf (Elt F) ℓ)

theorem V_v0 (c : Dev nD) : V m c main_v0 = truncf .bf16 (m ((c : Thread nD τ).loc main_arg1)) bitsLt_bf16_f32 := by
  show StableHlo.after hostOps0 (fun b => m (c, b)) (Proc.devRef .tc main_v0) = _
  after_results <;> rfl

theorem V_v1 (c : Dev nD) : V m c main_v1 = truncf .bf16 (m ((c : Thread nD τ).loc main_arg3)) bitsLt_bf16_f32 := by
  show StableHlo.after hostOps0 (fun b => m (c, b)) (Proc.devRef .tc main_v1) = _
  after_results <;> rfl

theorem V_v2 (c : Dev nD) : V m c main_v2 = truncf .bf16 (m ((c : Thread nD τ).loc main_arg5)) bitsLt_bf16_f32 := by
  show StableHlo.after hostOps0 (fun b => m (c, b)) (Proc.devRef .tc main_v2) = _
  after_results <;> rfl

theorem V_v5 (c : Dev nD) : V m c main_v5
    = truncf .bf16 (subf (m ((c : Thread nD τ).loc main_arg5)) (extf .f32 (truncf .bf16 (m ((c : Thread nD τ).loc main_arg5)) bitsLt_bf16_f32) bitsLt_bf16_f32)) bitsLt_bf16_f32 := by
  show StableHlo.after hostOps0 (fun b => m (c, b)) (Proc.devRef .tc main_v5) = _
  after_results <;> rfl

theorem V_v6 (c : Dev nD) : V m c main_v6 = shapeCast S1x4096 (m ((c : Thread nD τ).loc main_arg2)) shapeCasts_S4096_S1x4096 := by
  show StableHlo.after hostOps0 (fun b => m (c, b)) (Proc.devRef .tc main_v6) = _
  after_results <;> rfl

theorem V_v7 (c : Dev nD) : V m c main_v7 = shapeCast S1x1024 (m ((c : Thread nD τ).loc main_arg4)) shapeCasts_S1024_S1x1024 := by
  show StableHlo.after hostOps0 (fun b => m (c, b)) (Proc.devRef .tc main_v7) = _
  after_results <;> rfl

theorem V_v8 (c : Dev nD) : V m c main_v8 = shapeCast S5x1x1024 (m ((c : Thread nD τ).loc main_arg6)) shapeCasts_S5x1024_S5x1x1024 := by
  show StableHlo.after hostOps0 (fun b => m (c, b)) (Proc.devRef .tc main_v8) = _
  after_results <;> rfl

end AnyF

section AtIdeal

variable (m : (ℓ : Loc nD τ sig) → Buf (Elt Ideal) ℓ)

/-- The seven arguments as launched, at their literal array types. -/
abbrev aX (c : Dev nD) : FVec Ideal S8192x1024 .f32 := (m ((c : Thread nD τ).loc main_arg0))
abbrev aW1 (c : Dev nD) : FVec Ideal S4096x1024 .f32 := (m ((c : Thread nD τ).loc main_arg1))
abbrev ab1 (c : Dev nD) : FVec Ideal S4096 .f32 := (m ((c : Thread nD τ).loc main_arg2))
abbrev aW2 (c : Dev nD) : FVec Ideal S1024x4096 .f32 := (m ((c : Thread nD τ).loc main_arg3))
abbrev ab2 (c : Dev nD) : FVec Ideal S1024 .f32 := (m ((c : Thread nD τ).loc main_arg4))
abbrev aWc (c : Dev nD) : FVec Ideal S5x1024x1024 .f32 := (m ((c : Thread nD τ).loc main_arg5))
abbrev abc (c : Dev nD) : FVec Ideal S5x1024 .f32 := (m ((c : Thread nD τ).loc main_arg6))

theorem V_v0_apply (c : Dev nD) (a : Fin 4096) (b : Fin 1024) :
    V m c main_v0 (ix2 a b) = aW1 m c (ix2 a b) := by
  rw [V_v0]; rfl

theorem V_v1_apply (c : Dev nD) (a : Fin 1024) (b : Fin 4096) :
    V m c main_v1 (ix2 a b) = aW2 m c (ix2 a b) := by
  rw [V_v1]; rfl

theorem V_v2_apply (c : Dev nD) (l : Fin 5) (a b : Fin 1024) :
    V m c main_v2 (ix3 l a b) = aWc m c (ix3 l a b) := by
  rw [V_v2]; rfl

theorem V_v5_apply (c : Dev nD) (l : Fin 5) (a b : Fin 1024) :
    V m c main_v5 (ix3 l a b) = aWc m c (ix3 l a b) - aWc m c (ix3 l a b) := by
  rw [V_v5, truncf_apply, subf_apply, extf_apply, truncf_apply]

theorem V_v6_apply (c : Dev nD) (a : Fin 4096) :
    V m c main_v6 (ix2 (0 : Fin 1) a) = ab1 m c (ix1 a) := by
  rw [V_v6]; exact shapeCast_a_1a_apply _ _ 0 a

theorem V_v7_apply (c : Dev nD) (a : Fin 1024) :
    V m c main_v7 (ix2 (0 : Fin 1) a) = ab2 m c (ix1 a) := by
  rw [V_v7]; exact shapeCast_a_1a_apply _ _ 0 a

theorem V_v8_apply (c : Dev nD) (l : Fin 5) (a : Fin 1024) :
    V m c main_v8 (ix3 l (0 : Fin 1) a) = abc m c (ix2 l a) := by
  rw [V_v8]
  refine shapeCast_apply _ _ _ _ ?_
  show (S5x1024.rowMajor (ix2 l a)).val = (S5x1x1024.rowMajor (ix3 l (0 : Fin 1) a)).val
  rw [Shape.rowMajor_val_two, Shape.rowMajor_val_three]
  show l.val * 1024 + a.val = (l.val * 1 + 0) * 1024 + a.val
  omega

end AtIdeal

end Cert.KernelIdeal.KHost

end
-- ==== Proof.KIblk.lean ====
/-
  What each input window's block holds at grid point `t`: the activations' window holds rows 64 t … 64 t + 63 of the
  array; the other seven windows' blocks are their whole arrays at every point.
-/
import proofs.«405528_j52175262712147_4_alg».proof.Proof.Gen.KernelIdeal.Frame
import Idealize.ShloMosaic.Lib.Pipeline.Value
import Idealize.ShloMosaic.Lib.ValueIdx
import Idealize.ShloMosaic.Lib.Tactic

noncomputable section

namespace Cert.KernelIdeal.KIblk

open Idealize.ShloMosaic Idealize.ShloMosaic.TcCoe Idealize.ShloMosaic.Tactic Idealize.SL.Sem
open Idealize.ShloMosaic.ValueIdx
open Cert.KernelIdeal Cert.KernelIdeal.Gen

variable {F : FTy → Type} [FloatOps F]
variable (m : (ℓ : Loc nD τ sig) → Buf (Elt F) ℓ)

/-- The grid has 128 points. -/
theorem N_eq : cfg0.N = 128 := by
  exact N_0

theorem iblk0_apply (c : Dev nD) (t : Fin cfg0.N) (r : Fin 64) (j : Fin 1024) :
    (iblk m c 0 t : Vec F S64x1024 .f32) (ix2 r j)
      = V m c main_arg0 (ix2 (⟨64 * t.val + r.val, by have := N_eq; have := t.isLt; have := r.isLt; omega⟩ : Fin 8192) j) := by
  -- the window's index map over the grid: block row t, block column 0
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold iblk
  rw [View.read_apply]
  show V m c main_arg0 _ = V m c main_arg0 _
  congr 1
  funext a
  apply Fin.ext
  -- a block's coordinate is its index times its size plus the coordinate inside the block
  match a with
  | ⟨0, _⟩ => show win0_0.index t (0 : Fin 2) * 64 + 1 * r.val = 64 * t.val + r.val; rw [hi.1]; omega
  | ⟨1, _⟩ => show win0_0.index t (1 : Fin 2) * 1024 + 1 * j.val = j.val; rw [hi.2]; omega

theorem iblk1_eq (c : Dev nD) (t : Fin cfg0.N) : (iblk m c 1 t : Vec F S4096x1024 .bf16) = V m c main_v0 := by
  -- the window's index map over the grid: block 0 on every axis, the whole array
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext y
  unfold iblk
  rw [View.read_apply]
  show V m c main_v0 _ = V m c main_v0 _
  congr 1
  funext a
  apply Fin.ext
  match a with
  | ⟨0, _⟩ => show win0_1.index t (0 : Fin 2) * 4096 + 1 * (y 0).val = (y 0).val; rw [hi.1]; omega
  | ⟨1, _⟩ => show win0_1.index t (1 : Fin 2) * 1024 + 1 * (y 1).val = (y 1).val; rw [hi.2]; omega

theorem iblk2_eq (c : Dev nD) (t : Fin cfg0.N) : (iblk m c 2 t : Vec F S1x4096 .f32) = V m c main_v6 := by
  -- the window's index map over the grid: block 0 on every axis, the whole array
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext y
  unfold iblk
  rw [View.read_apply]
  show V m c main_v6 _ = V m c main_v6 _
  congr 1
  funext a
  apply Fin.ext
  match a with
  | ⟨0, _⟩ => show win0_2.index t (0 : Fin 2) * 1 + 1 * (y 0).val = (y 0).val; rw [hi.1]; omega
  | ⟨1, _⟩ => show win0_2.index t (1 : Fin 2) * 4096 + 1 * (y 1).val = (y 1).val; rw [hi.2]; omega

theorem iblk3_eq (c : Dev nD) (t : Fin cfg0.N) : (iblk m c 3 t : Vec F S1024x4096 .bf16) = V m c main_v1 := by
  -- the window's index map over the grid: block 0 on every axis, the whole array
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext y
  unfold iblk
  rw [View.read_apply]
  show V m c main_v1 _ = V m c main_v1 _
  congr 1
  funext a
  apply Fin.ext
  match a with
  | ⟨0, _⟩ => show win0_3.index t (0 : Fin 2) * 1024 + 1 * (y 0).val = (y 0).val; rw [hi.1]; omega
  | ⟨1, _⟩ => show win0_3.index t (1 : Fin 2) * 4096 + 1 * (y 1).val = (y 1).val; rw [hi.2]; omega

theorem iblk4_eq (c : Dev nD) (t : Fin cfg0.N) : (iblk m c 4 t : Vec F S1x1024 .f32) = V m c main_v7 := by
  -- the window's index map over the grid: block 0 on every axis, the whole array
  have hi : win0_4.index t (0 : Fin 2) = 0 ∧ win0_4.index t (1 : Fin 2) = 0 :=
    (by decide +kernel : ∀ t : Fin grid0.N, win0_4.index t (0 : Fin 2) = 0 ∧ win0_4.index t (1 : Fin 2) = 0) t
  funext y
  unfold iblk
  rw [View.read_apply]
  show V m c main_v7 _ = V m c main_v7 _
  congr 1
  funext a
  apply Fin.ext
  match a with
  | ⟨0, _⟩ => show win0_4.index t (0 : Fin 2) * 1 + 1 * (y 0).val = (y 0).val; rw [hi.1]; omega
  | ⟨1, _⟩ => show win0_4.index t (1 : Fin 2) * 1024 + 1 * (y 1).val = (y 1).val; rw [hi.2]; omega

theorem iblk5_eq (c : Dev nD) (t : Fin cfg0.N) : (iblk m c 5 t : Vec F S5x1024x1024 .bf16) = V m c main_v2 := by
  -- the window's index map over the grid: block 0 on every axis, the whole array
  have hi : win0_5.index t (0 : Fin 3) = 0 ∧ win0_5.index t (1 : Fin 3) = 0 ∧ win0_5.index t (2 : Fin 3) = 0 :=
    (by decide +kernel : ∀ t : Fin grid0.N, win0_5.index t (0 : Fin 3) = 0 ∧ win0_5.index t (1 : Fin 3) = 0 ∧ win0_5.index t (2 : Fin 3) = 0) t
  funext y
  unfold iblk
  rw [View.read_apply]
  show V m c main_v2 _ = V m c main_v2 _
  congr 1
  funext a
  apply Fin.ext
  match a with
  | ⟨0, _⟩ => show win0_5.index t (0 : Fin 3) * 5 + 1 * (y 0).val = (y 0).val; rw [hi.1]; omega
  | ⟨1, _⟩ => show win0_5.index t (1 : Fin 3) * 1024 + 1 * (y 1).val = (y 1).val; rw [hi.2.1]; omega
  | ⟨2, _⟩ => show win0_5.index t (2 : Fin 3) * 1024 + 1 * (y 2).val = (y 2).val; rw [hi.2.2]; omega

theorem iblk6_eq (c : Dev nD) (t : Fin cfg0.N) : (iblk m c 6 t : Vec F S5x1024x1024 .bf16) = V m c main_v5 := by
  -- the window's index map over the grid: block 0 on every axis, the whole array
  have hi : win0_6.index t (0 : Fin 3) = 0 ∧ win0_6.index t (1 : Fin 3) = 0 ∧ win0_6.index t (2 : Fin 3) = 0 :=
    (by decide +kernel : ∀ t : Fin grid0.N, win0_6.index t (0 : Fin 3) = 0 ∧ win0_6.index t (1 : Fin 3) = 0 ∧ win0_6.index t (2 : Fin 3) = 0) t
  funext y
  unfold iblk
  rw [View.read_apply]
  show V m c main_v5 _ = V m c main_v5 _
  congr 1
  funext a
  apply Fin.ext
  match a with
  | ⟨0, _⟩ => show win0_6.index t (0 : Fin 3) * 5 + 1 * (y 0).val = (y 0).val; rw [hi.1]; omega
  | ⟨1, _⟩ => show win0_6.index t (1 : Fin 3) * 1024 + 1 * (y 1).val = (y 1).val; rw [hi.2.1]; omega
  | ⟨2, _⟩ => show win0_6.index t (2 : Fin 3) * 1024 + 1 * (y 2).val = (y 2).val; rw [hi.2.2]; omega

theorem iblk7_eq (c : Dev nD) (t : Fin cfg0.N) : (iblk m c 7 t : Vec F S5x1x1024 .f32) = V m c main_v8 := by
  -- the window's index map over the grid: block 0 on every axis, the whole array
  have hi : win0_7.index t (0 : Fin 3) = 0 ∧ win0_7.index t (1 : Fin 3) = 0 ∧ win0_7.index t (2 : Fin 3) = 0 :=
    (by decide +kernel : ∀ t : Fin grid0.N, win0_7.index t (0 : Fin 3) = 0 ∧ win0_7.index t (1 : Fin 3) = 0 ∧ win0_7.index t (2 : Fin 3) = 0) t
  funext y
  unfold iblk
  rw [View.read_apply]
  show V m c main_v8 _ = V m c main_v8 _
  congr 1
  funext a
  apply Fin.ext
  match a with
  | ⟨0, _⟩ => show win0_7.index t (0 : Fin 3) * 5 + 1 * (y 0).val = (y 0).val; rw [hi.1]; omega
  | ⟨1, _⟩ => show win0_7.index t (1 : Fin 3) * 1 + 1 * (y 1).val = (y 1).val; rw [hi.2.1]; omega
  | ⟨2, _⟩ => show win0_7.index t (2 : Fin 3) * 1024 + 1 * (y 2).val = (y 2).val; rw [hi.2.2]; omega

end Cert.KernelIdeal.KIblk

end
-- ==== Proof.Target.lean ====
/-
  The three results as whole-array functions of the seven arguments: entry (r, j) of the total and of the
  final activations is the row chain of row r at column j; every entry (a, j) of the loss is the five
  layers' column losses of column j.
-/
import proofs.«405528_j52175262712147_4_alg».proof.Proof.Spec
import Idealize.ShloMosaic.Lib.ValueIdx

noncomputable section

namespace Cert.Target

open Idealize.ShloMosaic Idealize.ShloMosaic.ValueIdx

/-- The weights by coordinates. -/
def params (W1 : FVec Ideal ⟨2, ![4096, 1024]⟩ .f32) (b1 : FVec Ideal ⟨1, ![4096]⟩ .f32)
    (W2 : FVec Ideal ⟨2, ![1024, 4096]⟩ .f32) (b2 : FVec Ideal ⟨1, ![1024]⟩ .f32)
    (Wc : FVec Ideal ⟨3, ![5, 1024, 1024]⟩ .f32) (bc : FVec Ideal ⟨2, ![5, 1024]⟩ .f32) : Spec.Params where
  W1 j t := W1 (ix2 j t)
  b1 j := b1 (ix1 j)
  W2 j t := W2 (ix2 j t)
  b2 j := b2 (ix1 j)
  Wc l j t := Wc (ix3 l j t)
  bc l j := bc (ix2 l j)

/-- Row `r` of the activations (zero past the last row: never read). -/
def row (x : FVec Ideal ⟨2, ![8192, 1024]⟩ .f32) (r : ℕ) : Fin 1024 → EReal :=
  fun t => if h : r < 8192 then x (ix2 ⟨r, h⟩ t) else 0

theorem row_fin (x : FVec Ideal ⟨2, ![8192, 1024]⟩ .f32) (r : Fin 8192) : row x r.val = fun t => x (ix2 r t) := by
  funext t; unfold row; rw [dif_pos r.isLt]

variable (x : FVec Ideal ⟨2, ![8192, 1024]⟩ .f32) (W1 : FVec Ideal ⟨2, ![4096, 1024]⟩ .f32) (b1 : FVec Ideal ⟨1, ![4096]⟩ .f32)
    (W2 : FVec Ideal ⟨2, ![1024, 4096]⟩ .f32) (b2 : FVec Ideal ⟨1, ![1024]⟩ .f32)
    (Wc : FVec Ideal ⟨3, ![5, 1024, 1024]⟩ .f32) (bc : FVec Ideal ⟨2, ![5, 1024]⟩ .f32)

/-- The total of the five block outputs. -/
def Ginv : FVec Ideal ⟨2, ![8192, 1024]⟩ .f32 :=
  fun i => Spec.invAt (params W1 b1 W2 b2 Wc bc) (row x (i 0).val) 5 ⟨(i 1).val, idx2_lt1 i⟩

/-- The activations after the five layers. -/
def Gnxt : FVec Ideal ⟨2, ![8192, 1024]⟩ .f32 :=
  fun i => Spec.zAt (params W1 b1 W2 b2 Wc bc) (row x (i 0).val) 5 ⟨(i 1).val, idx2_lt1 i⟩

/-- The loss: every row of it is the vector of column losses. -/
def Gloss : FVec Ideal ⟨2, ![1024, 1024]⟩ .f32 :=
  fun i => Spec.lossRef fun l r => Spec.cAt (params W1 b1 W2 b2 Wc bc) (row x r) l ⟨(i 1).val, idx2_lt1 i⟩

theorem Ginv_apply (r : Fin 8192) (j : Fin 1024) :
    Ginv x W1 b1 W2 b2 Wc bc (ix2 r j) = Spec.invAt (params W1 b1 W2 b2 Wc bc) (row x r.val) 5 j := rfl

theorem Gnxt_apply (r : Fin 8192) (j : Fin 1024) :
    Gnxt x W1 b1 W2 b2 Wc bc (ix2 r j) = Spec.zAt (params W1 b1 W2 b2 Wc bc) (row x r.val) 5 j := rfl

theorem Gloss_apply (a j : Fin 1024) :
    Gloss x W1 b1 W2 b2 Wc bc (ix2 a j)
      = Spec.lossRef fun l r => Spec.cAt (params W1 b1 W2 b2 Wc bc) (row x r) l j := rfl

end Cert.Target

end
-- ==== Proof.KBlocks.lean ====
/-
  From tiles to arrays. Grid point `t` works on rows 64 t … 64 t + 63: its tile of the two big outputs is those rows of
  the target arrays, and row `l` of its tile of each small output is layer `l`'s tile quantity. Every index of an
  output array lies in exactly the block of the point `(row) / 64` (for the small outputs: the point equal to the
  first coordinate), so after the last write-back each array holds its whole-array function.
-/
import proofs.«405528_j52175262712147_4_alg».proof.Proof.KTrip
import proofs.«405528_j52175262712147_4_alg».proof.Proof.KRow
import proofs.«405528_j52175262712147_4_alg».proof.Proof.KHost
import proofs.«405528_j52175262712147_4_alg».proof.Proof.KIblk
import proofs.«405528_j52175262712147_4_alg».proof.Proof.Target
import Idealize.ShloMosaic.Lib.Pipeline.Value
import Idealize.ShloMosaic.Lib.ValueIdx

set_option maxRecDepth 16384

noncomputable section

open scoped BigOperators

namespace Cert.KernelIdeal.KBlocks

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.KHost

variable (m : (ℓ : Loc nD τ sig) → Buf (Elt Ideal) ℓ)

/-- Every argument the products' remainders touch holds real numbers, on core `c`. -/
structure RealArgs (c : Dev nD) : Prop where
  hx : ∀ i, Spec.IsReal (aX m c i)
  hW1 : ∀ i, Spec.IsReal (aW1 m c i)
  hb1 : ∀ i, Spec.IsReal (ab1 m c i)
  hW2 : ∀ i, Spec.IsReal (aW2 m c i)
  hb2 : ∀ i, Spec.IsReal (ab2 m c i)
  hWc : ∀ i, Spec.IsReal (aWc m c i)

/-- The target's weights. -/
abbrev P (c : Dev nD) : Spec.Params := Target.params (aW1 m c) (ab1 m c) (aW2 m c) (ab2 m c) (aWc m c) (abc m c)

/-- The eight input blocks of grid point `t`, at their literal types. -/
abbrev tx (c : Dev nD) (t : Fin cfg0.N) : Vec Ideal S64x1024 .f32 := iblk m c 0 t
abbrev t1 (c : Dev nD) (t : Fin cfg0.N) : Vec Ideal S4096x1024 .bf16 := iblk m c 1 t
abbrev t2 (c : Dev nD) (t : Fin cfg0.N) : Vec Ideal S1x4096 .f32 := iblk m c 2 t
abbrev t3 (c : Dev nD) (t : Fin cfg0.N) : Vec Ideal S1024x4096 .bf16 := iblk m c 3 t
abbrev t4 (c : Dev nD) (t : Fin cfg0.N) : Vec Ideal S1x1024 .f32 := iblk m c 4 t
abbrev t5 (c : Dev nD) (t : Fin cfg0.N) : Vec Ideal S5x1024x1024 .bf16 := iblk m c 5 t
abbrev t6 (c : Dev nD) (t : Fin cfg0.N) : Vec Ideal S5x1024x1024 .bf16 := iblk m c 6 t
abbrev t7 (c : Dev nD) (t : Fin cfg0.N) : Vec Ideal S5x1x1024 .f32 := iblk m c 7 t

theorem row_lt (t : Fin cfg0.N) (r : Fin 64) : 64 * t.val + r.val < 8192 := by
  have := KIblk.N_eq; have := t.isLt; have := r.isLt; omega

/-- Row `r` of point `t`'s tile is row `64 t + r` of the activations. -/
theorem trow_eq (c : Dev nD) (t : Fin cfg0.N) (r : Fin 64) :
    KPay.trow (tx m c t) r = Target.row (aX m c) (64 * t.val + r.val) := by
  funext j
  unfold KPay.trow Target.row
  rw [dif_pos (row_lt t r)]
  exact (KIblk.iblk0_apply m c t r j).trans (congrFun (V_main_arg0 m c) _)

/-- The weights every point holds are the target's. -/
theorem pk_eq (c : Dev nD) (t : Fin cfg0.N) :
    KRow.pk (t1 m c t) (t2 m c t) (t3 m c t) (t4 m c t) (t5 m c t) (t7 m c t) = P m c := by
  unfold KRow.pk P Target.params
  simp only [Spec.Params.mk.injEq]
  refine ⟨?_, ?_, ?_, ?_, ?_, ?_⟩
  · funext a b; exact (congrFun (KIblk.iblk1_eq m c t) _).trans (V_v0_apply m c a b)
  · funext a; exact (congrFun (KIblk.iblk2_eq m c t) _).trans (V_v6_apply m c a)
  · funext a b; exact (congrFun (KIblk.iblk3_eq m c t) _).trans (V_v1_apply m c a b)
  · funext a; exact (congrFun (KIblk.iblk4_eq m c t) _).trans (V_v7_apply m c a)
  · funext l a b; exact (congrFun (KIblk.iblk5_eq m c t) _).trans (V_v2_apply m c l a b)
  · funext l a; exact (congrFun (KIblk.iblk7_eq m c t) _).trans (V_v8_apply m c l a)

/-- The low part of the read-out weights is the weights' own remainder. -/
theorem t6_eq (c : Dev nD) (t : Fin cfg0.N) (l : Fin 5) (a b : Fin 1024) :
    t6 m c t (ix3 l a b) = t5 m c t (ix3 l a b) - t5 m c t (ix3 l a b) := by
  have e5 : t5 m c t (ix3 l a b) = aWc m c (ix3 l a b) :=
    (congrFun (KIblk.iblk5_eq m c t) _).trans (V_v2_apply m c l a b)
  rw [e5]
  exact (congrFun (KIblk.iblk6_eq m c t) _).trans (V_v5_apply m c l a b)

theorem tx_real (c : Dev nD) (hr : RealArgs m c) (t : Fin cfg0.N) : ∀ i, Spec.IsReal (tx m c t i) := by
  intro i
  obtain ⟨r, j, rfl⟩ : ∃ (r : Fin 64) (j : Fin 1024), i = ix2 r j := ⟨i 0, i 1, eq_ix2 i⟩
  rw [show tx m c t (ix2 r j) = aX m c (ix2 ⟨64 * t.val + r.val, row_lt t r⟩ j) from
    (KIblk.iblk0_apply m c t r j).trans (congrFun (V_main_arg0 m c) _)]
  exact hr.hx _

theorem t1_real (c : Dev nD) (hr : RealArgs m c) (t : Fin cfg0.N) : ∀ i, Spec.IsReal (t1 m c t i) := by
  intro i
  obtain ⟨a, b, rfl⟩ : ∃ (a : Fin 4096) (b : Fin 1024), i = ix2 a b := ⟨i 0, i 1, eq_ix2 i⟩
  rw [show t1 m c t (ix2 a b) = aW1 m c (ix2 a b) from (congrFun (KIblk.iblk1_eq m c t) _).trans (V_v0_apply m c a b)]
  exact hr.hW1 _

theorem t2_real (c : Dev nD) (hr : RealArgs m c) (t : Fin cfg0.N) : ∀ i, Spec.IsReal (t2 m c t i) := by
  intro i
  obtain ⟨z, a, rfl⟩ : ∃ (z : Fin 1) (a : Fin 4096), i = ix2 z a := ⟨i 0, i 1, eq_ix2 i⟩
  obtain rfl : z = 0 := Subsingleton.elim _ _
  rw [show t2 m c t (ix2 (0 : Fin 1) a) = ab1 m c (ix1 a) from (congrFun (KIblk.iblk2_eq m c t) _).trans (V_v6_apply m c a)]
  exact hr.hb1 _

theorem t3_real (c : Dev nD) (hr : RealArgs m c) (t : Fin cfg0.N) : ∀ i, Spec.IsReal (t3 m c t i) := by
  intro i
  obtain ⟨a, b, rfl⟩ : ∃ (a : Fin 1024) (b : Fin 4096), i = ix2 a b := ⟨i 0, i 1, eq_ix2 i⟩
  rw [show t3 m c t (ix2 a b) = aW2 m c (ix2 a b) from (congrFun (KIblk.iblk3_eq m c t) _).trans (V_v1_apply m c a b)]
  exact hr.hW2 _

theorem t4_real (c : Dev nD) (hr : RealArgs m c) (t : Fin cfg0.N) : ∀ i, Spec.IsReal (t4 m c t i) := by
  intro i
  obtain ⟨z, a, rfl⟩ : ∃ (z : Fin 1) (a : Fin 1024), i = ix2 z a := ⟨i 0, i 1, eq_ix2 i⟩
  obtain rfl : z = 0 := Subsingleton.elim _ _
  rw [show t4 m c t (ix2 (0 : Fin 1) a) = ab2 m c (ix1 a) from (congrFun (KIblk.iblk4_eq m c t) _).trans (V_v7_apply m c a)]
  exact hr.hb2 _

theorem t5_real (c : Dev nD) (hr : RealArgs m c) (t : Fin cfg0.N) : ∀ i, Spec.IsReal (t5 m c t i) := by
  intro i
  obtain ⟨l, a, b, rfl⟩ : ∃ (l : Fin 5) (a b : Fin 1024), i = ix3 l a b := ⟨i 0, i 1, i 2, eq_ix3 i⟩
  rw [show t5 m c t (ix3 l a b) = aWc m c (ix3 l a b) from (congrFun (KIblk.iblk5_eq m c t) _).trans (V_v2_apply m c l a b)]
  exact hr.hWc _

/-! ## The two big outputs -/

/-- The indices the output blocks of the big windows move to: block `(t, 0)`. -/
theorem idx_facts89 : ∀ t : Fin cfg0.N, win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Point `t`'s tile of the final activations is rows `64 t …` of the target. -/
theorem tile9 (c : Dev nD) (hr : RealArgs m c) (t : Fin cfg0.N) (y : S64x1024.Idx) :
    (KTrip.carried (tx m c t) (t1 m c t) (t2 m c t) (t3 m c t) (t4 m c t) 5).1 y
      = Target.Gnxt (aX m c) (aW1 m c) (ab1 m c) (aW2 m c) (ab2 m c) (aWc m c) (abc m c) (ix2 (⟨64 * t.val + (y 0).val, row_lt t (y 0)⟩ : Fin 8192) (y 1)) := by
  obtain ⟨r, j, rfl⟩ : ∃ (r : Fin 64) (j : Fin 1024), y = ix2 r j := ⟨y 0, y 1, eq_ix2 y⟩
  refine ((KRow.carried_real (tx m c t) (t1 m c t) (t2 m c t) (t3 m c t) (t4 m c t) (t5 m c t) (t7 m c t) (tx_real m c hr t) (t1_real m c hr t) (t2_real m c hr t) (t3_real m c hr t) (t4_real m c hr t) (t5_real m c hr t) 5 r j).1).trans ?_
  rw [pk_eq, trow_eq]
  rfl

theorem tile8 (c : Dev nD) (hr : RealArgs m c) (t : Fin cfg0.N) (y : S64x1024.Idx) :
    (KTrip.carried (tx m c t) (t1 m c t) (t2 m c t) (t3 m c t) (t4 m c t) 5).2 y
      = Target.Ginv (aX m c) (aW1 m c) (ab1 m c) (aW2 m c) (ab2 m c) (aWc m c) (abc m c) (ix2 (⟨64 * t.val + (y 0).val, row_lt t (y 0)⟩ : Fin 8192) (y 1)) := by
  obtain ⟨r, j, rfl⟩ : ∃ (r : Fin 64) (j : Fin 1024), y = ix2 r j := ⟨y 0, y 1, eq_ix2 y⟩
  refine ((KRow.carried_real (tx m c t) (t1 m c t) (t2 m c t) (t3 m c t) (t4 m c t) (t5 m c t) (t7 m c t) (tx_real m c hr t) (t1_real m c hr t) (t2_real m c hr t) (t3_real m c hr t) (t4_real m c hr t) (t5_real m c hr t) 5 r j).2).trans ?_
  rw [pk_eq, trow_eq]
  rfl

theorem flushed9_eq (c : Dev nD) (hr : RealArgs m c) (t : Fin cfg0.N) :
    (dats m 0 c).flushed 9 t = ((cfg0.win 9).blk t).view.read (Elt Ideal) (Target.Gnxt (aX m c) (aW1 m c) (ab1 m c) (aW2 m c) (ab2 m c) (aWc m c) (abc m c)) := by
  show (cfg0.win 9).cut (grid0.coords t) ((dats m 0 c).after 9 t) = _
  rw [after0_9]
  unfold outsAt0
  dsimp only
  rw [KTrip.out9_eq]
  obtain ⟨-, -, e0, e1⟩ := idx_facts89 t
  funext y
  rw [View.read_apply]
  refine (tile9 m c hr t y).trans (congrArg _ ?_)
  funext a; apply Fin.ext
  match a with
  | ⟨0, _⟩ => show 64 * t.val + (y 0).val = win0_9.index t (0 : Fin 2) * 64 + 1 * (y 0).val; omega
  | ⟨1, _⟩ => show (y 1).val = win0_9.index t (1 : Fin 2) * 1024 + 1 * (y 1).val; omega

theorem flushed8_eq (c : Dev nD) (hr : RealArgs m c) (t : Fin cfg0.N) :
    (dats m 0 c).flushed 8 t = ((cfg0.win 8).blk t).view.read (Elt Ideal) (Target.Ginv (aX m c) (aW1 m c) (ab1 m c) (aW2 m c) (ab2 m c) (aWc m c) (abc m c)) := by
  show (cfg0.win 8).cut (grid0.coords t) ((dats m 0 c).after 8 t) = _
  rw [after0_8]
  unfold outsAt0
  dsimp only
  rw [KTrip.out8_eq]
  obtain ⟨e0, e1, -, -⟩ := idx_facts89 t
  funext y
  rw [View.read_apply]
  refine (tile8 m c hr t y).trans (congrArg _ ?_)
  funext a; apply Fin.ext
  match a with
  | ⟨0, _⟩ => show 64 * t.val + (y 0).val = win0_8.index t (0 : Fin 2) * 64 + 1 * (y 0).val; omega
  | ⟨1, _⟩ => show (y 1).val = win0_8.index t (1 : Fin 2) * 1024 + 1 * (y 1).val; omega

theorem mem_blk8 (t : Fin cfg0.N) (i : S8192x1024.Idx) :
    i ∈ ((cfg0.win 8).blk t).view.set ↔ ∀ a : Fin 2, win0_8.index t a * S64x1024.size a ≤ (i a).val
      ∧ (i a).val < win0_8.index t a * S64x1024.size a + S64x1024.size a := by
  show i ∈ ((View.whole main_v9_0).slice (win0_8.rect t)).set ↔ _
  rw [View.set_slice_whole, Rect.mem_set_unit]
  exact Iff.rfl

theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN := KIblk.N_eq
  refine ⟨⟨(i 0).val / 64, by omega⟩, flush0_8 _, ?_⟩
  rw [mem_blk8]
  obtain ⟨e0, e1, e2, e3⟩ := idx_facts89 ⟨(i 0).val / 64, by omega⟩
  intro a
  match a with
  | ⟨0, _⟩ =>
    show win0_8.index ⟨(i 0).val / 64, _⟩ (0 : Fin 2) * 64 ≤ (i 0).val
      ∧ (i 0).val < win0_8.index ⟨(i 0).val / 64, _⟩ (0 : Fin 2) * 64 + 64
    simp only at e0 e2
    omega
  | ⟨1, _⟩ =>
    show win0_8.index ⟨(i 0).val / 64, _⟩ (1 : Fin 2) * 1024 ≤ (i 1).val
      ∧ (i 1).val < win0_8.index ⟨(i 0).val / 64, _⟩ (1 : Fin 2) * 1024 + 1024
    omega

theorem mem_blk9 (t : Fin cfg0.N) (i : S8192x1024.Idx) :
    i ∈ ((cfg0.win 9).blk t).view.set ↔ ∀ a : Fin 2, win0_9.index t a * S64x1024.size a ≤ (i a).val
      ∧ (i a).val < win0_9.index t a * S64x1024.size a + S64x1024.size a := by
  show i ∈ ((View.whole main_v9_1).slice (win0_9.rect t)).set ↔ _
  rw [View.set_slice_whole, Rect.mem_set_unit]
  exact Iff.rfl

theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN := KIblk.N_eq
  refine ⟨⟨(i 0).val / 64, by omega⟩, flush0_9 _, ?_⟩
  rw [mem_blk9]
  obtain ⟨e0, e1, e2, e3⟩ := idx_facts89 ⟨(i 0).val / 64, by omega⟩
  intro a
  match a with
  | ⟨0, _⟩ =>
    show win0_9.index ⟨(i 0).val / 64, _⟩ (0 : Fin 2) * 64 ≤ (i 0).val
      ∧ (i 0).val < win0_9.index ⟨(i 0).val / 64, _⟩ (0 : Fin 2) * 64 + 64
    simp only at e0 e2
    omega
  | ⟨1, _⟩ =>
    show win0_9.index ⟨(i 0).val / 64, _⟩ (1 : Fin 2) * 1024 ≤ (i 1).val
      ∧ (i 1).val < win0_9.index ⟨(i 0).val / 64, _⟩ (1 : Fin 2) * 1024 + 1024
    omega

/-- After the run the first result holds the total of the block outputs. -/
theorem final8 (c : Dev nD) (hr : RealArgs m c) :
    (dats m 0 c).arrAt 8 cfg0.N = Target.Ginv (aX m c) (aW1 m c) (ab1 m c) (aW2 m c) (ab2 m c) (aWc m c) (abc m c) :=
  (dats m 0 c).arrAt_eq_of_cover 8 _ (fun t _ => flushed8_eq m c hr t) cover8

/-- After the run the second result holds the final activations. -/
theorem final9 (c : Dev nD) (hr : RealArgs m c) :
    (dats m 0 c).arrAt 9 cfg0.N = Target.Gnxt (aX m c) (aW1 m c) (ab1 m c) (aW2 m c) (ab2 m c) (aWc m c) (abc m c) :=
  (dats m 0 c).arrAt_eq_of_cover 9 _ (fun t _ => flushed9_eq m c hr t) cover9

/-! ## The three small outputs -/

/-- Layer `l`'s cosine-like vector of global row `n`, at column `j`. -/
abbrev cG (c : Dev nD) (l : Fin 5) (j : Fin 1024) (n : ℕ) : EReal :=
  Spec.cAt (P m c) (Target.row (aX m c) n) l j

/-- Tile `t`, layer `l`, column `j`: the 63 inner differences of the tile's rows. -/
def G10 (c : Dev nD) : FVec Ideal S128x5x1024 .f32 := fun i =>
  ∑ r : Fin 63, Spec.adiff (cG m c ⟨(i 1).val, (i 1).isLt⟩ ⟨(i 2).val, (i 2).isLt⟩) (64 * (i 0).val + r.val)

/-- The vector of the tile's first row. -/
def G11 (c : Dev nD) : FVec Ideal S128x5x1024 .f32 := fun i =>
  cG m c ⟨(i 1).val, (i 1).isLt⟩ ⟨(i 2).val, (i 2).isLt⟩ (64 * (i 0).val)

/-- The vector of the tile's last row. -/
def G12 (c : Dev nD) : FVec Ideal S128x5x1024 .f32 := fun i =>
  cG m c ⟨(i 1).val, (i 1).isLt⟩ ⟨(i 2).val, (i 2).isLt⟩ (64 * (i 0).val + 63)

theorem idx_factsS : ∀ t : Fin cfg0.N,
    win0_10.index t (0 : Fin 3) = t.val ∧ win0_10.index t (1 : Fin 3) = 0 ∧ win0_10.index t (2 : Fin 3) = 0
    ∧ win0_11.index t (0 : Fin 3) = t.val ∧ win0_11.index t (1 : Fin 3) = 0 ∧ win0_11.index t (2 : Fin 3) = 0
    ∧ win0_12.index t (0 : Fin 3) = t.val ∧ win0_12.index t (1 : Fin 3) = 0 ∧ win0_12.index t (2 : Fin 3) = 0 :=
  (by decide +kernel : ∀ t : Fin grid0.N, _)

theorem t_lt (t : Fin cfg0.N) : t.val < 128 := by have := KIblk.N_eq; have := t.isLt; omega

theorem tile10 (c : Dev nD) (hr : RealArgs m c) (t : Fin cfg0.N) (l : Fin 5) (j : Fin 1024) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (ix3 (0 : Fin 1) l j)
      = G10 m c (ix3 (⟨t.val, t_lt t⟩ : Fin 128) l j) := by
  refine (KTrip.out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (tx m c t) (t1 m c t) (t2 m c t) (t3 m c t) (t4 m c t) (t5 m c t) (t6 m c t) (t7 m c t) l j).trans ?_
  refine (KRow.row7_apply (tx m c t) (t1 m c t) (t2 m c t) (t3 m c t) (t4 m c t) (t5 m c t) (t6 m c t) (t7 m c t) (tx_real m c hr t) (t1_real m c hr t) (t2_real m c hr t) (t3_real m c hr t) (t4_real m c hr t) (t5_real m c hr t) (t6_eq m c t) l j).trans ?_
  unfold G10
  refine Finset.sum_congr rfl fun r _ => ?_
  rw [pk_eq, trow_eq, trow_eq]
  rfl

theorem tile11 (c : Dev nD) (hr : RealArgs m c) (t : Fin cfg0.N) (l : Fin 5) (j : Fin 1024) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (ix3 (0 : Fin 1) l j)
      = G11 m c (ix3 (⟨t.val, t_lt t⟩ : Fin 128) l j) := by
  refine (KTrip.out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (tx m c t) (t1 m c t) (t2 m c t) (t3 m c t) (t4 m c t) (t5 m c t) (t6 m c t) (t7 m c t) l j).trans ?_
  refine (KRow.row8_apply (tx m c t) (t1 m c t) (t2 m c t) (t3 m c t) (t4 m c t) (t5 m c t) (t6 m c t) (t7 m c t) (tx_real m c hr t) (t1_real m c hr t) (t2_real m c hr t) (t3_real m c hr t) (t4_real m c hr t) (t5_real m c hr t) (t6_eq m c t) l j).trans ?_
  rw [pk_eq, trow_eq]
  rfl

theorem tile12 (c : Dev nD) (hr : RealArgs m c) (t : Fin cfg0.N) (l : Fin 5) (j : Fin 1024) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (ix3 (0 : Fin 1) l j)
      = G12 m c (ix3 (⟨t.val, t_lt t⟩ : Fin 128) l j) := by
  refine (KTrip.out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (tx m c t) (t1 m c t) (t2 m c t) (t3 m c t) (t4 m c t) (t5 m c t) (t6 m c t) (t7 m c t) l j).trans ?_
  refine (KRow.row9_apply (tx m c t) (t1 m c t) (t2 m c t) (t3 m c t) (t4 m c t) (t5 m c t) (t6 m c t) (t7 m c t) (tx_real m c hr t) (t1_real m c hr t) (t2_real m c hr t) (t3_real m c hr t) (t4_real m c hr t) (t5_real m c hr t) (t6_eq m c t) l j).trans ?_
  rw [pk_eq, trow_eq]
  rfl

theorem flushed10_eq (c : Dev nD) (hr : RealArgs m c) (t : Fin cfg0.N) :
    (dats m 0 c).flushed 10 t = ((cfg0.win 10).blk t).view.read (Elt Ideal) (G10 m c) := by
  show (cfg0.win 10).cut (grid0.coords t) ((dats m 0 c).after 10 t) = _
  rw [after0_10]
  unfold outsAt0
  dsimp only
  obtain ⟨a0, a1, a2, b0, b1, b2, c0, c1, c2⟩ := idx_factsS t
  funext y
  rw [View.read_apply]
  obtain ⟨z, l, j, rfl⟩ : ∃ (z : Fin 1) (l : Fin 5) (j : Fin 1024), y = ix3 z l j := ⟨y 0, y 1, y 2, eq_ix3 y⟩
  obtain rfl : z = 0 := Subsingleton.elim _ _
  refine (tile10 m c hr t l j).trans (congrArg _ ?_)
  funext a; apply Fin.ext
  match a with
  | ⟨0, _⟩ => show t.val = win0_10.index t (0 : Fin 3) * 1 + 1 * 0; omega
  | ⟨1, _⟩ => show l.val = win0_10.index t (1 : Fin 3) * 5 + 1 * l.val; omega
  | ⟨2, _⟩ => show j.val = win0_10.index t (2 : Fin 3) * 1024 + 1 * j.val; omega

theorem mem_blk10 (t : Fin cfg0.N) (i : S128x5x1024.Idx) :
    i ∈ ((cfg0.win 10).blk t).view.set ↔ ∀ a : Fin 3, win0_10.index t a * S1x5x1024.size a ≤ (i a).val
      ∧ (i a).val < win0_10.index t a * S1x5x1024.size a + S1x5x1024.size a := by
  show i ∈ ((View.whole main_v9_2).slice (win0_10.rect t)).set ↔ _
  rw [View.set_slice_whole, Rect.mem_set_unit]
  exact Iff.rfl

theorem cover10 (i : S128x5x1024.Idx) :
    ∃ t : Fin cfg0.N, (cfg0.win 10).flush t = true ∧ i ∈ ((cfg0.win 10).blk t).view.set := by
  have hi0 : (i 0).val < 128 := (i 0).isLt
  have hi1 : (i 1).val < 5 := (i 1).isLt
  have hi2 : (i 2).val < 1024 := (i 2).isLt
  have hN := KIblk.N_eq
  refine ⟨⟨(i 0).val, by omega⟩, flush0_10 _, ?_⟩
  rw [mem_blk10]
  obtain ⟨a0, a1, a2, b0, b1, b2, c0, c1, c2⟩ := idx_factsS ⟨(i 0).val, by omega⟩
  intro a
  match a with
  | ⟨0, _⟩ =>
    show win0_10.index ⟨(i 0).val, _⟩ (0 : Fin 3) * 1 ≤ (i 0).val
      ∧ (i 0).val < win0_10.index ⟨(i 0).val, _⟩ (0 : Fin 3) * 1 + 1
    simp only at a0 b0 c0
    omega
  | ⟨1, _⟩ =>
    show win0_10.index ⟨(i 0).val, _⟩ (1 : Fin 3) * 5 ≤ (i 1).val
      ∧ (i 1).val < win0_10.index ⟨(i 0).val, _⟩ (1 : Fin 3) * 5 + 5
    omega
  | ⟨2, _⟩ =>
    show win0_10.index ⟨(i 0).val, _⟩ (2 : Fin 3) * 1024 ≤ (i 2).val
      ∧ (i 2).val < win0_10.index ⟨(i 0).val, _⟩ (2 : Fin 3) * 1024 + 1024
    omega

theorem final10 (c : Dev nD) (hr : RealArgs m c) : (dats m 0 c).arrAt 10 cfg0.N = G10 m c :=
  (dats m 0 c).arrAt_eq_of_cover 10 _ (fun t _ => flushed10_eq m c hr t) cover10

theorem flushed11_eq (c : Dev nD) (hr : RealArgs m c) (t : Fin cfg0.N) :
    (dats m 0 c).flushed 11 t = ((cfg0.win 11).blk t).view.read (Elt Ideal) (G11 m c) := by
  show (cfg0.win 11).cut (grid0.coords t) ((dats m 0 c).after 11 t) = _
  rw [after0_11]
  unfold outsAt0
  dsimp only
  obtain ⟨a0, a1, a2, b0, b1, b2, c0, c1, c2⟩ := idx_factsS t
  funext y
  rw [View.read_apply]
  obtain ⟨z, l, j, rfl⟩ : ∃ (z : Fin 1) (l : Fin 5) (j : Fin 1024), y = ix3 z l j := ⟨y 0, y 1, y 2, eq_ix3 y⟩
  obtain rfl : z = 0 := Subsingleton.elim _ _
  refine (tile11 m c hr t l j).trans (congrArg _ ?_)
  funext a; apply Fin.ext
  match a with
  | ⟨0, _⟩ => show t.val = win0_11.index t (0 : Fin 3) * 1 + 1 * 0; omega
  | ⟨1, _⟩ => show l.val = win0_11.index t (1 : Fin 3) * 5 + 1 * l.val; omega
  | ⟨2, _⟩ => show j.val = win0_11.index t (2 : Fin 3) * 1024 + 1 * j.val; omega

theorem mem_blk11 (t : Fin cfg0.N) (i : S128x5x1024.Idx) :
    i ∈ ((cfg0.win 11).blk t).view.set ↔ ∀ a : Fin 3, win0_11.index t a * S1x5x1024.size a ≤ (i a).val
      ∧ (i a).val < win0_11.index t a * S1x5x1024.size a + S1x5x1024.size a := by
  show i ∈ ((View.whole main_v9_3).slice (win0_11.rect t)).set ↔ _
  rw [View.set_slice_whole, Rect.mem_set_unit]
  exact Iff.rfl

theorem cover11 (i : S128x5x1024.Idx) :
    ∃ t : Fin cfg0.N, (cfg0.win 11).flush t = true ∧ i ∈ ((cfg0.win 11).blk t).view.set := by
  have hi0 : (i 0).val < 128 := (i 0).isLt
  have hi1 : (i 1).val < 5 := (i 1).isLt
  have hi2 : (i 2).val < 1024 := (i 2).isLt
  have hN := KIblk.N_eq
  refine ⟨⟨(i 0).val, by omega⟩, flush0_11 _, ?_⟩
  rw [mem_blk11]
  obtain ⟨a0, a1, a2, b0, b1, b2, c0, c1, c2⟩ := idx_factsS ⟨(i 0).val, by omega⟩
  intro a
  match a with
  | ⟨0, _⟩ =>
    show win0_11.index ⟨(i 0).val, _⟩ (0 : Fin 3) * 1 ≤ (i 0).val
      ∧ (i 0).val < win0_11.index ⟨(i 0).val, _⟩ (0 : Fin 3) * 1 + 1
    simp only at a0 b0 c0
    omega
  | ⟨1, _⟩ =>
    show win0_11.index ⟨(i 0).val, _⟩ (1 : Fin 3) * 5 ≤ (i 1).val
      ∧ (i 1).val < win0_11.index ⟨(i 0).val, _⟩ (1 : Fin 3) * 5 + 5
    omega
  | ⟨2, _⟩ =>
    show win0_11.index ⟨(i 0).val, _⟩ (2 : Fin 3) * 1024 ≤ (i 2).val
      ∧ (i 2).val < win0_11.index ⟨(i 0).val, _⟩ (2 : Fin 3) * 1024 + 1024
    omega

theorem final11 (c : Dev nD) (hr : RealArgs m c) : (dats m 0 c).arrAt 11 cfg0.N = G11 m c :=
  (dats m 0 c).arrAt_eq_of_cover 11 _ (fun t _ => flushed11_eq m c hr t) cover11

theorem flushed12_eq (c : Dev nD) (hr : RealArgs m c) (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold outsAt0
  dsimp only
  obtain ⟨a0, a1, a2, b0, b1, b2, c0, c1, c2⟩ := idx_factsS t
  funext y
  rw [View.read_apply]
  obtain ⟨z, l, j, rfl⟩ : ∃ (z : Fin 1) (l : Fin 5) (j : Fin 1024), y = ix3 z l j := ⟨y 0, y 1, y 2, eq_ix3 y⟩
  obtain rfl : z = 0 := Subsingleton.elim _ _
  refine (tile12 m c hr t l j).trans (congrArg _ ?_)
  funext a; apply Fin.ext
  match a with
  | ⟨0, _⟩ => show t.val = win0_12.index t (0 : Fin 3) * 1 + 1 * 0; omega
  | ⟨1, _⟩ => show l.val = win0_12.index t (1 : Fin 3) * 5 + 1 * l.val; omega
  | ⟨2, _⟩ => show j.val = win0_12.index t (2 : Fin 3) * 1024 + 1 * j.val; omega

theorem mem_blk12 (t : Fin cfg0.N) (i : S128x5x1024.Idx) :
    i ∈ ((cfg0.win 12).blk t).view.set ↔ ∀ a : Fin 3, win0_12.index t a * S1x5x1024.size a ≤ (i a).val
      ∧ (i a).val < win0_12.index t a * S1x5x1024.size a + S1x5x1024.size a := by
  show i ∈ ((View.whole main_v9_4).slice (win0_12.rect t)).set ↔ _
  rw [View.set_slice_whole, Rect.mem_set_unit]
  exact Iff.rfl

theorem cover12 (i : S128x5x1024.Idx) :
    ∃ t : Fin cfg0.N, (cfg0.win 12).flush t = true ∧ i ∈ ((cfg0.win 12).blk t).view.set := by
  have hi0 : (i 0).val < 128 := (i 0).isLt
  have hi1 : (i 1).val < 5 := (i 1).isLt
  have hi2 : (i 2).val < 1024 := (i 2).isLt
  have hN := KIblk.N_eq
  refine ⟨⟨(i 0).val, by omega⟩, flush0_12 _, ?_⟩
  rw [mem_blk12]
  obtain ⟨a0, a1, a2, b0, b1, b2, c0, c1, c2⟩ := idx_factsS ⟨(i 0).val, by omega⟩
  intro a
  match a with
  | ⟨0, _⟩ =>
    show win0_12.index ⟨(i 0).val, _⟩ (0 : Fin 3) * 1 ≤ (i 0).val
      ∧ (i 0).val < win0_12.index ⟨(i 0).val, _⟩ (0 : Fin 3) * 1 + 1
    simp only at a0 b0 c0
    omega
  | ⟨1, _⟩ =>
    show win0_12.index ⟨(i 0).val, _⟩ (1 : Fin 3) * 5 ≤ (i 1).val
      ∧ (i 1).val < win0_12.index ⟨(i 0).val, _⟩ (1 : Fin 3) * 5 + 5
    omega
  | ⟨2, _⟩ =>
    show win0_12.index ⟨(i 0).val, _⟩ (2 : Fin 3) * 1024 ≤ (i 2).val
      ∧ (i 2).val < win0_12.index ⟨(i 0).val, _⟩ (2 : Fin 3) * 1024 + 1024
    omega

theorem final12 (c : Dev nD) (hr : RealArgs m c) : (dats m 0 c).arrAt 12 cfg0.N = G12 m c :=
  (dats m 0 c).arrAt_eq_of_cover 12 _ (fun t _ => flushed12_eq m c hr t) cover12

end Cert.KernelIdeal.KBlocks

end
-- ==== Proof.KTail.lean ====
/-
  The host lines after the launch: from the three small outputs (128 tiles × 5 layers × 1024 columns each) to the
  loss. Per layer and column: the tiles' inner sums added up, plus the 127 absolute differences between a tile's
  first-row vector and the previous tile's last-row vector; the five layers added; the vector repeated down the rows.
-/
import proofs.«405528_j52175262712147_4_alg».proof.Proof.Gen.KernelIdeal.Frame
import Idealize.ShloMosaic.Lib.StableHlo.Run
import Idealize.ShloMosaic.Lib.Pipeline.Value
import Idealize.ShloMosaic.Lib.IdealHost
import Idealize.ShloMosaic.Lib.ValueIdx
import Idealize.ShloMosaic.Lib.ValueLayout
import Idealize.ShloMosaic.Lib.Tactic
import Idealize.ShloMosaic.PureOps.Ideal.Laws

noncomputable section

open scoped BigOperators

namespace Cert.KernelIdeal.KTail

open Idealize.ShloMosaic Idealize.ShloMosaic.TcCoe Idealize.ShloMosaic.Tactic Idealize.SL.Sem
open Idealize.ShloMosaic.ValueIdx
open Cert.KernelIdeal Cert.KernelIdeal.Gen

section AnyF

variable {F : FTy → Type} [FloatOps F]

/-- The nine host operations after the launch, as one function of the three small outputs. -/
def tail (A10 A11 A12 : FVec F S128x5x1024 .f32) : FVec F S1024x1024 .f32 :=
  broadcastInDim S1024x1024 ![1] bcast_S1024_S1024x1024_1
    (Host.reduceAdd
      (addf (Host.reduceAdd A10 (constant S_ .f32 0x00000000#32) reducesTo_S128x5x1024_S5x1024_d0 h_S_)
        (Host.reduceAdd
          (Host.absf (subf (extractStridedSlice S127x5x1024 ![1, 0, 0] A11 slices_S128x5x1024_S127x5x1024_1_0_0)
            (extractStridedSlice S127x5x1024 ![0, 0, 0] A12 slices_S128x5x1024_S127x5x1024_0_0_0)))
          (constant S_ .f32 0x00000000#32) reducesTo_S127x5x1024_S5x1024_d0 h_S_))
      (constant S_ .f32 0x00000000#32) reducesTo_S5x1024_S1024_d0 h_S_)

variable (m : (ℓ : Loc nD τ sig) → Buf (Elt F) ℓ)

/-- The third result after the run is that function of the three small arrays as the launch leaves them. -/
theorem tail_eq (c : Dev nD) :
    Pipeline.afterTail₀ cfgs (dats m) 0 (V0 m) [hostOps1] c main_v18
      = tail ((dats m 0 c).arrAt 10 cfg0.N) ((dats m 0 c).arrAt 11 cfg0.N) ((dats m 0 c).arrAt 12 cfg0.N) := by
  unfold Pipeline.afterTail₀
  show StableHlo.after hostOps1 _ (Proc.devRef .tc main_v18) = _
  after_results
  -- the three small outputs are the arrays of the windows 10, 11 and 12 as the launch leaves them
  have e10 : Pipeline.withArrays (cfgs 0).spec c (V0 m c) (fun w => (dats m 0 c).arrAt w (cfgs 0).N)
      (Proc.devRef .tc main_v9_2) = (dats m 0 c).arrAt 10 cfg0.N :=
    Pipeline.withArrays_arr spec0 launch0.win.arr_inj c _ _ 10
  have e11 : Pipeline.withArrays (cfgs 0).spec c (V0 m c) (fun w => (dats m 0 c).arrAt w (cfgs 0).N)
      (Proc.devRef .tc main_v9_3) = (dats m 0 c).arrAt 11 cfg0.N :=
    Pipeline.withArrays_arr spec0 launch0.win.arr_inj c _ _ 11
  have e12 : Pipeline.withArrays (cfgs 0).spec c (V0 m c) (fun w => (dats m 0 c).arrAt w (cfgs 0).N)
      (Proc.devRef .tc main_v9_4) = (dats m 0 c).arrAt 12 cfg0.N :=
    Pipeline.withArrays_arr spec0 launch0.win.arr_inj c _ _ 12
  unfold tail
  rw [e10, e11, e12]

end AnyF

/-- The absolute value of a difference, read at an index. -/
theorem absf_subf_apply {s : Shape} (A B : FVec Ideal s .f32) (i : s.Idx) :
    Host.absf (subf A B) i = max (A i - B i) (-(A i - B i)) := rfl

/-- Read at an entry, over the extended reals. -/
theorem tail_apply (A10 A11 A12 : FVec Ideal S128x5x1024 .f32) (a j : Fin 1024) :
    tail A10 A11 A12 (ix2 a j)
      = 0 + ∑ l : Fin 5, ((0 + ∑ t : Fin 128, A10 (ix3 t l j))
          + (0 + ∑ t : Fin 127,
              max (A11 (ix3 (⟨t.val + 1, by omega⟩ : Fin 128) l j) - A12 (ix3 (⟨t.val, by omega⟩ : Fin 128) l j))
                (-(A11 (ix3 (⟨t.val + 1, by omega⟩ : Fin 128) l j) - A12 (ix3 (⟨t.val, by omega⟩ : Fin 128) l j))))) := by
  have hr1 : Shape.Reduces S5x1024 [0] S1024 := by decide
  have hr2 : Shape.Reduces S128x5x1024 [0] S5x1024 := by decide
  have hr3 : Shape.Reduces S127x5x1024 [0] S5x1024 := by decide
  unfold tail
  -- entry (a, j) of the broadcast is entry j of the vector: zero plus the sum over the five layers
  refine (broadcastInDim_apply _ _ _ (ix2 a j) (ix1 j) (fun b => match b with | ⟨0, _⟩ => rfl)).trans ?_
  rw [hostReduceAdd_apply, Ideal.hostReduceAdd_single _ hr1, constant_apply, Ideal.ofBits_zero_f32]
  refine congrArg (fun s : EReal => 0 + s) (Finset.sum_congr rfl fun (l : Fin 5) _ => ?_)
  -- layer l, column j: the tiles' sums, and the differences across the 127 tile borders, each from zero
  rw [addf_apply, hostReduceAdd_apply, Ideal.hostReduceAdd_single _ hr2, hostReduceAdd_apply,
    Ideal.hostReduceAdd_single _ hr3, constant_apply, Ideal.ofBits_zero_f32]
  refine congrArg₂ (fun s u : EReal => (0 + s) + (0 + u))
    (Finset.sum_congr rfl fun (t : Fin 128) _ => ?_) (Finset.sum_congr rfl fun (t : Fin 127) _ => ?_)
  · exact congrArg A10 (funext fun b => match b with | ⟨0, _⟩ => rfl | ⟨1, _⟩ => rfl | ⟨2, _⟩ => rfl)
  · have ht : t.val < 127 := t.isLt
    -- the two slices read tiles t + 1 and t
    have e1 : extractStridedSlice S127x5x1024 ![1, 0, 0] A11 slices_S128x5x1024_S127x5x1024_1_0_0
        (hr3.lift (hr1.lift (ix1 j) l) t) = A11 (ix3 (⟨t.val + 1, by omega⟩ : Fin 128) l j) :=
      extractStridedSlice_apply _ _ _ _ _ fun b => match b with
        | ⟨0, _⟩ => by show t.val + 1 = 1 + t.val; omega
        | ⟨1, _⟩ => by show l.val = 0 + l.val; omega
        | ⟨2, _⟩ => by show j.val = 0 + j.val; omega
    have e0 : extractStridedSlice S127x5x1024 ![0, 0, 0] A12 slices_S128x5x1024_S127x5x1024_0_0_0
        (hr3.lift (hr1.lift (ix1 j) l) t) = A12 (ix3 (⟨t.val, by omega⟩ : Fin 128) l j) :=
      extractStridedSlice_apply _ _ _ _ _ fun b => match b with
        | ⟨0, _⟩ => by show t.val = 0 + t.val; omega
        | ⟨1, _⟩ => by show l.val = 0 + l.val; omega
        | ⟨2, _⟩ => by show j.val = 0 + j.val; omega
    rw [absf_subf_apply, e1, e0]

end Cert.KernelIdeal.KTail

end
-- ==== Proof.KRun.lean ====
/-
  The idealized kernel's run, read: where every argument the products' remainders touch holds real numbers, every
  execution ends with the three results at the target arrays of the arguments, the arguments unchanged. The loss
  is the host tail of the three small arrays: per layer and column the 128 tiles' inner sums and the 127 border
  differences, which together are the sum over all 8191 consecutive rows.
-/
import proofs.«405528_j52175262712147_4_alg».proof.Proof.KBlocks
import proofs.«405528_j52175262712147_4_alg».proof.Proof.KTail
import proofs.«405528_j52175262712147_4_alg».proof.Proof.Target

set_option maxRecDepth 16384

noncomputable section

open scoped BigOperators

namespace Cert.KernelIdeal.KRun

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.KHost Cert.KernelIdeal.KBlocks

variable (m : (ℓ : Loc nD τ sig) → Buf (Elt Ideal) ℓ) (ρ : Dev nD → PrngReg)

/-- The host tail of the three small arrays is the loss. -/
theorem loss_eq (c : Dev nD) :
    KTail.tail (G10 m c) (G11 m c) (G12 m c) = Target.Gloss (aX m c) (aW1 m c) (ab1 m c) (aW2 m c) (ab2 m c) (aWc m c) (abc m c) := by
  funext i
  obtain ⟨a, j, rfl⟩ : ∃ (a j : Fin 1024), i = ix2 a j := ⟨i 0, i 1, eq_ix2 i⟩
  rw [KTail.tail_apply, Target.Gloss_apply, ← Spec.lossK_eq]
  unfold Spec.lossK
  refine congrArg (fun s => 0 + s) (Finset.sum_congr rfl fun l _ => ?_)
  refine congrArg (fun s => (0 + ∑ t : Fin 128, G10 m c (ix3 t l j)) + (0 + s)) (Finset.sum_congr rfl fun t _ => ?_)
  show max (cG m c l j (64 * (t.val + 1)) - cG m c l j (64 * t.val + 63))
      (-(cG m c l j (64 * (t.val + 1)) - cG m c l j (64 * t.val + 63))) = Spec.adiff (cG m c l j) (64 * t.val + 63)
  unfold Spec.adiff
  rw [show 64 * (t.val + 1) = 64 * t.val + 63 + 1 from by omega]

/-- The run, read. -/
theorem run (hr : ∀ c, RealArgs m c) :
    θ_run defs (onTc (τ := τ) (main (F := Ideal))) ⟨m, fun _ => 0, ρ⟩ fun r => ∀ c : Dev nD,
      r.2.mem ((c.tc : Thread nD τ).loc main_v9_0) = Target.Ginv (aX m c) (aW1 m c) (ab1 m c) (aW2 m c) (ab2 m c) (aWc m c) (abc m c)
      ∧ r.2.mem ((c.tc : Thread nD τ).loc main_v9_1) = Target.Gnxt (aX m c) (aW1 m c) (ab1 m c) (aW2 m c) (ab2 m c) (aWc m c) (abc m c)
      ∧ r.2.mem ((c.tc : Thread nD τ).loc main_v18) = Target.Gloss (aX m c) (aW1 m c) (ab1 m c) (aW2 m c) (ab2 m c) (aWc m c) (abc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 8).trans (final8 m c (hr c)), ((h c).1 9).trans (final9 m c (hr c)),
      ((h c).2 main_v18 (Pipeline.mem_restRefs_of main_v18 (by decide) (by decide))).trans
        ((KTail.tail_eq m c).trans (by rw [final10 m c (hr c), final11 m c (hr c), final12 m c (hr c)]; exact loss_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KRun

end
-- ==== Proof.RefOps.lean ====
/-
  The three host terms every layer of the reference is made of, each read at one entry:
  the block `x ↦ (x W1ᵀ + b1) W2ᵀ + b2` as two transposed products with broadcast biases, the read-out
  `o ↦ o Wlᵀ + bl`, and the cosine-like array of a read-out with its two row reductions.
  Entry (r, j) of each is the row function of row r at column j.
-/
import proofs.«405528_j52175262712147_4_alg».proof.Proof.Gen.ReferenceIdeal.Run
import proofs.«405528_j52175262712147_4_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefOps

open Idealize.ShloMosaic Idealize.ShloMosaic.ValueIdx Cert.ReferenceIdeal Cert.ReferenceIdeal.Gen

section Terms

variable {F : FTy → Type} [FloatOps F]

/-- The block as the host writes it. -/
def hBlock (x : FVec F S8192x1024 .f32) (W1 : FVec F S4096x1024 .f32) (b1 : FVec F S4096 .f32)
    (W2 : FVec F S1024x4096 .f32) (b2 : FVec F S1024 .f32) : FVec F S8192x1024 .f32 :=
  addf (Host.dotGeneral dot_S8192x4096_S4096x1024_S8192x1024_1_0_0_1_n_n none (addf (Host.dotGeneral dot_S8192x1024_S1024x4096_S8192x4096_1_0_0_1_n_n none x (transpose S1024x4096 [1, 0] W1 transposes_S4096x1024_S1024x4096_1_0)) (broadcastInDim S8192x4096 ![0, 1] bcast_S1x4096_S8192x4096_0_1 (broadcastInDim S1x4096 ![1] bcast_S4096_S1x4096_1 b1))) (transpose S4096x1024 [1, 0] W2 transposes_S1024x4096_S4096x1024_1_0)) (broadcastInDim S8192x1024 ![0, 1] bcast_S1x1024_S8192x1024_0_1 (broadcastInDim S1x1024 ![1] bcast_S1024_S1x1024_1 b2))

/-- The read-out of a block output `o` by one layer's weights `Wl`, `bl`. -/
def hLout (o : FVec F S8192x1024 .f32) (Wl : FVec F S1024x1024 .f32) (bl : FVec F S1024 .f32) : FVec F S8192x1024 .f32 :=
  addf (Host.dotGeneral dot_S8192x1024_S1024x1024_S8192x1024_1_0_0_1_n_n none o (transpose S1024x1024 [1, 0] Wl transposes_S1024x1024_S1024x1024_1_0)) (broadcastInDim S8192x1024 ![0, 1] bcast_S1x1024_S8192x1024_0_1 (broadcastInDim S1x1024 ![1] bcast_S1024_S1x1024_1 bl))

/-- The cosine-like array of a read-out `u`. -/
def hCos (u : FVec F S8192x1024 .f32) : FVec F S8192x1024 .f32 :=
  Host.divf (mulf u (broadcastInDim S8192x1024 ![0, 1] bcast_S8192x1_S8192x1024_0_1 (broadcastInDim S8192x1 ![0] bcast_S8192_S8192x1_0 (Host.reduceAdd u (constant S_ .f32 0x00000000#32) reducesTo_S8192x1024_S8192_d1 h_S_)))) (maximumf (mulf (mulf (Host.absf u) (broadcastInDim S8192x1024 ![] bcast_S_S8192x1024 (Host.sqrt (constant S_ .f32 0x44800000#32)))) (broadcastInDim S8192x1024 ![0, 1] bcast_S8192x1_S8192x1024_0_1 (Host.sqrt (broadcastInDim S8192x1 ![0] bcast_S8192_S8192x1_0 (Host.reduceAdd (mulf u u) (constant S_ .f32 0x00000000#32) reducesTo_S8192x1024_S8192_d1 h_S_))))) (broadcastInDim S8192x1024 ![] bcast_S_S8192x1024 (constant S_ .f32 0x322BCC77#32)))

end Terms

/-- Row `r` of an array of activations. -/
def arow (x : FVec Ideal S8192x1024 .f32) (r : Fin 8192) : Fin 1024 → EReal := fun t => x (ix2 r t)

/-! ## The block's first product: its operand indices -/

/-- On the left operand's row axis the index is the output's row. -/
private theorem lhsA_0 (i : S8192x4096.Idx) (q : dot_S8192x1024_S1024x4096_S8192x4096_1_0_0_1_n_n.contr.Idx) :
    (dot_S8192x1024_S1024x4096_S8192x4096_1_0_0_1_n_n.lhsIdx i q 0).val = (i 0).val := by
  unfold DotDims.lhsIdx
  rw [dif_neg (show ¬(0 : Fin S8192x1024.rank) ∈ dot_S8192x1024_S1024x4096_S8192x4096_1_0_0_1_n_n.lhsBatch by decide), dif_pos (show (0 : Fin S8192x1024.rank) ∈ dot_S8192x1024_S1024x4096_S8192x4096_1_0_0_1_n_n.lhsNonContracting by decide)]
  rfl
/-- On the left operand's contracted axis it is the contraction coordinate. -/
private theorem lhsA_1 (i : S8192x4096.Idx) (q : dot_S8192x1024_S1024x4096_S8192x4096_1_0_0_1_n_n.contr.Idx) :
    (dot_S8192x1024_S1024x4096_S8192x4096_1_0_0_1_n_n.lhsIdx i q 1).val = (q ⟨0, by decide⟩).val :=
  dot_S8192x1024_S1024x4096_S8192x4096_1_0_0_1_n_n.lhsIdx_val_of_single rfl i q
/-- On the right operand's contracted axis it is the contraction coordinate. -/
private theorem rhsA_0 (i : S8192x4096.Idx) (q : dot_S8192x1024_S1024x4096_S8192x4096_1_0_0_1_n_n.contr.Idx) :
    (dot_S8192x1024_S1024x4096_S8192x4096_1_0_0_1_n_n.rhsIdx i q 0).val = (q ⟨0, by decide⟩).val :=
  dot_S8192x1024_S1024x4096_S8192x4096_1_0_0_1_n_n.rhsIdx_val_of_single rfl i q
/-- On the right operand's column axis the index is the output's column. -/
private theorem rhsA_1 (i : S8192x4096.Idx) (q : dot_S8192x1024_S1024x4096_S8192x4096_1_0_0_1_n_n.contr.Idx) :
    (dot_S8192x1024_S1024x4096_S8192x4096_1_0_0_1_n_n.rhsIdx i q 1).val = (i 1).val := by
  unfold DotDims.rhsIdx
  rw [dif_neg (show ¬(1 : Fin S1024x4096.rank) ∈ dot_S8192x1024_S1024x4096_S8192x4096_1_0_0_1_n_n.rhsBatch by decide), dif_pos (show (1 : Fin S1024x4096.rank) ∈ dot_S8192x1024_S1024x4096_S8192x4096_1_0_0_1_n_n.rhsNonContracting by decide)]
  rfl

/-- The product at an entry: the row of the left operand against the column of the right. -/
private theorem dotA_apply (A : FVec Ideal S8192x1024 .f32) (B : FVec Ideal S1024x4096 .f32) (r : Fin 8192) (j : Fin 4096) :
    Host.dotGeneral dot_S8192x1024_S1024x4096_S8192x4096_1_0_0_1_n_n none A B (ix2 r j)
      = ∑ t : Fin 1024, A (ix2 r t) * B (ix2 t j) := by
  simp only [Host.dotGeneral]
  rw [Ideal.dotGeneral_apply, ← Equiv.sum_comp (contrEquiv1 dot_S8192x1024_S1024x4096_S8192x4096_1_0_0_1_n_n 1024 rfl rfl).symm]
  refine Finset.sum_congr rfl fun k _ => ?_
  have hk := contrEquiv1_symm_val dot_S8192x1024_S1024x4096_S8192x4096_1_0_0_1_n_n 1024 rfl rfl k
  have el : dot_S8192x1024_S1024x4096_S8192x4096_1_0_0_1_n_n.lhsIdx (ix2 r j) ((contrEquiv1 dot_S8192x1024_S1024x4096_S8192x4096_1_0_0_1_n_n 1024 rfl rfl).symm k) = ix2 r k := funext fun a => Fin.ext (by
    match a with
    | ⟨0, _⟩ => exact lhsA_0 _ _
    | ⟨1, _⟩ => exact (lhsA_1 _ _).trans hk)
  have er : dot_S8192x1024_S1024x4096_S8192x4096_1_0_0_1_n_n.rhsIdx (ix2 r j) ((contrEquiv1 dot_S8192x1024_S1024x4096_S8192x4096_1_0_0_1_n_n 1024 rfl rfl).symm k) = ix2 k j := funext fun a => Fin.ext (by
    match a with
    | ⟨0, _⟩ => exact (rhsA_0 _ _).trans hk
    | ⟨1, _⟩ => exact rhsA_1 _ _)
  rw [el, er]

/-! ## The block's second product: its operand indices -/

/-- On the left operand's row axis the index is the output's row. -/
private theorem lhsB_0 (i : S8192x1024.Idx) (q : dot_S8192x4096_S4096x1024_S8192x1024_1_0_0_1_n_n.contr.Idx) :
    (dot_S8192x4096_S4096x1024_S8192x1024_1_0_0_1_n_n.lhsIdx i q 0).val = (i 0).val := by
  unfold DotDims.lhsIdx
  rw [dif_neg (show ¬(0 : Fin S8192x4096.rank) ∈ dot_S8192x4096_S4096x1024_S8192x1024_1_0_0_1_n_n.lhsBatch by decide), dif_pos (show (0 : Fin S8192x4096.rank) ∈ dot_S8192x4096_S4096x1024_S8192x1024_1_0_0_1_n_n.lhsNonContracting by decide)]
  rfl
/-- On the left operand's contracted axis it is the contraction coordinate. -/
private theorem lhsB_1 (i : S8192x1024.Idx) (q : dot_S8192x4096_S4096x1024_S8192x1024_1_0_0_1_n_n.contr.Idx) :
    (dot_S8192x4096_S4096x1024_S8192x1024_1_0_0_1_n_n.lhsIdx i q 1).val = (q ⟨0, by decide⟩).val :=
  dot_S8192x4096_S4096x1024_S8192x1024_1_0_0_1_n_n.lhsIdx_val_of_single rfl i q
/-- On the right operand's contracted axis it is the contraction coordinate. -/
private theorem rhsB_0 (i : S8192x1024.Idx) (q : dot_S8192x4096_S4096x1024_S8192x1024_1_0_0_1_n_n.contr.Idx) :
    (dot_S8192x4096_S4096x1024_S8192x1024_1_0_0_1_n_n.rhsIdx i q 0).val = (q ⟨0, by decide⟩).val :=
  dot_S8192x4096_S4096x1024_S8192x1024_1_0_0_1_n_n.rhsIdx_val_of_single rfl i q
/-- On the right operand's column axis the index is the output's column. -/
private theorem rhsB_1 (i : S8192x1024.Idx) (q : dot_S8192x4096_S4096x1024_S8192x1024_1_0_0_1_n_n.contr.Idx) :
    (dot_S8192x4096_S4096x1024_S8192x1024_1_0_0_1_n_n.rhsIdx i q 1).val = (i 1).val := by
  unfold DotDims.rhsIdx
  rw [dif_neg (show ¬(1 : Fin S4096x1024.rank) ∈ dot_S8192x4096_S4096x1024_S8192x1024_1_0_0_1_n_n.rhsBatch by decide), dif_pos (show (1 : Fin S4096x1024.rank) ∈ dot_S8192x4096_S4096x1024_S8192x1024_1_0_0_1_n_n.rhsNonContracting by decide)]
  rfl

/-- The product at an entry: the row of the left operand against the column of the right. -/
private theorem dotB_apply (A : FVec Ideal S8192x4096 .f32) (B : FVec Ideal S4096x1024 .f32) (r : Fin 8192) (j : Fin 1024) :
    Host.dotGeneral dot_S8192x4096_S4096x1024_S8192x1024_1_0_0_1_n_n none A B (ix2 r j)
      = ∑ t : Fin 4096, A (ix2 r t) * B (ix2 t j) := by
  simp only [Host.dotGeneral]
  rw [Ideal.dotGeneral_apply, ← Equiv.sum_comp (contrEquiv1 dot_S8192x4096_S4096x1024_S8192x1024_1_0_0_1_n_n 4096 rfl rfl).symm]
  refine Finset.sum_congr rfl fun k _ => ?_
  have hk := contrEquiv1_symm_val dot_S8192x4096_S4096x1024_S8192x1024_1_0_0_1_n_n 4096 rfl rfl k
  have el : dot_S8192x4096_S4096x1024_S8192x1024_1_0_0_1_n_n.lhsIdx (ix2 r j) ((contrEquiv1 dot_S8192x4096_S4096x1024_S8192x1024_1_0_0_1_n_n 4096 rfl rfl).symm k) = ix2 r k := funext fun a => Fin.ext (by
    match a with
    | ⟨0, _⟩ => exact lhsB_0 _ _
    | ⟨1, _⟩ => exact (lhsB_1 _ _).trans hk)
  have er : dot_S8192x4096_S4096x1024_S8192x1024_1_0_0_1_n_n.rhsIdx (ix2 r j) ((contrEquiv1 dot_S8192x4096_S4096x1024_S8192x1024_1_0_0_1_n_n 4096 rfl rfl).symm k) = ix2 k j := funext fun a => Fin.ext (by
    match a with
    | ⟨0, _⟩ => exact (rhsB_0 _ _).trans hk
    | ⟨1, _⟩ => exact rhsB_1 _ _)
  rw [el, er]

/-! ## The read-out's product: its operand indices -/

/-- On the left operand's row axis the index is the output's row. -/
private theorem lhsC_0 (i : S8192x1024.Idx) (q : dot_S8192x1024_S1024x1024_S8192x1024_1_0_0_1_n_n.contr.Idx) :
    (dot_S8192x1024_S1024x1024_S8192x1024_1_0_0_1_n_n.lhsIdx i q 0).val = (i 0).val := by
  unfold DotDims.lhsIdx
  rw [dif_neg (show ¬(0 : Fin S8192x1024.rank) ∈ dot_S8192x1024_S1024x1024_S8192x1024_1_0_0_1_n_n.lhsBatch by decide), dif_pos (show (0 : Fin S8192x1024.rank) ∈ dot_S8192x1024_S1024x1024_S8192x1024_1_0_0_1_n_n.lhsNonContracting by decide)]
  rfl
/-- On the left operand's contracted axis it is the contraction coordinate. -/
private theorem lhsC_1 (i : S8192x1024.Idx) (q : dot_S8192x1024_S1024x1024_S8192x1024_1_0_0_1_n_n.contr.Idx) :
    (dot_S8192x1024_S1024x1024_S8192x1024_1_0_0_1_n_n.lhsIdx i q 1).val = (q ⟨0, by decide⟩).val :=
  dot_S8192x1024_S1024x1024_S8192x1024_1_0_0_1_n_n.lhsIdx_val_of_single rfl i q
/-- On the right operand's contracted axis it is the contraction coordinate. -/
private theorem rhsC_0 (i : S8192x1024.Idx) (q : dot_S8192x1024_S1024x1024_S8192x1024_1_0_0_1_n_n.contr.Idx) :
    (dot_S8192x1024_S1024x1024_S8192x1024_1_0_0_1_n_n.rhsIdx i q 0).val = (q ⟨0, by decide⟩).val :=
  dot_S8192x1024_S1024x1024_S8192x1024_1_0_0_1_n_n.rhsIdx_val_of_single rfl i q
/-- On the right operand's column axis the index is the output's column. -/
private theorem rhsC_1 (i : S8192x1024.Idx) (q : dot_S8192x1024_S1024x1024_S8192x1024_1_0_0_1_n_n.contr.Idx) :
    (dot_S8192x1024_S1024x1024_S8192x1024_1_0_0_1_n_n.rhsIdx i q 1).val = (i 1).val := by
  unfold DotDims.rhsIdx
  rw [dif_neg (show ¬(1 : Fin S1024x1024.rank) ∈ dot_S8192x1024_S1024x1024_S8192x1024_1_0_0_1_n_n.rhsBatch by decide), dif_pos (show (1 : Fin S1024x1024.rank) ∈ dot_S8192x1024_S1024x1024_S8192x1024_1_0_0_1_n_n.rhsNonContracting by decide)]
  rfl

/-- The product at an entry: the row of the left operand against the column of the right. -/
private theorem dotC_apply (A : FVec Ideal S8192x1024 .f32) (B : FVec Ideal S1024x1024 .f32) (r : Fin 8192) (j : Fin 1024) :
    Host.dotGeneral dot_S8192x1024_S1024x1024_S8192x1024_1_0_0_1_n_n none A B (ix2 r j)
      = ∑ t : Fin 1024, A (ix2 r t) * B (ix2 t j) := by
  simp only [Host.dotGeneral]
  rw [Ideal.dotGeneral_apply, ← Equiv.sum_comp (contrEquiv1 dot_S8192x1024_S1024x1024_S8192x1024_1_0_0_1_n_n 1024 rfl rfl).symm]
  refine Finset.sum_congr rfl fun k _ => ?_
  have hk := contrEquiv1_symm_val dot_S8192x1024_S1024x1024_S8192x1024_1_0_0_1_n_n 1024 rfl rfl k
  have el : dot_S8192x1024_S1024x1024_S8192x1024_1_0_0_1_n_n.lhsIdx (ix2 r j) ((contrEquiv1 dot_S8192x1024_S1024x1024_S8192x1024_1_0_0_1_n_n 1024 rfl rfl).symm k) = ix2 r k := funext fun a => Fin.ext (by
    match a with
    | ⟨0, _⟩ => exact lhsC_0 _ _
    | ⟨1, _⟩ => exact (lhsC_1 _ _).trans hk)
  have er : dot_S8192x1024_S1024x1024_S8192x1024_1_0_0_1_n_n.rhsIdx (ix2 r j) ((contrEquiv1 dot_S8192x1024_S1024x1024_S8192x1024_1_0_0_1_n_n 1024 rfl rfl).symm k) = ix2 k j := funext fun a => Fin.ext (by
    match a with
    | ⟨0, _⟩ => exact (rhsC_0 _ _).trans hk
    | ⟨1, _⟩ => exact rhsC_1 _ _)
  rw [el, er]

/-! ## A bias row broadcast down the rows -/

/-- A vector of 4096 biases made a one-row matrix and copied to every row reads, at (r, j), bias j. -/
private theorem bias4096_apply (b : FVec Ideal S4096 .f32) (r : Fin 8192) (j : Fin 4096) :
    broadcastInDim S8192x4096 ![0, 1] bcast_S1x4096_S8192x4096_0_1 (broadcastInDim S1x4096 ![1] bcast_S4096_S1x4096_1 b) (ix2 r j)
      = b (ix1 j) := by
  refine (broadcastInDim_apply _ _ _ (ix2 r j) (ix2 (0 : Fin 1) j) (fun a => by
    match a with
    | ⟨0, _⟩ => rfl
    | ⟨1, _⟩ => rfl)).trans ?_
  exact broadcastInDim_apply _ _ _ (ix2 (0 : Fin 1) j) (ix1 j) (fun a => by
    match a with
    | ⟨0, _⟩ => rfl)

/-- A vector of 1024 biases made a one-row matrix and copied to every row reads, at (r, j), bias j. -/
private theorem bias1024_apply (b : FVec Ideal S1024 .f32) (r : Fin 8192) (j : Fin 1024) :
    broadcastInDim S8192x1024 ![0, 1] bcast_S1x1024_S8192x1024_0_1 (broadcastInDim S1x1024 ![1] bcast_S1024_S1x1024_1 b) (ix2 r j)
      = b (ix1 j) := by
  refine (broadcastInDim_apply _ _ _ (ix2 r j) (ix2 (0 : Fin 1) j) (fun a => by
    match a with
    | ⟨0, _⟩ => rfl
    | ⟨1, _⟩ => rfl)).trans ?_
  exact broadcastInDim_apply _ _ _ (ix2 (0 : Fin 1) j) (ix1 j) (fun a => by
    match a with
    | ⟨0, _⟩ => rfl)

/-! ## The row reductions and the column broadcasts of the cosine-like array -/

/-- A row's sum from the zero word: the sum of the row's 1024 entries. -/
private theorem rowSum_apply (v : FVec Ideal S8192x1024 .f32) (r : Fin 8192) :
    Host.reduceAdd v (constant (F := Ideal) S_ .f32 0x00000000#32) reducesTo_S8192x1024_S8192_d1 h_S_ (ix1 r)
      = ∑ t : Fin 1024, v (ix2 r t) := by
  refine (hostReduceAdd_apply v _ reducesTo_S8192x1024_S8192_d1 h_S_ (ix1 r)).trans ?_
  rw [Ideal.hostReduceAdd_single reducesTo_S8192x1024_S8192_d1 (by decide)]
  refine (congrArg (· + _) ((constant_apply _ _).trans Ideal.ofBits_zero_f32)).trans ?_
  rw [zero_add]
  refine Finset.sum_congr rfl fun k _ => ?_
  exact congrArg v (funext fun a => Fin.ext (by match a with | ⟨0, _⟩ => rfl | ⟨1, _⟩ => rfl))

/-- A vector of 8192 row values made a one-column matrix reads, at (r, 0), value r. -/
private theorem col_apply (y : FVec Ideal S8192 .f32) (r : Fin 8192) (c : Fin 1) :
    broadcastInDim S8192x1 ![0] bcast_S8192_S8192x1_0 y (ix2 r c) = y (ix1 r) :=
  broadcastInDim_apply _ _ _ (ix2 r c) (ix1 r) (fun a => by
    match a with
    | ⟨0, _⟩ => rfl)

/-- A one-column matrix copied along the rows reads, at (r, j), its entry (r, 0). -/
private theorem colBcast_apply (y : FVec Ideal S8192x1 .f32) (r : Fin 8192) (j : Fin 1024) :
    broadcastInDim S8192x1024 ![0, 1] bcast_S8192x1_S8192x1024_0_1 y (ix2 r j) = y (ix2 r (0 : Fin 1)) :=
  broadcastInDim_apply _ _ _ (ix2 r j) (ix2 r (0 : Fin 1)) (fun a => by
    match a with
    | ⟨0, _⟩ => rfl
    | ⟨1, _⟩ => rfl)

/-- The host's square root at an index is the extended reals' square root of the entry. -/
private theorem hostSqrt_apply {s : Shape} (y : FVec Ideal s .f32) (i : s.Idx) : Host.sqrt y i = Ideal.sqrt (y i) := rfl

/-- The host's absolute value at an index is the larger of the entry and its negative. -/
private theorem hostAbsf_apply {s : Shape} (y : FVec Ideal s .f32) (i : s.Idx) : Host.absf y i = max (y i) (-(y i)) := rfl

/-! ## The three terms, and a layer's slice of the stacked weights, at an entry -/

theorem hBlock_apply (x : FVec Ideal S8192x1024 .f32) (W1 : FVec Ideal S4096x1024 .f32) (b1 : FVec Ideal S4096 .f32)
    (W2 : FVec Ideal S1024x4096 .f32) (b2 : FVec Ideal S1024 .f32) (r : Fin 8192) (j : Fin 1024) :
    hBlock x W1 b1 W2 b2 (ix2 r j)
      = Spec.dense (fun a b => W2 (ix2 a b)) (fun a => b2 (ix1 a))
          (Spec.dense (fun a b => W1 (ix2 a b)) (fun a => b1 (ix1 a)) (arow x r)) j := by
  unfold hBlock Spec.dense arow
  -- the outer layer: the product with W2 transposed, plus the bias row
  refine (addf_apply _ _ _).trans ?_
  refine congrArg₂ (· + ·) ?_ (bias1024_apply b2 r j)
  refine (dotB_apply _ _ r j).trans ?_
  refine Finset.sum_congr rfl fun t _ => ?_
  refine congrArg₂ (· * ·) ?_ (transpose_ix2_apply W2 transposes_S1024x4096_S4096x1024_1_0 t j)
  -- the inner layer at (r, t): the product with W1 transposed, plus the bias row
  refine (addf_apply _ _ _).trans ?_
  refine congrArg₂ (· + ·) ?_ (bias4096_apply b1 r t)
  refine (dotA_apply _ _ r t).trans ?_
  refine Finset.sum_congr rfl fun s _ => ?_
  exact congrArg (x (ix2 r s) * ·) (transpose_ix2_apply W1 transposes_S4096x1024_S1024x4096_1_0 s t)

theorem hLout_apply (o : FVec Ideal S8192x1024 .f32) (Wl : FVec Ideal S1024x1024 .f32) (bl : FVec Ideal S1024 .f32)
    (r : Fin 8192) (j : Fin 1024) :
    hLout o Wl bl (ix2 r j) = Spec.dense (fun a b => Wl (ix2 a b)) (fun a => bl (ix1 a)) (arow o r) j := by
  unfold hLout Spec.dense arow
  -- the product with the weights transposed, plus the bias row
  refine (addf_apply _ _ _).trans ?_
  refine congrArg₂ (· + ·) ?_ (bias1024_apply bl r j)
  refine (dotC_apply _ _ r j).trans ?_
  refine Finset.sum_congr rfl fun t _ => ?_
  exact congrArg (o (ix2 r t) * ·) (transpose_ix2_apply Wl transposes_S1024x1024_S1024x1024_1_0 t j)

theorem hCos_apply (u : FVec Ideal S8192x1024 .f32) (r : Fin 8192) (j : Fin 1024) :
    hCos u (ix2 r j) = Spec.cosRow Spec.s32 (arow u r) j := by
  unfold hCos Spec.cosRow arow
  refine (hostDivf_apply _ _ _).trans ?_
  refine congrArg₂ Ideal.div ?_ ?_
  · -- the numerator: the entry times its row's sum
    refine (mulf_apply _ _ _).trans ?_
    refine congrArg (u (ix2 r j) * ·) ?_
    refine (colBcast_apply _ r j).trans ?_
    refine (col_apply _ r 0).trans ?_
    exact rowSum_apply u r
  · -- the denominator: |entry| · √1024 · √(the row's sum of squares), bounded below by the epsilon
    refine (maximumf_apply _ _ _).trans ?_
    refine congrArg₂ max ?_ ?_
    · refine (mulf_apply _ _ _).trans ?_
      refine congrArg₂ (· * ·) ?_ ?_
      · refine (mulf_apply _ _ _).trans ?_
        refine congrArg₂ (· * ·) (hostAbsf_apply u _) ?_
        refine (broadcastInDim_scalar_apply _ _ _).trans ?_
        refine (hostSqrt_apply _ _).trans ?_
        exact Spec.sqrt_1024
      · refine (colBcast_apply _ r j).trans ?_
        refine (hostSqrt_apply _ _).trans ?_
        refine congrArg Ideal.sqrt ?_
        refine (col_apply _ r 0).trans ?_
        exact rowSum_apply (mulf u u) r
    · refine (broadcastInDim_scalar_apply _ _ _).trans ?_
      rfl

/-- Layer `l`'s slice of the read-out weights, reshaped to a matrix, read at an entry. -/
theorem sliceW_apply (Wc : FVec Ideal S5x1024x1024 .f32) (l : Fin 5) (off : Fin 3 → Nat) (hoff : off = ![l.val, 0, 0])
    (h : S5x1024x1024.Slices off S1x1024x1024) (a b : Fin 1024) :
    shapeCast S1024x1024 (extractStridedSlice S1x1024x1024 off Wc h) shapeCasts_S1x1024x1024_S1024x1024 (ix2 a b)
      = Wc (ix3 l a b) := by
  subst hoff
  -- the cast drops the leading unit axis; the slice starts at row block l
  refine (shapeCast_1ab_ab_apply _ _ a b).trans ?_
  exact extractStridedSlice_apply _ Wc h (ix3 (0 : Fin 1) a b) (ix3 l a b) (fun ax => by
    match ax with
    | ⟨0, _⟩ => rfl
    | ⟨1, _⟩ => exact (Nat.zero_add _).symm
    | ⟨2, _⟩ => exact (Nat.zero_add _).symm)

/-- Layer `l`'s slice of the read-out biases, reshaped to a vector, read at an entry. -/
theorem sliceB_apply (bc : FVec Ideal S5x1024 .f32) (l : Fin 5) (off : Fin 2 → Nat) (hoff : off = ![l.val, 0])
    (h : S5x1024.Slices off S1x1024) (a : Fin 1024) :
    shapeCast S1024 (extractStridedSlice S1x1024 off bc h) shapeCasts_S1x1024_S1024 (ix1 a) = bc (ix2 l a) := by
  subst hoff
  -- the cast drops the leading unit axis; the slice starts at row l
  refine (shapeCast_1a_a_apply _ _ a).trans ?_
  exact extractStridedSlice_apply _ bc h (ix2 (0 : Fin 1) a) (ix2 l a) (fun ax => by
    match ax with
    | ⟨0, _⟩ => rfl
    | ⟨1, _⟩ => exact (Nat.zero_add _).symm)

end Cert.ReferenceIdeal.RefOps

end
-- ==== Proof.RefRead.lean ====
/-
  The reference's three results are the target arrays: each of its five layers is the same three host terms — the
  block, the read-out, the cosine-like array — and each, read at an entry, is the row function of that entry's row.
-/
import proofs.«405528_j52175262712147_4_alg».proof.Proof.Gen.ReferenceIdeal.Run
import proofs.«405528_j52175262712147_4_alg».proof.Proof.Target
import proofs.«405528_j52175262712147_4_alg».proof.Proof.RefOps
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.RefRead

open Idealize.ShloMosaic Idealize.ShloMosaic.ValueIdx Idealize.ShloMosaic.TcCoe Idealize.SL.Sem Idealize.ShloMosaic.StableHlo Cert.ReferenceIdeal Cert.ReferenceIdeal.Gen Cert.ReferenceIdeal.Value

/-! ## One layer's three terms, read on one row -/

section Steps

variable (W1 : FVec Ideal S4096x1024 .f32) (b1 : FVec Ideal S4096 .f32)
    (W2 : FVec Ideal S1024x4096 .f32) (b2 : FVec Ideal S1024 .f32)
    (Wc : FVec Ideal S5x1024x1024 .f32) (bc : FVec Ideal S5x1024 .f32)

/-- A row of an array is the function its entries are. -/
theorem arow_eq (z : FVec Ideal S8192x1024 .f32) (r : Fin 8192) (f : Fin 1024 → EReal)
    (h : ∀ t, z (ix2 r t) = f t) : RefOps.arow z r = f := funext h

/-- If row `r` of `z` is the chain's row before layer `l`, row `r` of the block of `z` is layer `l`'s block output. -/
theorem block_step (z : FVec Ideal S8192x1024 .f32) (X : Fin 1024 → EReal) (l : ℕ) (r : Fin 8192)
    (hz : ∀ t, z (ix2 r t) = Spec.zAt (Target.params W1 b1 W2 b2 Wc bc) X l t) (j : Fin 1024) :
    RefOps.hBlock z W1 b1 W2 b2 (ix2 r j) = Spec.boAt (Target.params W1 b1 W2 b2 Wc bc) X l j := by
  rw [RefOps.hBlock_apply, arow_eq z r _ hz]
  rfl

/-- The next row of the chain is the row minus its block output. -/
theorem sub_step (z bo : FVec Ideal S8192x1024 .f32) (X : Fin 1024 → EReal) (l : ℕ) (r : Fin 8192)
    (hz : ∀ t, z (ix2 r t) = Spec.zAt (Target.params W1 b1 W2 b2 Wc bc) X l t)
    (hbo : ∀ t, bo (ix2 r t) = Spec.boAt (Target.params W1 b1 W2 b2 Wc bc) X l t) (j : Fin 1024) :
    subf z bo (ix2 r j) = Spec.zAt (Target.params W1 b1 W2 b2 Wc bc) X (l + 1) j := by
  rw [subf_apply, hz, hbo]
  rfl

/-- The read-out of layer `l`'s block output by layer `l`'s slices of the read-out weights. -/
theorem lout_step (bo : FVec Ideal S8192x1024 .f32) (X : Fin 1024 → EReal) (l : Fin 5)
    (off3 : Fin 3 → Nat) (hoff3 : off3 = ![l.val, 0, 0]) (h3 : S5x1024x1024.Slices off3 S1x1024x1024)
    (off2 : Fin 2 → Nat) (hoff2 : off2 = ![l.val, 0]) (h2 : S5x1024.Slices off2 S1x1024) (r : Fin 8192)
    (hbo : ∀ t, bo (ix2 r t) = Spec.boAt (Target.params W1 b1 W2 b2 Wc bc) X l.val t) (j : Fin 1024) :
    RefOps.hLout bo
        (shapeCast S1024x1024 (extractStridedSlice S1x1024x1024 off3 Wc h3) shapeCasts_S1x1024x1024_S1024x1024)
        (shapeCast S1024 (extractStridedSlice S1x1024 off2 bc h2) shapeCasts_S1x1024_S1024) (ix2 r j)
      = Spec.loutAt (Target.params W1 b1 W2 b2 Wc bc) X l j := by
  rw [RefOps.hLout_apply, arow_eq bo r _ hbo]
  -- the sliced weights, by coordinates, are layer `l`'s weights
  have hW : (fun a b : Fin 1024 =>
      shapeCast S1024x1024 (extractStridedSlice S1x1024x1024 off3 Wc h3) shapeCasts_S1x1024x1024_S1024x1024 (ix2 a b))
      = (Target.params W1 b1 W2 b2 Wc bc).Wc l :=
    funext fun a => funext fun b => RefOps.sliceW_apply Wc l off3 hoff3 h3 a b
  have hb : (fun a : Fin 1024 =>
      shapeCast S1024 (extractStridedSlice S1x1024 off2 bc h2) shapeCasts_S1x1024_S1024 (ix1 a))
      = (Target.params W1 b1 W2 b2 Wc bc).bc l :=
    funext fun a => RefOps.sliceB_apply bc l off2 hoff2 h2 a
  rw [hW, hb]
  rfl

/-- The cosine-like array of layer `l`'s read-out. -/
theorem cos_step (u : FVec Ideal S8192x1024 .f32) (X : Fin 1024 → EReal) (l : Fin 5) (r : Fin 8192)
    (hu : ∀ t, u (ix2 r t) = Spec.loutAt (Target.params W1 b1 W2 b2 Wc bc) X l t) (j : Fin 1024) :
    RefOps.hCos u (ix2 r j) = Spec.cAt (Target.params W1 b1 W2 b2 Wc bc) X l j := by
  rw [RefOps.hCos_apply, arow_eq u r _ hu]
  rfl

end Steps

/-! ## One layer's loss term, read at an entry -/

/-- The absolute value of a difference, read at an index. -/
theorem absf_subf_apply {s : Shape} (A B : FVec Ideal s .f32) (i : s.Idx) :
    Host.absf (subf A B) i = max (A i - B i) (-(A i - B i)) := rfl

/-- The column sums of the absolute differences of consecutive rows of `C`, broadcast along the rows: entry
    (a, j) is the column loss of column `j` of `C`. -/
theorem loss_layer (C : FVec Ideal S8192x1024 .f32) (f : ℕ → Fin 1024 → EReal)
    (hC : ∀ (r : Fin 8192) (j : Fin 1024), C (ix2 r j) = f r.val j) (a j : Fin 1024) :
    broadcastInDim S1024x1024 ![1] bcast_S1024_S1024x1024_1
        (Host.reduceAdd (Host.absf (subf (extractStridedSlice S8191x1024 ![1, 0] C slices_S8192x1024_S8191x1024_1_0)
          (extractStridedSlice S8191x1024 ![0, 0] C slices_S8192x1024_S8191x1024_0_0)))
          (constant S_ .f32 0x00000000#32) reducesTo_S8191x1024_S1024_d0 h_S_) (ix2 a j)
      = Spec.colLoss (fun r => f r j) := by
  have hred : Shape.Reduces S8191x1024 [0] S1024 := by decide
  -- entry (a, j) of the broadcast is entry j of the vector; that is zero plus the sum over the 8191 rows
  refine (broadcastInDim_apply _ _ _ (ix2 a j) (ix1 j) (fun b => match b with | ⟨0, _⟩ => rfl)).trans ?_
  rw [hostReduceAdd_apply, Ideal.hostReduceAdd_single _ hred, constant_apply, Ideal.ofBits_zero_f32]
  unfold Spec.colLoss
  refine congrArg (fun s : EReal => 0 + s) (Finset.sum_congr rfl fun (k : Fin 8191) _ => ?_)
  have hk : k.val < 8191 := k.isLt
  -- the two slices read rows k + 1 and k of column j
  have e1 : extractStridedSlice S8191x1024 ![1, 0] C slices_S8192x1024_S8191x1024_1_0 (hred.lift (ix1 j) k)
      = C (ix2 (⟨k.val + 1, by omega⟩ : Fin 8192) j) :=
    extractStridedSlice_apply _ _ _ _ _ fun b => match b with
      | ⟨0, _⟩ => by show k.val + 1 = 1 + k.val; omega
      | ⟨1, _⟩ => by show j.val = 0 + j.val; omega
  have e0 : extractStridedSlice S8191x1024 ![0, 0] C slices_S8192x1024_S8191x1024_0_0 (hred.lift (ix1 j) k)
      = C (ix2 (⟨k.val, by omega⟩ : Fin 8192) j) :=
    extractStridedSlice_apply _ _ _ _ _ fun b => match b with
      | ⟨0, _⟩ => by show k.val = 0 + k.val; omega
      | ⟨1, _⟩ => by show j.val = 0 + j.val; omega
  rw [absf_subf_apply, e1, e0, hC, hC]
  rfl

/-! ## The five layers of a valuation's arguments -/

section Layers

variable (V : Valuation τ sig (Elt Ideal))

/-- The seven arguments of a valuation. -/
abbrev A0 : FVec Ideal S8192x1024 .f32 := V (Proc.devRef .tc main_arg0)
abbrev A1 : FVec Ideal S4096x1024 .f32 := V (Proc.devRef .tc main_arg1)
abbrev A2 : FVec Ideal S4096 .f32 := V (Proc.devRef .tc main_arg2)
abbrev A3 : FVec Ideal S1024x4096 .f32 := V (Proc.devRef .tc main_arg3)
abbrev A4 : FVec Ideal S1024 .f32 := V (Proc.devRef .tc main_arg4)
abbrev A5 : FVec Ideal S5x1024x1024 .f32 := V (Proc.devRef .tc main_arg5)
abbrev A6 : FVec Ideal S5x1024 .f32 := V (Proc.devRef .tc main_arg6)

/-- The weights of a valuation's arguments, by coordinates. -/
def par : Spec.Params := Target.params (A1 V) (A2 V) (A3 V) (A4 V) (A5 V) (A6 V)

/-- Row `r` of a valuation's activations. -/
def xrow (r : ℕ) : Fin 1024 → EReal := Target.row (A0 V) r

/-! ### Layer 0 -/

theorem z0 (r : Fin 8192) (t : Fin 1024) : A0 V (ix2 r t) = Spec.zAt (par V) (xrow V r.val) 0 t :=
  (congrFun (Target.row_fin (A0 V) r) t).symm

theorem bo0 (r : Fin 8192) (j : Fin 1024) : res_main_v9 V (ix2 r j) = Spec.boAt (par V) (xrow V r.val) 0 j :=
  block_step (A1 V) (A2 V) (A3 V) (A4 V) (A5 V) (A6 V) (A0 V) (xrow V r.val) 0 r (z0 V r) j

theorem lo0 (r : Fin 8192) (j : Fin 1024) : res_main_v18 V (ix2 r j) = Spec.loutAt (par V) (xrow V r.val) 0 j :=
  lout_step (A1 V) (A2 V) (A3 V) (A4 V) (A5 V) (A6 V) (res_main_v9 V) (xrow V r.val) 0
    ![0, 0, 0] rfl slices_S5x1024x1024_S1x1024x1024_0_0_0 ![0, 0] rfl slices_S5x1024_S1x1024_0_0 r (bo0 V r) j

theorem c0 (r : Fin 8192) (j : Fin 1024) : res_main_v35 V (ix2 r j) = Spec.cAt (par V) (xrow V r.val) 0 j :=
  cos_step (A1 V) (A2 V) (A3 V) (A4 V) (A5 V) (A6 V) (res_main_v18 V) (xrow V r.val) 0 r (lo0 V r) j

/-! ### Layer 1 -/

theorem z1 (r : Fin 8192) (t : Fin 1024) : res_main_v42 V (ix2 r t) = Spec.zAt (par V) (xrow V r.val) 1 t :=
  sub_step (A1 V) (A2 V) (A3 V) (A4 V) (A5 V) (A6 V) (A0 V) (res_main_v9 V) (xrow V r.val) 0 r (z0 V r) (bo0 V r) t

theorem bo1 (r : Fin 8192) (j : Fin 1024) : res_main_v52 V (ix2 r j) = Spec.boAt (par V) (xrow V r.val) 1 j :=
  block_step (A1 V) (A2 V) (A3 V) (A4 V) (A5 V) (A6 V) (res_main_v42 V) (xrow V r.val) 1 r (z1 V r) j

theorem lo1 (r : Fin 8192) (j : Fin 1024) : res_main_v62 V (ix2 r j) = Spec.loutAt (par V) (xrow V r.val) 1 j :=
  lout_step (A1 V) (A2 V) (A3 V) (A4 V) (A5 V) (A6 V) (res_main_v52 V) (xrow V r.val) 1
    ![1, 0, 0] rfl slices_S5x1024x1024_S1x1024x1024_1_0_0 ![1, 0] rfl slices_S5x1024_S1x1024_1_0 r (bo1 V r) j

theorem c1 (r : Fin 8192) (j : Fin 1024) : res_main_v79 V (ix2 r j) = Spec.cAt (par V) (xrow V r.val) 1 j :=
  cos_step (A1 V) (A2 V) (A3 V) (A4 V) (A5 V) (A6 V) (res_main_v62 V) (xrow V r.val) 1 r (lo1 V r) j

/-! ### Layer 2 -/

theorem z2 (r : Fin 8192) (t : Fin 1024) : res_main_v87 V (ix2 r t) = Spec.zAt (par V) (xrow V r.val) 2 t :=
  sub_step (A1 V) (A2 V) (A3 V) (A4 V) (A5 V) (A6 V) (res_main_v42 V) (res_main_v52 V) (xrow V r.val) 1 r (z1 V r) (bo1 V r) t

theorem bo2 (r : Fin 8192) (j : Fin 1024) : res_main_v97 V (ix2 r j) = Spec.boAt (par V) (xrow V r.val) 2 j :=
  block_step (A1 V) (A2 V) (A3 V) (A4 V) (A5 V) (A6 V) (res_main_v87 V) (xrow V r.val) 2 r (z2 V r) j

theorem lo2 (r : Fin 8192) (j : Fin 1024) : res_main_v107 V (ix2 r j) = Spec.loutAt (par V) (xrow V r.val) 2 j :=
  lout_step (A1 V) (A2 V) (A3 V) (A4 V) (A5 V) (A6 V) (res_main_v97 V) (xrow V r.val) 2
    ![2, 0, 0] rfl slices_S5x1024x1024_S1x1024x1024_2_0_0 ![2, 0] rfl slices_S5x1024_S1x1024_2_0 r (bo2 V r) j

theorem c2 (r : Fin 8192) (j : Fin 1024) : res_main_v124 V (ix2 r j) = Spec.cAt (par V) (xrow V r.val) 2 j :=
  cos_step (A1 V) (A2 V) (A3 V) (A4 V) (A5 V) (A6 V) (res_main_v107 V) (xrow V r.val) 2 r (lo2 V r) j

/-! ### Layer 3 -/

theorem z3 (r : Fin 8192) (t : Fin 1024) : res_main_v132 V (ix2 r t) = Spec.zAt (par V) (xrow V r.val) 3 t :=
  sub_step (A1 V) (A2 V) (A3 V) (A4 V) (A5 V) (A6 V) (res_main_v87 V) (res_main_v97 V) (xrow V r.val) 2 r (z2 V r) (bo2 V r) t

theorem bo3 (r : Fin 8192) (j : Fin 1024) : res_main_v142 V (ix2 r j) = Spec.boAt (par V) (xrow V r.val) 3 j :=
  block_step (A1 V) (A2 V) (A3 V) (A4 V) (A5 V) (A6 V) (res_main_v132 V) (xrow V r.val) 3 r (z3 V r) j

theorem lo3 (r : Fin 8192) (j : Fin 1024) : res_main_v152 V (ix2 r j) = Spec.loutAt (par V) (xrow V r.val) 3 j :=
  lout_step (A1 V) (A2 V) (A3 V) (A4 V) (A5 V) (A6 V) (res_main_v142 V) (xrow V r.val) 3
    ![3, 0, 0] rfl slices_S5x1024x1024_S1x1024x1024_3_0_0 ![3, 0] rfl slices_S5x1024_S1x1024_3_0 r (bo3 V r) j

theorem c3 (r : Fin 8192) (j : Fin 1024) : res_main_v169 V (ix2 r j) = Spec.cAt (par V) (xrow V r.val) 3 j :=
  cos_step (A1 V) (A2 V) (A3 V) (A4 V) (A5 V) (A6 V) (res_main_v152 V) (xrow V r.val) 3 r (lo3 V r) j

/-! ### Layer 4 -/

theorem z4 (r : Fin 8192) (t : Fin 1024) : res_main_v177 V (ix2 r t) = Spec.zAt (par V) (xrow V r.val) 4 t :=
  sub_step (A1 V) (A2 V) (A3 V) (A4 V) (A5 V) (A6 V) (res_main_v132 V) (res_main_v142 V) (xrow V r.val) 3 r (z3 V r) (bo3 V r) t

theorem bo4 (r : Fin 8192) (j : Fin 1024) : res_main_v187 V (ix2 r j) = Spec.boAt (par V) (xrow V r.val) 4 j :=
  block_step (A1 V) (A2 V) (A3 V) (A4 V) (A5 V) (A6 V) (res_main_v177 V) (xrow V r.val) 4 r (z4 V r) j

theorem lo4 (r : Fin 8192) (j : Fin 1024) : res_main_v197 V (ix2 r j) = Spec.loutAt (par V) (xrow V r.val) 4 j :=
  lout_step (A1 V) (A2 V) (A3 V) (A4 V) (A5 V) (A6 V) (res_main_v187 V) (xrow V r.val) 4
    ![4, 0, 0] rfl slices_S5x1024x1024_S1x1024x1024_4_0_0 ![4, 0] rfl slices_S5x1024_S1x1024_4_0 r (bo4 V r) j

theorem c4 (r : Fin 8192) (j : Fin 1024) : res_main_v214 V (ix2 r j) = Spec.cAt (par V) (xrow V r.val) 4 j :=
  cos_step (A1 V) (A2 V) (A3 V) (A4 V) (A5 V) (A6 V) (res_main_v197 V) (xrow V r.val) 4 r (lo4 V r) j

/-- The activations after the five layers. -/
theorem z5 (r : Fin 8192) (t : Fin 1024) :
    subf (res_main_v177 V) (res_main_v187 V) (ix2 r t) = Spec.zAt (par V) (xrow V r.val) 5 t :=
  sub_step (A1 V) (A2 V) (A3 V) (A4 V) (A5 V) (A6 V) (res_main_v177 V) (res_main_v187 V) (xrow V r.val) 4 r (z4 V r) (bo4 V r) t

/-! ### The three results -/

/-- The total of the five block outputs is the first target array. -/
theorem inv_eq :
    addf (addf (addf (addf (res_main_v9 V) (res_main_v52 V)) (res_main_v97 V)) (res_main_v142 V)) (res_main_v187 V)
      = Target.Ginv (A0 V) (A1 V) (A2 V) (A3 V) (A4 V) (A5 V) (A6 V) := by
  funext i
  obtain ⟨r, j, rfl⟩ : ∃ r j, i = ix2 r j := ⟨i 0, i 1, eq_ix2 i⟩
  rw [Target.Ginv_apply, addf_apply, addf_apply, addf_apply, addf_apply, bo0 V r j, bo1 V r j, bo2 V r j,
    bo3 V r j, bo4 V r j]
  -- the total after five layers, from zero
  have h5 : Spec.invAt (par V) (xrow V r.val) 5 j
      = ((((0 + Spec.boAt (par V) (xrow V r.val) 0 j) + Spec.boAt (par V) (xrow V r.val) 1 j)
        + Spec.boAt (par V) (xrow V r.val) 2 j) + Spec.boAt (par V) (xrow V r.val) 3 j)
        + Spec.boAt (par V) (xrow V r.val) 4 j := rfl
  rw [zero_add] at h5
  exact h5.symm

/-- The activations after the five layers are the second target array. -/
theorem nxt_eq :
    subf (res_main_v177 V) (res_main_v187 V) = Target.Gnxt (A0 V) (A1 V) (A2 V) (A3 V) (A4 V) (A5 V) (A6 V) := by
  funext i
  obtain ⟨r, j, rfl⟩ : ∃ r j, i = ix2 r j := ⟨i 0, i 1, eq_ix2 i⟩
  rw [Target.Gnxt_apply]
  exact z5 V r j

/-- The five layers' loss terms are the third target array. -/
theorem loss_eq :
    addf (addf (addf (addf
      (broadcastInDim S1024x1024 ![1] bcast_S1024_S1024x1024_1 (Host.reduceAdd (Host.absf (subf (extractStridedSlice S8191x1024 ![1, 0] (res_main_v35 V) slices_S8192x1024_S8191x1024_1_0) (extractStridedSlice S8191x1024 ![0, 0] (res_main_v35 V) slices_S8192x1024_S8191x1024_0_0))) (constant S_ .f32 0x00000000#32) reducesTo_S8191x1024_S1024_d0 h_S_))
      (broadcastInDim S1024x1024 ![1] bcast_S1024_S1024x1024_1 (Host.reduceAdd (Host.absf (subf (extractStridedSlice S8191x1024 ![1, 0] (res_main_v79 V) slices_S8192x1024_S8191x1024_1_0) (extractStridedSlice S8191x1024 ![0, 0] (res_main_v79 V) slices_S8192x1024_S8191x1024_0_0))) (constant S_ .f32 0x00000000#32) reducesTo_S8191x1024_S1024_d0 h_S_)))
      (broadcastInDim S1024x1024 ![1] bcast_S1024_S1024x1024_1 (Host.reduceAdd (Host.absf (subf (extractStridedSlice S8191x1024 ![1, 0] (res_main_v124 V) slices_S8192x1024_S8191x1024_1_0) (extractStridedSlice S8191x1024 ![0, 0] (res_main_v124 V) slices_S8192x1024_S8191x1024_0_0))) (constant S_ .f32 0x00000000#32) reducesTo_S8191x1024_S1024_d0 h_S_)))
      (broadcastInDim S1024x1024 ![1] bcast_S1024_S1024x1024_1 (Host.reduceAdd (Host.absf (subf (extractStridedSlice S8191x1024 ![1, 0] (res_main_v169 V) slices_S8192x1024_S8191x1024_1_0) (extractStridedSlice S8191x1024 ![0, 0] (res_main_v169 V) slices_S8192x1024_S8191x1024_0_0))) (constant S_ .f32 0x00000000#32) reducesTo_S8191x1024_S1024_d0 h_S_)))
      (broadcastInDim S1024x1024 ![1] bcast_S1024_S1024x1024_1 (Host.reduceAdd (Host.absf (subf (extractStridedSlice S8191x1024 ![1, 0] (res_main_v214 V) slices_S8192x1024_S8191x1024_1_0) (extractStridedSlice S8191x1024 ![0, 0] (res_main_v214 V) slices_S8192x1024_S8191x1024_0_0))) (constant S_ .f32 0x00000000#32) reducesTo_S8191x1024_S1024_d0 h_S_))
      = Target.Gloss (A0 V) (A1 V) (A2 V) (A3 V) (A4 V) (A5 V) (A6 V) := by
  funext i
  obtain ⟨a, j, rfl⟩ : ∃ a j, i = ix2 a j := ⟨i 0, i 1, eq_ix2 i⟩
  rw [Target.Gloss_apply, addf_apply, addf_apply, addf_apply, addf_apply,
    loss_layer (res_main_v35 V) (fun r => Spec.cAt (par V) (xrow V r) 0) (fun r j => c0 V r j) a j,
    loss_layer (res_main_v79 V) (fun r => Spec.cAt (par V) (xrow V r) 1) (fun r j => c1 V r j) a j,
    loss_layer (res_main_v124 V) (fun r => Spec.cAt (par V) (xrow V r) 2) (fun r j => c2 V r j) a j,
    loss_layer (res_main_v169 V) (fun r => Spec.cAt (par V) (xrow V r) 3) (fun r j => c3 V r j) a j,
    loss_layer (res_main_v214 V) (fun r => Spec.cAt (par V) (xrow V r) 4) (fun r j => c4 V r j) a j]
  rfl

end Layers

/-- Every weakly fair execution of the reference ends with its three results at the target arrays of its own
    arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v188) = Target.Ginv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v222) = Target.Gnxt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v221) = Target.Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  -- the generated run, with each of its three composed terms read as the target array
  refine (θ_run defs _ _).mono ?_ (Cert.ReferenceIdeal.Value.run (F := Ideal) m ρ)
  intro _ h c
  obtain ⟨h1, h2, h3, hargs⟩ := h c
  exact ⟨h1.trans (inv_eq (launchContents m c)), h2.trans (nxt_eq (launchContents m c)),
    h3.trans (loss_eq (launchContents m c)), hargs⟩

end Cert.ReferenceIdeal.RefRead

end
-- ==== Proof.lean ====
/-
  The proof of `Cert.Claim`: the three frames, the three format round trips the idealization removed, and the
  equality of the idealized kernel and the idealized reference over the extended reals.

  Both programs push each row of the activations five times through the block `z ↦ (z W1ᵀ + b1) W2ᵀ + b2`,
  subtracting its output from the row and adding it to a total, and both turn a linear read-out of each output into
  the vector `c = u · (∑ u) / max (|u| · 32 · √(∑ u²)) ε` whose absolute differences between consecutive rows are
  summed over all rows and layers. The kernel works on tiles of 64 rows in a counted loop over the layers, forms every
  product `a · w` as `a · w + (a - a) · w` (for the read-out also `a · (w - w)`), and leaves per tile its 63 inner
  differences and its first and last rows, which the host lines after it add up. On finite inputs every entry met
  is a real number, so the added products vanish, `√1024 = 32`, and 8191 consecutive differences are 128 tiles'
  inner ones plus the 127 across tile borders: the two programs end with the same three arrays (`Target.Ginv`,
  `Target.Gnxt`, `Target.Gloss`).
-/
import proofs.«405528_j52175262712147_4_alg».proof.Defs
import proofs.«405528_j52175262712147_4_alg».proof.Proof.Gen.Kernel
import proofs.«405528_j52175262712147_4_alg».proof.Proof.Gen.Kernel.Skeleton
import proofs.«405528_j52175262712147_4_alg».proof.Proof.Gen.Kernel.Loops
import proofs.«405528_j52175262712147_4_alg».proof.Proof.Gen.Kernel.Launch
import proofs.«405528_j52175262712147_4_alg».proof.Proof.Gen.Kernel.Points
import proofs.«405528_j52175262712147_4_alg».proof.Proof.Gen.Kernel.Frame
import proofs.«405528_j52175262712147_4_alg».proof.Proof.Gen.KernelIdeal
import proofs.«405528_j52175262712147_4_alg».proof.Proof.Gen.KernelIdeal.Skeleton
import proofs.«405528_j52175262712147_4_alg».proof.Proof.Gen.KernelIdeal.Loops
import proofs.«405528_j52175262712147_4_alg».proof.Proof.Gen.KernelIdeal.Launch
import proofs.«405528_j52175262712147_4_alg».proof.Proof.Gen.KernelIdeal.Points
import proofs.«405528_j52175262712147_4_alg».proof.Proof.Gen.KernelIdeal.Frame
import proofs.«405528_j52175262712147_4_alg».proof.Proof.Gen.ReferenceIdeal
import proofs.«405528_j52175262712147_4_alg».proof.Proof.Gen.Pre_finite_inputs
import proofs.«405528_j52175262712147_4_alg».proof.Proof.Gen.ReferenceIdeal.Run
import proofs.«405528_j52175262712147_4_alg».proof.Proof.FinPre
import proofs.«405528_j52175262712147_4_alg».proof.Proof.KRun
import proofs.«405528_j52175262712147_4_alg».proof.Proof.RefRead
import Idealize.ShloMosaic.Adequacy
import Idealize.ShloMosaic.Init

noncomputable section

namespace Cert.Proof

open Idealize.ShloMosaic Idealize.ShloMosaic.TcCoe Idealize.SL.Sem

/-- Under the precondition every argument the products' remainders touch holds real numbers. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KBlocks.RealArgs m c := by
  obtain ⟨h0, h1, h2, h3, h4, h5, _⟩ := Cert.FinPre.real_of_pre _ _ _ _ _ _ _ (hpre c)
  exact ⟨h0, h1, h2, h3, h4, h5⟩

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.RefRead.run m ρ)

/-- The three removed round trips through the narrower format are the identity on extended reals. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- Both programs end at the target arrays of the kernel's arguments. -/
theorem algebraic : Cert.algebraic_KernelIdeal_ReferenceIdeal := by
  intro m ρ m' ρ' hpre hagree
  refine ⟨fun c => Cert.Target.Ginv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Target.Gnxt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Target.Gloss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KRun.run m ρ (fun c => real_of_pre m hpre c), ?_⟩
  refine (θ_run Cert.ReferenceIdeal.defs _ _).mono (fun _ h c => ?_) (Cert.ReferenceIdeal.RefRead.run m' ρ')
  obtain ⟨e0, e1, e2, e3, e4, e5, e6⟩ := hagree c
  obtain ⟨r0, r1, r2, k⟩ := h c
  refine ⟨r0.trans ?_, r1.trans ?_, r2.trans ?_, k⟩ <;> rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
